-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S1600000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg2 main_v19
  let main_c_7 : IVec S_ 32 := constantI S_ 32 100000#32
  let main_v21 : IVec S1600000 32 := broadcastInDim S1600000 ![] bcast_S_S1600000 main_c_7
  let main_v22 : IVec S1600000 1 := cmpi .slt main_arg2 main_v21
  let main_v23 : IVec S1600000 1 := andi main_v20 main_v22
  let main_c_8 : IVec S_ 1 := constantI S_ 1 1#1
  let main_v24 : IVec S_ 1 := (fun x v => Host.reduce IntOp.andi x v reducesTo_S1600000_S_d0 h_S_) main_v23 main_c_8
  let main_v25 : IVec S_ 1 := andi main_v18 main_v24
  main_v25

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S2000x128 : Shape := ⟨2, ![2000, 128]⟩
abbrev S1600000x1 : Shape := ⟨2, ![1600000, 1]⟩
abbrev S1600000x128 : Shape := ⟨2, ![1600000, 128]⟩
abbrev S2560x1 : Shape := ⟨2, ![2560, 1]⟩
abbrev S1000x128 : Shape := ⟨2, ![1000, 128]⟩
abbrev S2560x128 : Shape := ⟨2, ![2560, 128]⟩
abbrev S2560x1000 : Shape := ⟨2, ![2560, 1000]⟩
abbrev S1x1600000 : Shape := ⟨2, ![1, 1600000]⟩
abbrev S1x128 : Shape := ⟨2, ![1, 128]⟩
abbrev S1x2560 : Shape := ⟨2, ![1, 2560]⟩
abbrev S1000x2560 : Shape := ⟨2, ![1000, 2560]⟩

abbrev nBuf : Space → Nat
  | .hbm => 14
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1600000x1, .i32⟩
  | .hbm, ⟨9, _⟩ => ⟨S1600000x1, .f32⟩
  | .hbm, ⟨10, _⟩ => ⟨S1600000x128, .f32⟩
  | .hbm, ⟨11, _⟩ => ⟨S1x1600000, .i32⟩
  | .hbm, ⟨12, _⟩ => ⟨S1x128, .f32⟩
  | .hbm, ⟨13, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2560x1, .i32⟩
  | .local _ .vmem, ⟨6, _⟩ => ⟨S2560x1, .i32⟩
  | .local _ .vmem, ⟨7, _⟩ => ⟨S2560x1, .f32⟩
  | .local _ .vmem, ⟨8, _⟩ => ⟨S2560x1, .f32⟩
  | .local _ .vmem, ⟨9, _⟩ => ⟨S1000x128, .f32⟩
  | .local _ .vmem, ⟨10, _⟩ => ⟨S1000x128, .f32⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | .local _ .vmem, ⟨14, _⟩ => ⟨S1x2560, .i32⟩
  | .local _ .vmem, ⟨15, _⟩ => ⟨S1x2560, .i32⟩
  | .local _ .vmem, ⟨16, _⟩ => ⟨S2560x128, .f32⟩
  | .local _ .vmem, ⟨17, _⟩ => ⟨S2560x128, .f32⟩
  | .local _ .vmem, ⟨18, _⟩ => ⟨S1x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![625, 100], ![false, false]⟩

def k1_cond2 (i : grid1.Coords) : BitVec 1 :=
  let arg1 : BitVec 32 := BitVec.ofNat 32 (i 1).val
  let c99_i32 : BitVec 32 := 99#32
  let v23 : BitVec 1 := Scalar.cmpi .eq arg1 c99_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2560x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2560x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![100, 625], ![false, false]⟩

def k2_cond2 (i : grid2.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2560 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2560x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1600000_S1600000x1 : S1600000.ShapeCasts S1600000x1
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  iota_S2560x1000_d1_w32 : S2560x1000.Iotas .tc 32 [1]
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x1000 : S2560x1.Broadcasts S2560x1000
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S2560x1_S2560x128 : S2560x1.Broadcasts S2560x128
  shapeCasts_S1600000_S1x1600000 : S1600000.ShapeCasts S1x1600000
  shapeCasts_S128_S1x128 : S128.ShapeCasts S1x128
  iota_S1000x2560_d0_w32 : S1000x2560.Iotas .tc 32 [0]
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1000x2560 : S1x2560.Broadcasts S1000x2560
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  dot_S2000x128_S128x128_S2000x128_1_0_0_1_n_n_wf : DotDims.WF S2000x128 S128x128 S2000x128 [1] [0] [0] [1] [] []
  dot_S2560x1000_S1000x128_S2560x128_1_0_0_1_n_n_wf : DotDims.WF S2560x1000 S1000x128 S2560x128 [1] [0] [0] [1] [] []
  dot_S1000x2560_S2560x128_S1000x128_1_0_0_1_n_n_wf : DotDims.WF S1000x2560 S2560x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x1.size a ≤ S1600000x1.size a
  hwx1_0 : ∀ i : grid1.Coords, EltTy.bits .i32 = 32 ∨ (Rect.block (s := S1600000x1) S2560x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x1.size a ≤ S1600000x1.size a
  hwx1_1 : ∀ i : grid1.Coords, EltTy.bits .f32 = 32 ∨ (Rect.block (s := S1600000x1) S2560x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x128.size a ≤ S1600000x128.size a
  hwx1_3 : ∀ i : grid1.Coords, EltTy.bits .f32 = 32 ∨ (Rect.block (s := S1600000x128) S2560x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2560.size a ≤ S1x1600000.size a
  hwx2_0 : ∀ i : grid2.Coords, EltTy.bits .i32 = 32 ∨ (Rect.block (s := S1x1600000) S1x2560.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S1600000x128.size a
  hwx2_1 : ∀ i : grid2.Coords, EltTy.bits .f32 = 32 ∨ (Rect.block (s := S1600000x128) S2560x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S100000x128.size a
  hwx2_3 : ∀ i : grid2.Coords, EltTy.bits .f32 = 32 ∨ (Rect.block (s := S100000x128) S1000x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2560x1000_S1000x128_S2560x128_1_0_0_1_n_n : DotDims S2560x1000 S1000x128 S2560x128 where
  lhsContracting := [1]
  rhsContracting := [0]
  lhsNonContracting := [0]
  rhsNonContracting := [1]
  lhsBatch := []
  rhsBatch := []
  wf := dot_S2560x1000_S1000x128_S2560x128_1_0_0_1_n_n_wf
def dot_S1000x2560_S2560x128_S1000x128_1_0_0_1_n_n : DotDims S1000x2560 S2560x128 S1000x128 where
  lhsContracting := [1]
  rhsContracting := [0]
  lhsNonContracting := [0]
  rhsNonContracting := [1]
  lhsBatch := []
  rhsBatch := []
  wf := dot_S1000x2560_S2560x128_S1000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S2560x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2560x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2560x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v5) S1x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.K.ProjectData.lean ====
/-
  The first kernel region, the dense projection: its blocks and its proof data. At grid point t (one of 50) the body
  multiplies a block of 2000 rows of the node features by the whole transposed weight matrix and stores the product
  over the whole output block; nothing is carried between points. Stated at a parameter V: the buffer contents when
  the region is entered.
-/
import proofs.«411619_j43928925503801_1_alg».proof.Proof.Gen.Kernel.Launch
import proofs.«411619_j43928925503801_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows of point t, and the transposed weights, at their literal shapes. -/
abbrev xrows0 (c : Dev nD) (t : Fin cfg0.N) : Vec F S2000x128 .f32 := iblk0 V c 0 t
abbrev wT0 (c : Dev nD) (t : Fin cfg0.N) : Vec F S128x128 .f32 := iblk0 V c 1 t

/-- The proof data: the arrays as the region finds them; after the body each input's buffer still holds its block and
    the output's holds the product; the invariant is the scoped buffers no window stages and the generator register,
    untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xrows0 V c t) (wT0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (xrows0 V c t) (wT0 V c t) := by dsimp only [dat0]

end Cert.Kernel.Regions

end
-- ==== Proof.K.GatherData.lean ====
/-
  The second kernel region, the gather by a one-hot product: its blocks, the accumulator it carries, and its proof
  data. The grid is 625 edge tiles by 100 node tiles, the node tile innermost. At a point the body compares the edge
  tile's column indices with the node ids of the node tile, multiplies that 0/1 matrix with the node tile of the
  projected features on the matrix unit, and adds the product to a scratch accumulator that it first clears when the
  node tile is the first; at the last node tile it stores the accumulator times the edge values into the output block.
  So the scratch after point n is one step of a recursion over the points, and the output block at the last node
  tile is a function of the scratch there. Stated at a parameter V: the buffer contents when the region is entered.
-/
import proofs.«411619_j43928925503801_1_alg».proof.Proof.Gen.Kernel.Launch
import proofs.«411619_j43928925503801_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile's column indices and edge values and the node tile of projected features, at their literal shapes. -/
abbrev cols1 (c : Dev nD) (t : Fin cfg1.N) : Vec F S2560x1 .i32 := iblk1 V c 0 t
abbrev vals1 (c : Dev nD) (t : Fin cfg1.N) : Vec F S2560x1 .f32 := iblk1 V c 1 t
abbrev ytile1 (c : Dev nD) (t : Fin cfg1.N) : Vec F S1000x128 .f32 := iblk1 V c 2 t

/-- The body's first branch: the node tile is the first of its row of the grid. -/
abbrev first1 (i : grid1.Coords) : Prop :=
  (Scalar.cmpi .ne (Scalar.extui (Scalar.cmpi .eq (BitVec.ofNat 32 (i 1).val) 0#32)) 0#32) = 1#1
/-- Its second branch: the node tile is the last. -/
abbrev last1 (i : grid1.Coords) : Prop := k1_cond2 i = 1#1

/-- What one run of the body leaves in the scratch, from what it found there: cleared first when the node tile is the
    first, then the one-hot product added. -/
def step1 (i : grid1.Coords) (cols : Vec F S2560x1 .i32) (y : Vec F S1000x128 .f32) (xs : Vec F S2560x128 .f32) :
    Vec F S2560x128 .f32 :=
  k1_pay2 i cols y (if first1 i then k1_pay1 else xs)

/-- What one run of the body leaves in the output block, from what it found there: at the last node tile the new
    scratch times the edge values, otherwise what was there. -/
def emit1 (i : grid1.Coords) (acc : Vec F S2560x128 .f32) (vals : Vec F S2560x1 .f32) (xo : Vec F S2560x128 .f32) :
    Vec F S2560x128 .f32 :=
  if last1 i then k1_pay3 acc vals else xo

/-- The scratch after the body at point n: the recursion over the points. -/
def acc1 (c : Dev nD) : (n : ℕ) → n < cfg1.N → Vec F S2560x128 .f32
  | 0, hn => step1 (grid1.coords ⟨0, hn⟩) (cols1 V c ⟨0, hn⟩) (ytile1 V c ⟨0, hn⟩) k1_pay1
  | n + 1, hn => step1 (grid1.coords ⟨n + 1, hn⟩) (cols1 V c ⟨n + 1, hn⟩) (ytile1 V c ⟨n + 1, hn⟩) (acc1 c n (Nat.lt_of_succ_lt hn))

theorem acc1_zero (c : Dev nD) (hn : 0 < cfg1.N) :
    acc1 V c 0 hn = step1 (grid1.coords ⟨0, hn⟩) (cols1 V c ⟨0, hn⟩) (ytile1 V c ⟨0, hn⟩) k1_pay1 := rfl
theorem acc1_succ (c : Dev nD) (n : ℕ) (hn : n + 1 < cfg1.N) :
    acc1 V c (n + 1) hn = step1 (grid1.coords ⟨n + 1, hn⟩) (cols1 V c ⟨n + 1, hn⟩) (ytile1 V c ⟨n + 1, hn⟩) (acc1 V c n (Nat.lt_of_succ_lt hn)) := rfl

/-- The scratch the kernel carries, as a whole memref. -/
abbrev scM1 : Memref sig .tc .vmem S2560x128 .f32 := Memref.whole cc1_scratch0

/-- The scoped buffers that are neither a staging buffer of this region nor its scratch, each at some contents, and
    the generator register at some state: what the body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_scratch0), ((c : Thread nD τ).loc cc2_scratch0) ↦{fullShare} f)
    ∗ (∃ r, prngReg c r))

/-- The invariant before position n: before the first point the scratch is at anything; afterwards it holds what the
    point before left. -/
def Phi1 (c : Dev nD) : (n : ℕ) → n ≤ cfg1.N → sProp 𝕄
  | 0, _ => iprop((∃ d, owns (c : Thread nD τ) scM1 fullShare d) ∗ rest1 (F := F) c)
  | n + 1, hn => iprop(owns (c : Thread nD τ) scM1 fullShare (acc1 V c n hn) ∗ rest1 (F := F) c)

/-- The proof data: the arrays as the region finds them; after the body each input's buffer still holds its block and
    the output's holds the scratch at that point times the edge values (consulted only at the last node tile, where
    the body stores it); the invariant carries the scratch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (vals1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (vals1 V c t) := by dsimp only [dat1]

end Cert.Kernel.Regions

end
-- ==== Proof.K.ScatterData.lean ====
/-
  The third kernel region, the scatter-add by a one-hot product: its blocks, the accumulator it carries, and its
  proof data. The grid is 100 node tiles by 625 edge tiles, the edge tile innermost. At a point the body compares the
  edge tile's row indices with the node ids of the node tile, multiplies that 0/1 matrix with the edge tile of
  gathered rows on the matrix unit, and adds the product to a scratch accumulator that it first clears when the edge
  tile is the first; at the last edge tile it stores the accumulator plus the bias row into the output block. So the
  scratch after point n is one step of a recursion over the points, and the output block at the last edge tile is a
  function of the scratch there. Stated at a parameter V: the buffer contents when the region is entered.
-/
import proofs.«411619_j43928925503801_1_alg».proof.Proof.Gen.Kernel.Launch
import proofs.«411619_j43928925503801_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge tile's row indices, its gathered rows, and the bias row, at their literal shapes. -/
abbrev rows2 (c : Dev nD) (t : Fin cfg2.N) : Vec F S1x2560 .i32 := iblk2 V c 0 t
abbrev gtile2 (c : Dev nD) (t : Fin cfg2.N) : Vec F S2560x128 .f32 := iblk2 V c 1 t
abbrev bias2 (c : Dev nD) (t : Fin cfg2.N) : Vec F S1x128 .f32 := iblk2 V c 2 t

/-- The body's first branch: the edge tile is the first of its row of the grid. -/
abbrev first2 (i : grid2.Coords) : Prop :=
  (Scalar.cmpi .ne (Scalar.extui (Scalar.cmpi .eq (BitVec.ofNat 32 (i 1).val) 0#32)) 0#32) = 1#1
/-- Its second branch: the edge tile is the last. -/
abbrev last2 (i : grid2.Coords) : Prop := k2_cond2 i = 1#1

/-- What one run of the body leaves in the scratch, from what it found there: cleared first when the edge tile is the
    first, then the one-hot product added. -/
def step2 (i : grid2.Coords) (rows : Vec F S1x2560 .i32) (g : Vec F S2560x128 .f32) (xs : Vec F S1000x128 .f32) :
    Vec F S1000x128 .f32 :=
  k2_pay2 i rows g (if first2 i then k2_pay1 else xs)

/-- What one run of the body leaves in the output block, from what it found there: at the last edge tile the new
    scratch plus the bias row, otherwise what was there. -/
def emit2 (i : grid2.Coords) (acc : Vec F S1000x128 .f32) (bias : Vec F S1x128 .f32) (xo : Vec F S1000x128 .f32) :
    Vec F S1000x128 .f32 :=
  if last2 i then k2_pay3 acc bias else xo

/-- The scratch after the body at point n: the recursion over the points. -/
def acc2 (c : Dev nD) : (n : ℕ) → n < cfg2.N → Vec F S1000x128 .f32
  | 0, hn => step2 (grid2.coords ⟨0, hn⟩) (rows2 V c ⟨0, hn⟩) (gtile2 V c ⟨0, hn⟩) k2_pay1
  | n + 1, hn => step2 (grid2.coords ⟨n + 1, hn⟩) (rows2 V c ⟨n + 1, hn⟩) (gtile2 V c ⟨n + 1, hn⟩) (acc2 c n (Nat.lt_of_succ_lt hn))

theorem acc2_zero (c : Dev nD) (hn : 0 < cfg2.N) :
    acc2 V c 0 hn = step2 (grid2.coords ⟨0, hn⟩) (rows2 V c ⟨0, hn⟩) (gtile2 V c ⟨0, hn⟩) k2_pay1 := rfl
theorem acc2_succ (c : Dev nD) (n : ℕ) (hn : n + 1 < cfg2.N) :
    acc2 V c (n + 1) hn = step2 (grid2.coords ⟨n + 1, hn⟩) (rows2 V c ⟨n + 1, hn⟩) (gtile2 V c ⟨n + 1, hn⟩) (acc2 V c n (Nat.lt_of_succ_lt hn)) := rfl

/-- The scratch the kernel carries, as a whole memref. -/
abbrev scM2 : Memref sig .tc .vmem S1000x128 .f32 := Memref.whole cc2_scratch0

/-- The scoped buffers that are neither a staging buffer of this region nor its scratch, each at some contents, and
    the generator register at some state: what the body never touches. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ r, prngReg c r))

/-- The invariant before position n: before the first point the scratch is at anything; afterwards it holds what the
    point before left. -/
def Phi2 (c : Dev nD) : (n : ℕ) → n ≤ cfg2.N → sProp 𝕄
  | 0, _ => iprop((∃ d, owns (c : Thread nD τ) scM2 fullShare d) ∗ rest2 (F := F) c)
  | n + 1, hn => iprop(owns (c : Thread nD τ) scM2 fullShare (acc2 V c n hn) ∗ rest2 (F := F) c)

/-- The proof data: the arrays as the region finds them; after the body each input's buffer still holds its block and
    the output's holds the scratch at that point plus the bias row (consulted only at the last edge tile, where the
    body stores it); the invariant carries the scratch; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (bias2 V c t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (bias2 V c t) := by dsimp only [dat2]

end Cert.Kernel.Regions

end
-- ==== Proof.K.Boundaries.lean ====
/-
  What the TensorCore's unscoped buffers hold between the segments of the program, as a fold from the launch memory:
  the weight transpose on the host; the projection; the two reshapes of the column indices and the edge values; the
  gather; the reshapes of the row indices and the bias; the scatter-add. A host stretch applies its operations; a
  kernel region leaves each of its arrays at what its write-backs fold to and every other buffer as it found it.
-/
import proofs.«411619_j43928925503801_1_alg».proof.Proof.K.ProjectData
import proofs.«411619_j43928925503801_1_alg».proof.Proof.K.GatherData
import proofs.«411619_j43928925503801_1_alg».proof.Proof.K.ScatterData

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the weight transpose: the projection is entered from here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshapes of the column indices and the edge values: the gather is entered from here. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the gather. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the reshapes of the row indices and the bias: the scatter-add is entered from here. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the scatter-add: what the program returns from. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.Kernel.Regions

end
-- ==== Proof.K.Schedule.lean ====
/-
  The schedule of the three grids in closed form. A grid point t of a grid with inner extent n has outer coordinate
  t / n and inner coordinate t % n; the body's two branches test the inner coordinate against 0 and against n - 1;
  an output block whose index is the outer coordinate is written back exactly where the inner coordinate is n - 1.
-/
import proofs.«411619_j43928925503801_1_alg».proof.Proof.Gen.Kernel.Launch
import proofs.«411619_j43928925503801_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«411619_j43928925503801_1_alg».proof.Proof.K.GatherData
import proofs.«411619_j43928925503801_1_alg».proof.Proof.K.ScatterData

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The grids' sizes and coordinates -/

theorem N0 : cfg0.N = 50 := N_0
theorem N1 : cfg1.N = 62500 := N_1
theorem N2 : cfg2.N = 62500 := N_2

theorem coords0_0 (t : Fin cfg0.N) : (grid0.coords t 0).val = t.val := by
  have h : t.val < 50 := lt_of_lt_of_eq t.isLt N0
  show t.val / grid0.stride 0 % 50 = t.val
  rw [show grid0.stride 0 = 1 from by decide]; omega

theorem coords1_0 (t : Fin cfg1.N) : (grid1.coords t 0).val = t.val / 100 := by
  have h : t.val < 62500 := lt_of_lt_of_eq t.isLt N1
  show t.val / grid1.stride 0 % 625 = t.val / 100
  rw [show grid1.stride 0 = 100 from by decide]; omega
theorem coords1_1 (t : Fin cfg1.N) : (grid1.coords t 1).val = t.val % 100 := by
  show t.val / grid1.stride 1 % 100 = t.val % 100
  rw [show grid1.stride 1 = 1 from by decide]; omega

theorem coords2_0 (t : Fin cfg2.N) : (grid2.coords t 0).val = t.val / 625 := by
  have h : t.val < 62500 := lt_of_lt_of_eq t.isLt N2
  show t.val / grid2.stride 0 % 100 = t.val / 625
  rw [show grid2.stride 0 = 625 from by decide]; omega
theorem coords2_1 (t : Fin cfg2.N) : (grid2.coords t 1).val = t.val % 625 := by
  show t.val / grid2.stride 1 % 625 = t.val % 625
  rw [show grid2.stride 1 = 1 from by decide]; omega

/-! ## The block index of each window at a point -/

theorem toNat_ofNat_small (k : ℕ) (hk : k < 100000) : (BitVec.ofNat 32 k).toNat = k := by
  rw [BitVec.toNat_ofNat]; exact Nat.mod_eq_of_lt (by omega)

theorem index0_0 (t : Fin cfg0.N) : (cfg0.win 0).index t = ![t.val, 0] := by
  have h : t.val < 50 := lt_of_lt_of_eq t.isLt N0
  show cc0_transform_0 (grid0.coords t) = _
  unfold cc0_transform_0; dsimp only
  rw [coords0_0, toNat_ofNat_small t.val (by omega)]; rfl
theorem index0_1 (t : Fin cfg0.N) : (cfg0.win 1).index t = ![0, 0] := by
  show cc0_transform_1 (grid0.coords t) = _
  unfold cc0_transform_1; dsimp only; rfl
theorem index0_2 (t : Fin cfg0.N) : (cfg0.win 2).index t = ![t.val, 0] := by
  have h : t.val < 50 := lt_of_lt_of_eq t.isLt N0
  show cc0_transform_2 (grid0.coords t) = _
  unfold cc0_transform_2; dsimp only
  rw [coords0_0, toNat_ofNat_small t.val (by omega)]; rfl

theorem index1_0 (t : Fin cfg1.N) : (cfg1.win 0).index t = ![t.val / 100, 0] := by
  have h : t.val < 62500 := lt_of_lt_of_eq t.isLt N1
  show cc1_transform_0 (grid1.coords t) = _
  unfold cc1_transform_0; dsimp only
  rw [coords1_0, toNat_ofNat_small (t.val / 100) (by omega)]; rfl
theorem index1_1 (t : Fin cfg1.N) : (cfg1.win 1).index t = ![t.val / 100, 0] := by
  have h : t.val < 62500 := lt_of_lt_of_eq t.isLt N1
  show cc1_transform_1 (grid1.coords t) = _
  unfold cc1_transform_1; dsimp only
  rw [coords1_0, toNat_ofNat_small (t.val / 100) (by omega)]; rfl
theorem index1_2 (t : Fin cfg1.N) : (cfg1.win 2).index t = ![t.val % 100, 0] := by
  show cc1_transform_2 (grid1.coords t) = _
  unfold cc1_transform_2; dsimp only
  rw [coords1_1, toNat_ofNat_small (t.val % 100) (by omega)]; rfl
theorem index1_3 (t : Fin cfg1.N) : (cfg1.win 3).index t = ![t.val / 100, 0] := by
  have h : t.val < 62500 := lt_of_lt_of_eq t.isLt N1
  show cc1_transform_3 (grid1.coords t) = _
  unfold cc1_transform_3; dsimp only
  rw [coords1_0, toNat_ofNat_small (t.val / 100) (by omega)]; rfl

theorem index2_0 (t : Fin cfg2.N) : (cfg2.win 0).index t = ![0, t.val % 625] := by
  show cc2_transform_0 (grid2.coords t) = _
  unfold cc2_transform_0; dsimp only
  rw [coords2_1, toNat_ofNat_small (t.val % 625) (by omega)]; rfl
theorem index2_1 (t : Fin cfg2.N) : (cfg2.win 1).index t = ![t.val % 625, 0] := by
  show cc2_transform_1 (grid2.coords t) = _
  unfold cc2_transform_1; dsimp only
  rw [coords2_1, toNat_ofNat_small (t.val % 625) (by omega)]; rfl
theorem index2_2 (t : Fin cfg2.N) : (cfg2.win 2).index t = ![0, 0] := by
  show cc2_transform_2 (grid2.coords t) = _
  unfold cc2_transform_2; dsimp only; rfl
theorem index2_3 (t : Fin cfg2.N) : (cfg2.win 3).index t = ![t.val / 625, 0] := by
  have h : t.val < 62500 := lt_of_lt_of_eq t.isLt N2
  show cc2_transform_3 (grid2.coords t) = _
  unfold cc2_transform_3; dsimp only
  rw [coords2_0, toNat_ofNat_small (t.val / 625) (by omega)]; rfl

/-! ## Where the body's branches are taken -/

theorem firstChain100 : ∀ k : Fin 100,
    ((Scalar.cmpi .ne (Scalar.extui (Scalar.cmpi .eq (BitVec.ofNat 32 k.val) 0#32)) 0#32) = 1#1) ↔ k.val = 0 := by decide +kernel
theorem lastChain100 : ∀ k : Fin 100,
    ((Scalar.cmpi .ne (Scalar.extui (Scalar.cmpi .eq (BitVec.ofNat 32 k.val) 99#32)) 0#32) = 1#1) ↔ k.val = 99 := by decide +kernel
theorem firstChain625 : ∀ k : Fin 625,
    ((Scalar.cmpi .ne (Scalar.extui (Scalar.cmpi .eq (BitVec.ofNat 32 k.val) 0#32)) 0#32) = 1#1) ↔ k.val = 0 := by decide +kernel
theorem lastChain625 : ∀ k : Fin 625,
    ((Scalar.cmpi .ne (Scalar.extui (Scalar.cmpi .eq (BitVec.ofNat 32 k.val) 624#32)) 0#32) = 1#1) ↔ k.val = 624 := by decide +kernel

/-- The gather's scratch is cleared at the points whose node tile is the first. -/
theorem first1_iff (t : Fin cfg1.N) : first1 (grid1.coords t) ↔ t.val % 100 = 0 := by
  show ((Scalar.cmpi .ne (Scalar.extui (Scalar.cmpi .eq (BitVec.ofNat 32 (grid1.coords t 1).val) 0#32)) 0#32) = 1#1) ↔ _
  rw [coords1_1]; exact firstChain100 ⟨t.val % 100, Nat.mod_lt _ (by omega)⟩
/-- Its output block is stored at the points whose node tile is the last. -/
theorem last1_iff (t : Fin cfg1.N) : last1 (grid1.coords t) ↔ t.val % 100 = 99 := by
  show ((Scalar.cmpi .ne (Scalar.extui (Scalar.cmpi .eq (BitVec.ofNat 32 (grid1.coords t 1).val) 99#32)) 0#32) = 1#1) ↔ _
  rw [coords1_1]; exact lastChain100 ⟨t.val % 100, Nat.mod_lt _ (by omega)⟩
/-- The scatter's scratch is cleared at the points whose edge tile is the first. -/
theorem first2_iff (t : Fin cfg2.N) : first2 (grid2.coords t) ↔ t.val % 625 = 0 := by
  show ((Scalar.cmpi .ne (Scalar.extui (Scalar.cmpi .eq (BitVec.ofNat 32 (grid2.coords t 1).val) 0#32)) 0#32) = 1#1) ↔ _
  rw [coords2_1]; exact firstChain625 ⟨t.val % 625, Nat.mod_lt _ (by omega)⟩
/-- Its output block is stored at the points whose edge tile is the last. -/
theorem last2_iff (t : Fin cfg2.N) : last2 (grid2.coords t) ↔ t.val % 625 = 624 := by
  show ((Scalar.cmpi .ne (Scalar.extui (Scalar.cmpi .eq (BitVec.ofNat 32 (grid2.coords t 1).val) 624#32)) 0#32) = 1#1) ↔ _
  rw [coords2_1]; exact lastChain625 ⟨t.val % 625, Nat.mod_lt _ (by omega)⟩

/-! ## Where the outputs are written back -/

/-- The projection's output block is written back at every point: its block index is the point. -/
theorem flush0_2 (t : Fin cfg0.N) : (cfg0.win 2).flush t = true := by
  have h : t.val < 50 := lt_of_lt_of_eq t.isLt N0
  have hN : cfg0.grid.N = 50 := N0
  unfold Pipeline.Window.flush
  rw [show (cfg0.win 2).isOut = true from rfl, Bool.true_and, Bool.or_eq_true, decide_eq_true_eq, decide_eq_true_eq]
  by_cases hl : t.val + 1 = cfg0.grid.N
  · exact .inl hl
  · have hl' : t.val + 1 < cfg0.grid.N := by omega
    refine .inr ⟨hl', fun e => ?_⟩
    have e0 := congrFun e 0
    rw [index0_2, index0_2] at e0
    simp only [Matrix.cons_val_zero] at e0
    omega

/-- The gather's output block is written back exactly at the last node tile of each edge tile. -/
theorem flush1_3_iff (t : Fin cfg1.N) : (cfg1.win 3).flush t = true ↔ t.val % 100 = 99 := by
  have h : t.val < 62500 := lt_of_lt_of_eq t.isLt N1
  have hN : cfg1.grid.N = 62500 := N1
  unfold Pipeline.Window.flush
  rw [show (cfg1.win 3).isOut = true from rfl, Bool.true_and, Bool.or_eq_true, decide_eq_true_eq, decide_eq_true_eq]
  constructor
  · rintro (hl | ⟨hl, hne⟩)
    · omega
    · by_contra hc
      apply hne
      rw [index1_3, index1_3]
      have : (t.val + 1) / 100 = t.val / 100 := by omega
      simp only [this]
  · intro hm
    by_cases hl : t.val + 1 = cfg1.grid.N
    · exact .inl hl
    · have hl' : t.val + 1 < cfg1.grid.N := by omega
      refine .inr ⟨hl', fun e => ?_⟩
      have e0 := congrFun e 0
      rw [index1_3, index1_3] at e0
      simp only [Matrix.cons_val_zero] at e0
      omega

/-- The scatter's output block is written back exactly at the last edge tile of each node tile. -/
theorem flush2_3_iff (t : Fin cfg2.N) : (cfg2.win 3).flush t = true ↔ t.val % 625 = 624 := by
  have h : t.val < 62500 := lt_of_lt_of_eq t.isLt N2
  have hN : cfg2.grid.N = 62500 := N2
  unfold Pipeline.Window.flush
  rw [show (cfg2.win 3).isOut = true from rfl, Bool.true_and, Bool.or_eq_true, decide_eq_true_eq, decide_eq_true_eq]
  constructor
  · rintro (hl | ⟨hl, hne⟩)
    · omega
    · by_contra hc
      apply hne
      rw [index2_3, index2_3]
      have : (t.val + 1) / 625 = t.val / 625 := by omega
      simp only [this]
  · intro hm
    by_cases hl : t.val + 1 = cfg2.grid.N
    · exact .inl hl
    · have hl' : t.val + 1 < cfg2.grid.N := by omega
      refine .inr ⟨hl', fun e => ?_⟩
      have e0 := congrFun e 0
      rw [index2_3, index2_3] at e0
      simp only [Matrix.cons_val_zero] at e0
      omega

/-- Where the gather does not store its output block, the pipeline does not write it back, -/
theorem noFlush1_3 (t : Fin cfg1.N) (h : ¬ last1 (grid1.coords t)) : (cfg1.win 3).flush t = false := by
  rw [last1_iff] at h
  cases hf : (cfg1.win 3).flush t
  · rfl
  · exact absurd ((flush1_3_iff t).mp hf) h
/-- and the configuration calls the window idle there; where it stores, live. -/
theorem idle1_3_of_not_last (t : Fin cfg1.N) (h : ¬ last1 (grid1.coords t)) : cfg1.idle 3 (grid1.coords t) = true := by
  show (!(k1_cond2 (grid1.coords t) == 1#1)) = true
  simp only [Bool.not_eq_true', beq_eq_false_iff_ne, ne_eq]; exact h
theorem idle1_3_of_last (t : Fin cfg1.N) (h : last1 (grid1.coords t)) : cfg1.idle 3 (grid1.coords t) = false := by
  show (!(k1_cond2 (grid1.coords t) == 1#1)) = false
  simp only [Bool.not_eq_false', beq_iff_eq]; exact h

theorem noFlush2_3 (t : Fin cfg2.N) (h : ¬ last2 (grid2.coords t)) : (cfg2.win 3).flush t = false := by
  rw [last2_iff] at h
  cases hf : (cfg2.win 3).flush t
  · rfl
  · exact absurd ((flush2_3_iff t).mp hf) h
theorem idle2_3_of_not_last (t : Fin cfg2.N) (h : ¬ last2 (grid2.coords t)) : cfg2.idle 3 (grid2.coords t) = true := by
  show (!(k2_cond2 (grid2.coords t) == 1#1)) = true
  simp only [Bool.not_eq_true', beq_eq_false_iff_ne, ne_eq]; exact h
theorem idle2_3_of_last (t : Fin cfg2.N) (h : last2 (grid2.coords t)) : cfg2.idle 3 (grid2.coords t) = false := by
  show (!(k2_cond2 (grid2.coords t) == 1#1)) = false
  simp only [Bool.not_eq_false', beq_iff_eq]; exact h

end Cert.Kernel.Regions

end
-- ==== Proof.K.ProjectBody.lean ====
/-
  The first kernel region, the dense projection: the body's triple and the body obligation. On whole staging buffers
  holding a block of feature rows and the transposed weights the body leaves both as they were and leaves their
  product in the output's buffer; at every grid point the pipeline hands the body exactly those blocks, so the proof
  data's account of what each buffer holds after the body is met.
-/
import proofs.«411619_j43928925503801_1_alg».proof.Proof.K.ProjectData
import proofs.«411619_j43928925503801_1_alg».proof.Proof.K.Schedule

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging buffers at a point, and the body there -/

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

/-- The body as the pipeline calls it at point t. -/
abbrev bodyAt0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-! ## What the input buffers hold when the body runs -/

/-- The feature block sits in its staging buffer at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The weight block, fetched once, is still in its staging buffer at every later point: its block index never moves. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Loads and stores through a whole buffer

The body reads and writes each buffer through the rectangle of the buffer's own sizes at zero offsets. Stated over an
arbitrary shape: one store through that rectangle, read back, is its payload; a load through it reads the contents. -/

section Whole

variable {Val : EltTy → Type} [∀ e, Nonempty (Val e)] {sg : RefSig} {κ : Kind} {sp : Space} {e : EltTy}

theorem zeroOff2 : (![0, 0] : Fin 2 → ℕ) = fun _ => 0 := by
  funext a; fin_cases a <;> rfl

theorem read_single_whole_store (S : Shape) (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

theorem readAt_whole (S : Shape) (v : View sg κ sp S e) (f : v.ty.Contents Val) {off : Fin S.rank → ℕ}
    (h : off = fun _ => 0) (inb : ∀ a, off a + S.size a ≤ S.size a) :
    v.readAt Val (Rect.unit off S.size inb).toLoadRect f = v.read Val f :=
  (View.readAt_eq_ld v f _).trans (View.ld_unit_zero h inb _)

end Whole

/-! ## The body's triple -/

set_option maxHeartbeats 1000000 in
/-- The body on whole staging buffers: the two inputs are handed back as they were, the output's buffer holds the
    product of the feature block and the transposed weights. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  simp only [read_single_whole_store S2000x128 _ _ zeroOff2, readAt_whole S2000x128 _ _ zeroOff2, readAt_whole S128x128 _ _ zeroOff2]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.K.GatherBody.lean ====
/-
  The second kernel region, the gather by a one-hot product: the body's triple, the body obligation and the two
  entailments of the invariant. On whole staging buffers the body leaves the three inputs as they were; the scratch
  ends at one step of the accumulation (cleared first when the node tile is the first, then the one-hot product
  added); the output's buffer ends at the new scratch times the edge values when the node tile is the last and is
  otherwise untouched. At every grid point the pipeline hands the body exactly the blocks the proof data names and
  the invariant hands it the scratch as the point before left it, so the proof data's account of every buffer after
  the body is met. Before the first point and after the last the invariant is the scoped rest with the scratch at
  some contents.
-/
import proofs.«411619_j43928925503801_1_alg».proof.Proof.K.GatherData
import proofs.«411619_j43928925503801_1_alg».proof.Proof.K.Schedule

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Loads and stores through a whole buffer

The body reads and writes each of its buffers through the rectangle of the buffer's own sizes at zero offsets: a store
through it, made last, leaves its payload whatever was stored before; a load after such a store reads that payload; a
load of untouched contents reads them. -/

section Whole

variable {Val : EltTy → Type} [∀ e, Nonempty (Val e)] {sg : RefSig} {κ : Kind} {sp : Space} {e : EltTy}

private theorem zero2 : (![0, 0] : Fin 2 → ℕ) = fun _ => 0 := by
  funext a; fin_cases a <;> rfl

private theorem read_writes_unit_cons (S : Shape) (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩)]
  exact View.canon_cons_unit_zero h inb w L

private theorem readCov_unit_cons (S : Shape) (v : View sg κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons.mpr (Or.inl rfl), View.mem_set_unit_zero h inb y⟩),
    View.canon_cons_unit_zero h inb w L]
  exact View.ld_unit_zero h inb w

private theorem readAt_unit (S : Shape) (v : View sg κ sp S e) (f : v.ty.Contents Val) {off : Fin S.rank → ℕ}
    (h : off = fun _ => 0) (inb : ∀ a, off a + S.size a ≤ S.size a) :
    v.readAt Val (Rect.unit off S.size inb).toLoadRect f = v.read Val f := by
  rw [View.readAt_eq_ld]; exact View.ld_unit_zero h inb _

end Whole

/-! ## The body's triple -/

set_option maxHeartbeats 4000000 in
/-- The body on whole buffers: the three inputs are handed back as they were; the scratch ends at one step of the
    accumulation from what it held; the output's buffer ends at what the body emits there: the new scratch times the
    edge values at the last node tile, what it held otherwise. By cases on the two branches. -/
theorem sound_kernel1 (c : Dev nD) (E : Set ℕ) (i : grid1.Coords)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (emit1 i (step1 i xc xy xs) xv xo)
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  by_cases h1 : first1 i <;> by_cases h2 : last1 i
  · -- first and last node tile at once
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold emit1 step1; rw [if_pos h2, if_pos h1]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_pos h1]
  · -- the first node tile, not the last: the scratch is cleared, then updated; the output is untouched
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit1; rw [if_neg h2]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_pos h1]
  · -- the last node tile, not the first: the scratch is updated and the output stored
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold emit1 step1; rw [if_pos h2, if_neg h1]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_neg h1]
  · -- neither: the scratch is updated, the output untouched
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit1; rw [if_neg h2]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_neg h1]

/-- The triple where the node tile is the last: the output's buffer ends at the new scratch times the edge values. -/
theorem sound_kernel1_last (c : Dev nD) (E : Set ℕ) (i : grid1.Coords) (hl : last1 i)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (k1_pay3 (step1 i xc xy xs) xv)
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  have h := sound_kernel1 c E i arg2 harg2 arg3 harg3 arg4 harg4 arg5 harg5 arg6 harg6 xc xv xy xo xs K
  have e : emit1 i (step1 i xc xy xs) xv xo = k1_pay3 (step1 i xc xy xs) xv := by unfold emit1; rw [if_pos hl]
  rwa [e] at h

/-- The triple where it is not: the output's buffer is handed back as it was. -/
theorem sound_kernel1_not_last (c : Dev nD) (E : Set ℕ) (i : grid1.Coords) (hl : ¬ last1 i)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare xo
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  have h := sound_kernel1 c E i arg2 harg2 arg3 harg3 arg4 harg4 arg5 harg5 arg6 harg6 xc xv xy xo xs K
  have e : emit1 i (step1 i xc xy xs) xv xo = xo := by unfold emit1; rw [if_neg hl]
  rwa [e] at h

/-! ## The staging buffers at a point, and the body there -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The body as the pipeline calls it at point t. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-! ## What the input buffers hold when the body runs -/

/-- The edge tile's column indices sit in their staging buffer at every point: fetched when the edge tile moves, still
    there at the points between. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- So do its edge values, -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- and the node tile of projected features, fetched at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant and the scratch, by the point -/

theorem Phi1_zero (c : Dev nD) (n : ℕ) (h : n ≤ cfg1.N) (hz : n = 0) :
    Phi1 V c n h = iprop((∃ d, owns (c : Thread nD τ) scM1 fullShare d) ∗ rest1 (F := F) c) := by
  subst hz; rfl

/-- After point n: the scratch at what that point left. -/
theorem Phi1_succ (c : Dev nD) (n : ℕ) (hn : n < cfg1.N) :
    Phi1 V c (n + 1) hn = iprop(owns (c : Thread nD τ) scM1 fullShare (acc1 V c n hn) ∗ rest1 (F := F) c) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c) := by
  cases n with
  | zero => exact absurd rfl hz
  | succ n => rfl

/-- The invariant at a point's start. -/
theorem Phi1_castSucc (c : Dev nD) (t : Fin cfg1.N) :
    (dat1 V c).Φ t.castSucc = Phi1 V c t.val (Nat.le_of_lt t.isLt) := by
  dsimp only [dat1]; simp only [Fin.coe_castSucc]

/-- The scratch after a point that is not the first is one step from the scratch after the point before. -/
theorem acc1_pos (c : Dev nD) (t : Fin cfg1.N) (hz : t.val ≠ 0) :
    acc1 V c t.val t.isLt
      = step1 (grid1.coords t) (cols1 V c t) (ytile1 V c t) (acc1 V c (t.val - 1) (Nat.lt_of_le_of_lt (Nat.sub_le _ _) t.isLt)) := by
  obtain ⟨n, hn⟩ := t
  cases n with
  | zero => exact absurd rfl hz
  | succ n => rfl

/-- The scratch after the first point is one step from ANY contents: the node tile there is the first, so the step
    clears the scratch before it adds. -/
theorem acc1_first (c : Dev nD) (t : Fin cfg1.N) (hz : t.val = 0) (d : Vec F S2560x128 .f32) :
    acc1 V c t.val t.isLt = step1 (grid1.coords t) (cols1 V c t) (ytile1 V c t) d := by
  have hf : first1 (grid1.coords t) := (first1_iff t).mpr (by rw [hz])
  obtain ⟨n, hn⟩ := t
  have hz' : n = 0 := hz
  subst hz'
  rw [acc1_zero]; unfold step1; rw [if_pos hf, if_pos hf]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1600000 in
/-- The body at any point: the inputs' buffers hold their blocks and the invariant hands over the scratch as the point
    before left it (at anything at the first point, where the body clears it), so the triple applies; the scratch
    comes back at this point's step of the recursion. At the last node tile the output's buffer comes back at the new
    scratch times the edge values; elsewhere the window is idle and not written back, and its buffer comes back as it
    was found. What the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ,
    after1_0, after1_1, after1_2, Phi1_castSucc]
  by_cases hl : last1 (grid1.coords t)
  · rw [show (dat1 V c).leavesExact 3 t = owns (c : Thread nD τ) (st1_3 t) fullShare ((dat1 V c).after 3 t) from by
      unfold Dat.leavesExact; rw [idle1_3_of_last t hl], after1_3]
    have hz : t.val ≠ 0 := fun h => by have := (last1_iff t).mp hl; omega
    rw [Phi1_pos V c _ _ hz, acc1_pos V c t hz]
    iintro ⟨⟨HS, Hr⟩, Ho, ⟨%d0, H0⟩, ⟨%d1, H1⟩, ⟨%d2, H2⟩, ⟨%d3, H3⟩⟩
    iapply (sound_kernel1_last c Set.univ (grid1.coords t) hl _ _ _ _ _ _ _ _ _ _ (cols1 V c t) (vals1 V c t) (ytile1 V c t)
      ((dat1 V c).before 3 t d3) (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · rw [Dat.leavesExact_idle (dat1 V c) 3 t (idle1_3_of_not_last t hl) (noFlush1_3 t hl)]
    by_cases hz : t.val = 0
    · rw [Phi1_zero V c _ _ hz]
      iintro ⟨⟨⟨%ds, HS⟩, Hr⟩, Ho, ⟨%d0, H0⟩, ⟨%d1, H1⟩, ⟨%d2, H2⟩, ⟨%d3, H3⟩⟩
      rw [acc1_first V c t hz ds]
      iapply (sound_kernel1_not_last c Set.univ (grid1.coords t) hl _ _ _ _ _ _ _ _ _ _ (cols1 V c t) (vals1 V c t) (ytile1 V c t)
        ((dat1 V c).before 3 t d3) ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists d3; iexact H3
    · rw [Phi1_pos V c _ _ hz, acc1_pos V c t hz]
      iintro ⟨⟨HS, Hr⟩, Ho, ⟨%d0, H0⟩, ⟨%d1, H1⟩, ⟨%d2, H2⟩, ⟨%d3, H3⟩⟩
      iapply (sound_kernel1_not_last c Set.univ (grid1.coords t) hl _ _ _ _ _ _ _ _ _ _ (cols1 V c t) (vals1 V c t) (ytile1 V c t)
        ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scratch owned at some contents is its buffer's points-to at some contents. -/
theorem scratchAny1_eq (c : Dev nD) :
    (iprop(∃ d, owns (c : Thread nD τ) scM1 fullShare d) : sProp 𝕄)
      = iprop(∃ f : Buf (Elt F) ((c : Thread nD τ).loc cc1_scratch0), ((c : Thread nD τ).loc cc1_scratch0) ↦{fullShare} f) := by
  simp only [scM1, owns_whole]; try rfl

/-- What the launch hands the region, the generator register and every scoped buffer that is no staging buffer of the
    region at some contents, is the invariant before the first point: the scratch is one of those buffers. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 (Nat.zero_le _) from rfl, Phi1_zero V c 0 _ rfl, scratchAny1_eq, scopedRest1_eq]
  unfold rest1
  iintro ⟨Hg, A0, A1, A2, A3, A4, HS, B0, B1, B2, B3, B4, B5, B6, B7⟩
  isplitl [HS]; · iexact HS
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact Hg

/-- After any point the invariant gives the same back: the scratch's named contents are forgotten. -/
theorem Phi1_out (c : Dev nD) (t : Fin (cfg1.N + 1)) (ht : t.val ≠ 0) :
    (dat1 V c).Φ t
      ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, Phi1_pos V c _ _ ht, scopedRest1_eq,
    ← scratchAny1_eq]
  unfold rest1
  iintro ⟨HS, A0, A1, A2, A3, A4, B0, B1, B2, B3, B4, B5, B6, B7, Hg⟩
  isplitl [Hg]; · iexact Hg
  isplitl [A0]; · iexact A0
  isplitl [A1]; · iexact A1
  isplitl [A2]; · iexact A2
  isplitl [A3]; · iexact A3
  isplitl [A4]; · iexact A4
  isplitl [HS]; · iexists _; iexact HS
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- In particular after the last point. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) :=
  Phi1_out V c _ (by rw [Fin.val_last]; have : cfg1.N = 62500 := N1; omega)

end Cert.Kernel.Regions

end
-- ==== Proof.K.ScatterBody.lean ====
/-
  The third kernel region, the scatter-add: the body's triple, the body obligation and the invariant's two ends.
  On whole staging buffers holding an edge tile's row indices, its gathered rows and the bias row, the body leaves
  the three inputs as they were, leaves in the scratch one step of the accumulation from what it found there
  (cleared first at the first edge tile), and at the last edge tile leaves the new scratch plus the bias row in the
  output's buffer, which it otherwise does not touch. At every grid point the pipeline hands the body exactly those
  blocks and the invariant holds the scratch at what the point before left, so the proof data's account is met.
-/
import proofs.«411619_j43928925503801_1_alg».proof.Proof.K.ScatterData
import proofs.«411619_j43928925503801_1_alg».proof.Proof.K.Schedule

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Whole-buffer loads and stores -/

/-- Both offsets of a rank-two block at the origin are zero. -/
theorem zeroOff2 : (![0, 0] : Fin 2 → ℕ) = fun _ => 0 := funext fun a => by fin_cases a <;> rfl

section Whole

variable {κ : Kind} {sp : Space} {S : Shape} {e : EltTy}

/-- A load through the whole-shape rectangle at the origin reads the buffer's contents. -/
theorem readAt_whole_zero (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, the last of a run, leaves its payload whatever was stored before. -/
theorem read_writes_whole_zero (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

end Whole

/-! ## The body's triple -/

set_option maxHeartbeats 4000000 in
/-- The body on whole staging buffers and the whole scratch: the three inputs are handed back as they were; the scratch
    holds one step of the accumulation from what it held; the output's buffer holds, at the last edge tile, the new
    scratch plus the bias row, and otherwise what it held. By cases on the two branch conditions. -/
theorem sound_kernel2 (c : Dev nD) (E : Set ℕ) (i : grid2.Coords)
    (arg2 : Memref sig .tc .vmem S1x2560 .i32) (harg2 : arg2.IsWhole) (arg3 : Memref sig .tc .vmem S2560x128 .f32) (harg3 : arg3.IsWhole)
    (arg4 : Memref sig .tc .vmem S1x128 .f32) (harg4 : arg4.IsWhole) (arg5 : Memref sig .tc .vmem S1000x128 .f32) (harg5 : arg5.IsWhole)
    (arg6 : Memref sig .tc .vmem S1000x128 .f32) (harg6 : arg6.IsWhole)
    (xc : Vec F S1x2560 .i32) (xv : Vec F S2560x128 .f32) (xy : Vec F S1x128 .f32) (xo xs : Vec F S1000x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (emit2 i (step2 i xc xv xs) xy xo)
            ∗ owns (c : Thread nD τ) arg6 fullShare (step2 i xc xv xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  by_cases h1 : first2 i <;> by_cases h2 : last2 i
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold emit2 step2
      rw [if_pos h2, if_pos h1]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_pos h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit2
      rw [if_neg h2]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_pos h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold emit2 step2
      rw [if_pos h2, if_neg h1]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_neg h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit2
      rw [if_neg h2]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_neg h1]

/-! ## The staging buffers at a point, and the body there -/

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The body as the pipeline calls it at point t: the four current staging buffers and the scratch. -/
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

/-! ## What the input buffers hold when the body runs -/

/-- The edge tile's row indices sit in their staging buffer at every point: fetched when the edge tile moves, and the
    body leaves them in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- So do the edge tile's gathered rows. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- The bias row, fetched once, is still in its staging buffer at every later point: its block index never moves. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The invariant, position by position -/

/-- Before the first point the scratch is at anything. -/
theorem Phi2_zero (c : Dev nD) (n : ℕ) (h : n ≤ cfg2.N) (hz : n = 0) :
    Phi2 V c n h = iprop((∃ d, owns (c : Thread nD τ) scM2 fullShare d) ∗ rest2 (F := F) c) := by
  subst hz; rfl

/-- After point n the scratch holds what that point left. -/
theorem Phi2_succ (c : Dev nD) (n : ℕ) (hn : n < cfg2.N) :
    Phi2 V c (n + 1) hn = iprop(owns (c : Thread nD τ) scM2 fullShare (acc2 V c n hn) ∗ rest2 (F := F) c) := rfl

/-- Before a point that is not the first it holds what the point before left. -/
theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c) := by
  cases n with
  | zero => exact absurd rfl hz
  | succ n => rfl

/-- The invariant at a point's start, restated at the point's number. -/
theorem Phi2_castSucc (c : Dev nD) (t : Fin cfg2.N) :
    (dat2 V c).Φ t.castSucc = Phi2 V c t.val (Nat.le_of_lt t.isLt) := rfl

/-- The invariant at a point's start, opened: the scratch at some contents, which after the first point are what the
    point before left. -/
theorem Phi2_open (c : Dev nD) (t : Fin cfg2.N) :
    (dat2 V c).Φ t.castSucc ⊢ iprop((∃ xs : Vec F S1000x128 .f32,
        ⌜∀ hz : t.val ≠ 0, xs = acc2 V c (t.val - 1) (Nat.lt_of_le_of_lt (Nat.sub_le _ _) t.isLt)⌝
          ∗ owns (c : Thread nD τ) scM2 fullShare xs) ∗ rest2 (F := F) c) := by
  rw [Phi2_castSucc]
  by_cases hz : t.val = 0
  · rw [Phi2_zero V c _ _ hz]
    iintro ⟨⟨%d, H⟩, Hr⟩
    isplitl [H]
    · iexists d; isplitr; · ipureintro; exact fun h => absurd hz h
      iexact H
    iexact Hr
  · rw [Phi2_pos V c _ _ hz]
    iintro ⟨H, Hr⟩
    isplitl [H]
    · iexists _; isplitr; · ipureintro; exact fun _ => rfl
      iexact H
    iexact Hr

/-! ## One step of the recursion, and the output's two cases -/

/-- The body's step from what the scratch held is the recursion's value at the point: after the first point by the
    recursion's equation; at the first point the edge tile is the first, so the scratch is cleared whatever it held. -/
theorem acc2_step (c : Dev nD) (t : Fin cfg2.N) (xs : Vec F S1000x128 .f32)
    (h : ∀ hz : t.val ≠ 0, xs = acc2 V c (t.val - 1) (Nat.lt_of_le_of_lt (Nat.sub_le _ _) t.isLt)) :
    step2 (grid2.coords t) (rows2 V c t) (gtile2 V c t) xs = acc2 V c t.val t.isLt := by
  obtain ⟨n, hn⟩ := t
  cases n with
  | zero =>
    have hf : first2 (grid2.coords ⟨0, hn⟩) := (first2_iff ⟨0, hn⟩).mpr (Nat.zero_mod _)
    rw [acc2_zero]
    unfold step2
    rw [if_pos hf, if_pos hf]
  | succ n =>
    have hx := h (Nat.succ_ne_zero n)
    subst hx
    rfl

theorem emit2_last (i : grid2.Coords) (acc : Vec F S1000x128 .f32) (bias : Vec F S1x128 .f32) (xo : Vec F S1000x128 .f32)
    (h : last2 i) : emit2 i acc bias xo = k2_pay3 acc bias := by
  unfold emit2; rw [if_pos h]

theorem emit2_not_last (i : grid2.Coords) (acc : Vec F S1000x128 .f32) (bias : Vec F S1x128 .f32) (xo : Vec F S1000x128 .f32)
    (h : ¬ last2 i) : emit2 i acc bias xo = xo := by
  unfold emit2; rw [if_neg h]

/-- What the body leaves in the output's buffer is what the pipeline expects there: at the last edge tile the window
    is live and the block is the scratch plus the bias row; elsewhere the window is idle, nothing is written back, and
    the buffer holds what it was handed. -/
theorem leaves2_3 (c : Dev nD) (t : Fin cfg2.N) (d) :
    owns (c : Thread nD τ) (st2_3 t) fullShare
        (emit2 (grid2.coords t) (acc2 V c t.val t.isLt) (bias2 V c t) ((dat2 V c).before 3 t d))
      ⊢ (dat2 V c).leavesExact 3 t := by
  by_cases hl : last2 (grid2.coords t)
  · rw [show (dat2 V c).leavesExact 3 t = owns (c : Thread nD τ) (st2_3 t) fullShare ((dat2 V c).after 3 t) from by
        unfold Dat.leavesExact; rw [idle2_3_of_last t hl], after2_3, emit2_last _ _ _ _ hl]
  · rw [Dat.leavesExact_idle (dat2 V c) 3 t (idle2_3_of_not_last t hl) (noFlush2_3 t hl), emit2_not_last _ _ _ _ hl]
    iintro H
    iexists d; iexact H

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1600000 in
/-- The body at any point: the inputs' buffers hold their blocks and the invariant hands over the scratch, so the
    triple applies at the point's coordinates; the scratch comes back at the recursion's value there, the output's
    buffer at what the pipeline expects, and what the core owes passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl, Phi2_succ,
    after2_0, after2_1, after2_2]
  iintro ⟨HΦ, Ho, ⟨%d0, H0⟩, ⟨%d1, H1⟩, ⟨%d2, H2⟩, ⟨%d3, H3⟩⟩
  ihave HΦ' := (Phi2_open V c t) $$ HΦ
  icases HΦ' with ⟨⟨%xs, %hxs, HS⟩, Hr⟩
  have hacc := acc2_step V c t xs hxs
  iapply (sound_kernel2 c Set.univ (grid2.coords t) _ _ _ _ _ _ _ _ _ _ (rows2 V c t) (gtile2 V c t) (bias2 V c t)
    ((dat2 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  rw [hacc]
  isplitl [HS Hr]
  · isplitl [HS]; · iexact HS
    iexact Hr
  isplitl [Ho]; · iexact Ho
  isplitl [H0]; · iexact H0
  isplitl [H1]; · iexact H1
  isplitl [H2]; · iexact H2
  iapply (leaves2_3 V c t d3)
  iexact H3

theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region — the generator register and every scoped buffer that is no staging buffer of
    this region, the scratch among them — is the invariant before the first point. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Phi2 V c 0 (Nat.zero_le _) from rfl, Phi2_zero V c 0 _ rfl, scopedRest2_eq]
  unfold rest2
  simp only [scM2, owns_whole]
  iintro ⟨Hg, H1, H2, H3, H4, H5, H6, H7, H8, H9, H10, H11, H12, H13, H14, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact Hg

/-- After the last point the invariant gives the same back: the scratch's named contents are forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N (Nat.le_refl _) from rfl,
    Phi2_pos V c _ _ (by have := N2; omega), scopedRest2_eq]
  unfold rest2
  simp only [scM2, owns_whole]
  iintro ⟨HS, H1, H2, H3, H4, H5, H6, H7, H8, H9, H10, H11, H12, H13, H14, Hg⟩
  isplitl [Hg]; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact HS

end Cert.Kernel.Regions

end
-- ==== Proof.K.Run.lean ====
/-
  The program's run: its three kernel regions among the host stretches, from the launch to the return. Between two
  segments the core holds every unscoped buffer at the contents the fold of Boundaries names, beside its generator
  register and owing nothing. A host stretch applies its operations to that valuation; a region enters with its
  arrays split out of the unscoped buffers, runs its pipeline under its body obligation, and leaves with the arrays
  put back at what the write-backs folded to. So every weakly fair execution terminates, nothing faults, and at the
  end every unscoped buffer holds the last valuation of the fold: the arguments as launched, and the result array at
  what the third region's write-backs leave.
-/
import proofs.«411619_j43928925503801_1_alg».proof.Proof.K.Boundaries
import proofs.«411619_j43928925503801_1_alg».proof.Proof.K.ProjectBody
import proofs.«411619_j43928925503801_1_alg».proof.Proof.K.GatherBody
import proofs.«411619_j43928925503801_1_alg».proof.Proof.K.ScatterBody
import proofs.«411619_j43928925503801_1_alg».proof.Proof.Gen.Kernel.Regions

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the last valuation, the generator register
    at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at what the write-backs leave; the generator register and the scoped
    buffers no window stages go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at what the write-backs leave; the generator register and the scoped
    buffers no window stages go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    isplitl [Hp]; · iexact Hp
    iexact Hr
  hout c := by
    rw [Pipeline.ownSems0_none, show (pdats m 1 c).Φ (Fin.last _) = (dat1 (V3 m) c).Φ (Fin.last cfg1.N) from rfl]
    iintro H
    ihave H' := (hout1 (V3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are split
    out of the unscoped buffers and put back at what the write-backs leave; the generator register and the scoped
    buffers no window stages go into the invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    iintro ⟨Hp, -, Hr⟩
    iapply (hin2 (V5 m) c)
    isplitl [Hp]; · iexact Hp
    iexact Hr
  hout c := by
    rw [Pipeline.ownSems0_none, show (pdats m 2 c).Φ (Fin.last _) = (dat2 (V5 m) c).Φ (Fin.last cfg2.N) from rfl]
    iintro H
    ihave H' := (hout2 (V5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting, and in every final state each unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Regions

end
-- ==== Proof.K.Frame.lean ====
/-
  What the run's last valuation holds at the buffers the claims speak of. No host stretch writes an argument and no
  region's write-backs touch one (the node features are an input window of the projection, and an input's array is
  never written), so each argument walks back through the fold to its launch contents: every weakly fair execution
  terminates with the arguments unchanged. The result array holds what the third region's write-backs leave.
-/
import proofs.«411619_j43928925503801_1_alg».proof.Proof.K.Run

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no array of any region and that no host stretch writes ends at its launch contents. -/
theorem W6_bypass (c : Dev nD) (r : Ref sig .tc)
    (h2 : ∀ w, Pipeline.arrRef spec2 w ≠ r) (hh2 : r ∉ hostOps2_W)
    (h1 : ∀ w, Pipeline.arrRef spec1 w ≠ r) (hh1 : r ∉ hostOps1_W)
    (h0 : ∀ w, Pipeline.arrRef spec0 w ≠ r) (hh0 : r ∉ hostOps0_W) :
    W6 m c (Proc.devRef .tc r) = m ((c : Thread nD τ).loc r) :=
  (W6_of_ne m c r h2).trans <| (StableHlo.after_of_writes_sub hostOps2 _ hostOps2_writes hh2).trans <|
    (W4_of_ne m c r h1).trans <| (StableHlo.after_of_writes_sub hostOps1 _ hostOps1_writes hh1).trans <|
    (W2_of_ne m c r h0).trans <| (StableHlo.after_of_writes_sub hostOps0 _ hostOps0_writes hh0).trans rfl

/-- The node features: an input window of the projection, bypassed by everything after. -/
theorem W6_main_arg0 (c : Dev nD) : W6 m c (Proc.devRef .tc main_arg0) = m ((c : Thread nD τ).loc main_arg0) :=
  (W6_of_ne m c main_arg0 (by decide)).trans <| (StableHlo.after_of_writes_sub hostOps2 _ hostOps2_writes (by decide)).trans <|
    (W4_of_ne m c main_arg0 (by decide)).trans <| (StableHlo.after_of_writes_sub hostOps1 _ hostOps1_writes (by decide)).trans <|
    ((W2_arr m c 0).trans (((dat0 (V1 m) c).arrAt_in 0 rfl _).trans (A_eq0 (V1 m) c 0))).trans <|
    (StableHlo.after_of_writes_sub hostOps0 _ hostOps0_writes (by decide)).trans rfl
theorem W6_main_arg1 (c : Dev nD) : W6 m c (Proc.devRef .tc main_arg1) = m ((c : Thread nD τ).loc main_arg1) :=
  W6_bypass m c main_arg1 (by decide) (by decide) (by decide) (by decide) (by decide) (by decide)
theorem W6_main_arg2 (c : Dev nD) : W6 m c (Proc.devRef .tc main_arg2) = m ((c : Thread nD τ).loc main_arg2) :=
  W6_bypass m c main_arg2 (by decide) (by decide) (by decide) (by decide) (by decide) (by decide)
theorem W6_main_arg3 (c : Dev nD) : W6 m c (Proc.devRef .tc main_arg3) = m ((c : Thread nD τ).loc main_arg3) :=
  W6_bypass m c main_arg3 (by decide) (by decide) (by decide) (by decide) (by decide) (by decide)
theorem W6_main_arg4 (c : Dev nD) : W6 m c (Proc.devRef .tc main_arg4) = m ((c : Thread nD τ).loc main_arg4) :=
  W6_bypass m c main_arg4 (by decide) (by decide) (by decide) (by decide) (by decide) (by decide)
theorem W6_main_arg5 (c : Dev nD) : W6 m c (Proc.devRef .tc main_arg5) = m ((c : Thread nD τ).loc main_arg5) :=
  W6_bypass m c main_arg5 (by decide) (by decide) (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and the six arguments. -/
theorem run_result : θ_run defs (onTc (τ := τ) (main (F := F))) ⟨m, fun _ => 0, ρ⟩ (fun r => ∀ c : Dev nD,
      r.2.mem ((c.tc : Thread nD τ).loc main_v7) = W6 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v7 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

/-- The frame: the program runs to the end and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.Kernel.Regions

end
-- ==== Proof.KI.ProjectData.lean ====
/-
  The first kernel region, the dense projection: its blocks and its proof data. At grid point t (one of 50) the body
  multiplies a block of 2000 rows of the node features by the whole transposed weight matrix and stores the product
  over the whole output block; nothing is carried between points. Stated at a parameter V: the buffer contents when
  the region is entered.
-/
import proofs.«411619_j43928925503801_1_alg».proof.Proof.Gen.KernelIdeal.Launch
import proofs.«411619_j43928925503801_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows of point t, and the transposed weights, at their literal shapes. -/
abbrev xrows0 (c : Dev nD) (t : Fin cfg0.N) : Vec F S2000x128 .f32 := iblk0 V c 0 t
abbrev wT0 (c : Dev nD) (t : Fin cfg0.N) : Vec F S128x128 .f32 := iblk0 V c 1 t

/-- The proof data: the arrays as the region finds them; after the body each input's buffer still holds its block and
    the output's holds the product; the invariant is the scoped buffers no window stages and the generator register,
    untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (xrows0 V c t) (wT0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (xrows0 V c t) (wT0 V c t) := by dsimp only [dat0]

end Cert.KernelIdeal.Regions

end
-- ==== Proof.KI.GatherData.lean ====
/-
  The second kernel region, the gather by a one-hot product: its blocks, the accumulator it carries, and its proof
  data. The grid is 625 edge tiles by 100 node tiles, the node tile innermost. At a point the body compares the edge
  tile's column indices with the node ids of the node tile, multiplies that 0/1 matrix with the node tile of the
  projected features on the matrix unit, and adds the product to a scratch accumulator that it first clears when the
  node tile is the first; at the last node tile it stores the accumulator times the edge values into the output block.
  So the scratch after point n is one step of a recursion over the points, and the output block at the last node
  tile is a function of the scratch there. Stated at a parameter V: the buffer contents when the region is entered.
-/
import proofs.«411619_j43928925503801_1_alg».proof.Proof.Gen.KernelIdeal.Launch
import proofs.«411619_j43928925503801_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge tile's column indices and edge values and the node tile of projected features, at their literal shapes. -/
abbrev cols1 (c : Dev nD) (t : Fin cfg1.N) : Vec F S2560x1 .i32 := iblk1 V c 0 t
abbrev vals1 (c : Dev nD) (t : Fin cfg1.N) : Vec F S2560x1 .f32 := iblk1 V c 1 t
abbrev ytile1 (c : Dev nD) (t : Fin cfg1.N) : Vec F S1000x128 .f32 := iblk1 V c 2 t

/-- The body's first branch: the node tile is the first of its row of the grid. -/
abbrev first1 (i : grid1.Coords) : Prop :=
  (Scalar.cmpi .ne (Scalar.extui (Scalar.cmpi .eq (BitVec.ofNat 32 (i 1).val) 0#32)) 0#32) = 1#1
/-- Its second branch: the node tile is the last. -/
abbrev last1 (i : grid1.Coords) : Prop := k1_cond2 i = 1#1

/-- What one run of the body leaves in the scratch, from what it found there: cleared first when the node tile is the
    first, then the one-hot product added. -/
def step1 (i : grid1.Coords) (cols : Vec F S2560x1 .i32) (y : Vec F S1000x128 .f32) (xs : Vec F S2560x128 .f32) :
    Vec F S2560x128 .f32 :=
  k1_pay2 i cols y (if first1 i then k1_pay1 else xs)

/-- What one run of the body leaves in the output block, from what it found there: at the last node tile the new
    scratch times the edge values, otherwise what was there. -/
def emit1 (i : grid1.Coords) (acc : Vec F S2560x128 .f32) (vals : Vec F S2560x1 .f32) (xo : Vec F S2560x128 .f32) :
    Vec F S2560x128 .f32 :=
  if last1 i then k1_pay3 acc vals else xo

/-- The scratch after the body at point n: the recursion over the points. -/
def acc1 (c : Dev nD) : (n : ℕ) → n < cfg1.N → Vec F S2560x128 .f32
  | 0, hn => step1 (grid1.coords ⟨0, hn⟩) (cols1 V c ⟨0, hn⟩) (ytile1 V c ⟨0, hn⟩) k1_pay1
  | n + 1, hn => step1 (grid1.coords ⟨n + 1, hn⟩) (cols1 V c ⟨n + 1, hn⟩) (ytile1 V c ⟨n + 1, hn⟩) (acc1 c n (Nat.lt_of_succ_lt hn))

theorem acc1_zero (c : Dev nD) (hn : 0 < cfg1.N) :
    acc1 V c 0 hn = step1 (grid1.coords ⟨0, hn⟩) (cols1 V c ⟨0, hn⟩) (ytile1 V c ⟨0, hn⟩) k1_pay1 := rfl
theorem acc1_succ (c : Dev nD) (n : ℕ) (hn : n + 1 < cfg1.N) :
    acc1 V c (n + 1) hn = step1 (grid1.coords ⟨n + 1, hn⟩) (cols1 V c ⟨n + 1, hn⟩) (ytile1 V c ⟨n + 1, hn⟩) (acc1 V c n (Nat.lt_of_succ_lt hn)) := rfl

/-- The scratch the kernel carries, as a whole memref. -/
abbrev scM1 : Memref sig .tc .vmem S2560x128 .f32 := Memref.whole cc1_scratch0

/-- The scoped buffers that are neither a staging buffer of this region nor its scratch, each at some contents, and
    the generator register at some state: what the body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_scratch0), ((c : Thread nD τ).loc cc2_scratch0) ↦{fullShare} f)
    ∗ (∃ r, prngReg c r))

/-- The invariant before position n: before the first point the scratch is at anything; afterwards it holds what the
    point before left. -/
def Phi1 (c : Dev nD) : (n : ℕ) → n ≤ cfg1.N → sProp 𝕄
  | 0, _ => iprop((∃ d, owns (c : Thread nD τ) scM1 fullShare d) ∗ rest1 (F := F) c)
  | n + 1, hn => iprop(owns (c : Thread nD τ) scM1 fullShare (acc1 V c n hn) ∗ rest1 (F := F) c)

/-- The proof data: the arrays as the region finds them; after the body each input's buffer still holds its block and
    the output's holds the scratch at that point times the edge values (consulted only at the last node tile, where
    the body stores it); the invariant carries the scratch; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (vals1 V c t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (vals1 V c t) := by dsimp only [dat1]

end Cert.KernelIdeal.Regions

end
-- ==== Proof.KI.ScatterData.lean ====
/-
  The third kernel region, the scatter-add by a one-hot product: its blocks, the accumulator it carries, and its
  proof data. The grid is 100 node tiles by 625 edge tiles, the edge tile innermost. At a point the body compares the
  edge tile's row indices with the node ids of the node tile, multiplies that 0/1 matrix with the edge tile of
  gathered rows on the matrix unit, and adds the product to a scratch accumulator that it first clears when the edge
  tile is the first; at the last edge tile it stores the accumulator plus the bias row into the output block. So the
  scratch after point n is one step of a recursion over the points, and the output block at the last edge tile is a
  function of the scratch there. Stated at a parameter V: the buffer contents when the region is entered.
-/
import proofs.«411619_j43928925503801_1_alg».proof.Proof.Gen.KernelIdeal.Launch
import proofs.«411619_j43928925503801_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The edge tile's row indices, its gathered rows, and the bias row, at their literal shapes. -/
abbrev rows2 (c : Dev nD) (t : Fin cfg2.N) : Vec F S1x2560 .i32 := iblk2 V c 0 t
abbrev gtile2 (c : Dev nD) (t : Fin cfg2.N) : Vec F S2560x128 .f32 := iblk2 V c 1 t
abbrev bias2 (c : Dev nD) (t : Fin cfg2.N) : Vec F S1x128 .f32 := iblk2 V c 2 t

/-- The body's first branch: the edge tile is the first of its row of the grid. -/
abbrev first2 (i : grid2.Coords) : Prop :=
  (Scalar.cmpi .ne (Scalar.extui (Scalar.cmpi .eq (BitVec.ofNat 32 (i 1).val) 0#32)) 0#32) = 1#1
/-- Its second branch: the edge tile is the last. -/
abbrev last2 (i : grid2.Coords) : Prop := k2_cond2 i = 1#1

/-- What one run of the body leaves in the scratch, from what it found there: cleared first when the edge tile is the
    first, then the one-hot product added. -/
def step2 (i : grid2.Coords) (rows : Vec F S1x2560 .i32) (g : Vec F S2560x128 .f32) (xs : Vec F S1000x128 .f32) :
    Vec F S1000x128 .f32 :=
  k2_pay2 i rows g (if first2 i then k2_pay1 else xs)

/-- What one run of the body leaves in the output block, from what it found there: at the last edge tile the new
    scratch plus the bias row, otherwise what was there. -/
def emit2 (i : grid2.Coords) (acc : Vec F S1000x128 .f32) (bias : Vec F S1x128 .f32) (xo : Vec F S1000x128 .f32) :
    Vec F S1000x128 .f32 :=
  if last2 i then k2_pay3 acc bias else xo

/-- The scratch after the body at point n: the recursion over the points. -/
def acc2 (c : Dev nD) : (n : ℕ) → n < cfg2.N → Vec F S1000x128 .f32
  | 0, hn => step2 (grid2.coords ⟨0, hn⟩) (rows2 V c ⟨0, hn⟩) (gtile2 V c ⟨0, hn⟩) k2_pay1
  | n + 1, hn => step2 (grid2.coords ⟨n + 1, hn⟩) (rows2 V c ⟨n + 1, hn⟩) (gtile2 V c ⟨n + 1, hn⟩) (acc2 c n (Nat.lt_of_succ_lt hn))

theorem acc2_zero (c : Dev nD) (hn : 0 < cfg2.N) :
    acc2 V c 0 hn = step2 (grid2.coords ⟨0, hn⟩) (rows2 V c ⟨0, hn⟩) (gtile2 V c ⟨0, hn⟩) k2_pay1 := rfl
theorem acc2_succ (c : Dev nD) (n : ℕ) (hn : n + 1 < cfg2.N) :
    acc2 V c (n + 1) hn = step2 (grid2.coords ⟨n + 1, hn⟩) (rows2 V c ⟨n + 1, hn⟩) (gtile2 V c ⟨n + 1, hn⟩) (acc2 V c n (Nat.lt_of_succ_lt hn)) := rfl

/-- The scratch the kernel carries, as a whole memref. -/
abbrev scM2 : Memref sig .tc .vmem S1000x128 .f32 := Memref.whole cc2_scratch0

/-- The scoped buffers that are neither a staging buffer of this region nor its scratch, each at some contents, and
    the generator register at some state: what the body never touches. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ r, prngReg c r))

/-- The invariant before position n: before the first point the scratch is at anything; afterwards it holds what the
    point before left. -/
def Phi2 (c : Dev nD) : (n : ℕ) → n ≤ cfg2.N → sProp 𝕄
  | 0, _ => iprop((∃ d, owns (c : Thread nD τ) scM2 fullShare d) ∗ rest2 (F := F) c)
  | n + 1, hn => iprop(owns (c : Thread nD τ) scM2 fullShare (acc2 V c n hn) ∗ rest2 (F := F) c)

/-- The proof data: the arrays as the region finds them; after the body each input's buffer still holds its block and
    the output's holds the scratch at that point plus the bias row (consulted only at the last edge tile, where the
    body stores it); the invariant carries the scratch; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (bias2 V c t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (bias2 V c t) := by dsimp only [dat2]

end Cert.KernelIdeal.Regions

end
-- ==== Proof.KI.Boundaries.lean ====
/-
  What the TensorCore's unscoped buffers hold between the segments of the program, as a fold from the launch memory:
  the weight transpose on the host; the projection; the two reshapes of the column indices and the edge values; the
  gather; the reshapes of the row indices and the bias; the scatter-add. A host stretch applies its operations; a
  kernel region leaves each of its arrays at what its write-backs fold to and every other buffer as it found it.
-/
import proofs.«411619_j43928925503801_1_alg».proof.Proof.KI.ProjectData
import proofs.«411619_j43928925503801_1_alg».proof.Proof.KI.GatherData
import proofs.«411619_j43928925503801_1_alg».proof.Proof.KI.ScatterData

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At launch. -/
abbrev W0 : Dev nD → Valuation τ sig (Elt F) := fun c b => m (c, b)
/-- After the weight transpose: the projection is entered from here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshapes of the column indices and the edge values: the gather is entered from here. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the gather. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the reshapes of the row indices and the bias: the scatter-add is entered from here. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the scatter-add: what the program returns from. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.KernelIdeal.Regions

end
-- ==== Proof.KI.Schedule.lean ====
/-
  The schedule of the three grids in closed form. A grid point t of a grid with inner extent n has outer coordinate
  t / n and inner coordinate t % n; the body's two branches test the inner coordinate against 0 and against n - 1;
  an output block whose index is the outer coordinate is written back exactly where the inner coordinate is n - 1.
-/
import proofs.«411619_j43928925503801_1_alg».proof.Proof.Gen.KernelIdeal.Launch
import proofs.«411619_j43928925503801_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«411619_j43928925503801_1_alg».proof.Proof.KI.GatherData
import proofs.«411619_j43928925503801_1_alg».proof.Proof.KI.ScatterData

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The grids' sizes and coordinates -/

theorem N0 : cfg0.N = 50 := N_0
theorem N1 : cfg1.N = 62500 := N_1
theorem N2 : cfg2.N = 62500 := N_2

theorem coords0_0 (t : Fin cfg0.N) : (grid0.coords t 0).val = t.val := by
  have h : t.val < 50 := lt_of_lt_of_eq t.isLt N0
  show t.val / grid0.stride 0 % 50 = t.val
  rw [show grid0.stride 0 = 1 from by decide]; omega

theorem coords1_0 (t : Fin cfg1.N) : (grid1.coords t 0).val = t.val / 100 := by
  have h : t.val < 62500 := lt_of_lt_of_eq t.isLt N1
  show t.val / grid1.stride 0 % 625 = t.val / 100
  rw [show grid1.stride 0 = 100 from by decide]; omega
theorem coords1_1 (t : Fin cfg1.N) : (grid1.coords t 1).val = t.val % 100 := by
  show t.val / grid1.stride 1 % 100 = t.val % 100
  rw [show grid1.stride 1 = 1 from by decide]; omega

theorem coords2_0 (t : Fin cfg2.N) : (grid2.coords t 0).val = t.val / 625 := by
  have h : t.val < 62500 := lt_of_lt_of_eq t.isLt N2
  show t.val / grid2.stride 0 % 100 = t.val / 625
  rw [show grid2.stride 0 = 625 from by decide]; omega
theorem coords2_1 (t : Fin cfg2.N) : (grid2.coords t 1).val = t.val % 625 := by
  show t.val / grid2.stride 1 % 625 = t.val % 625
  rw [show grid2.stride 1 = 1 from by decide]; omega

/-! ## The block index of each window at a point -/

theorem toNat_ofNat_small (k : ℕ) (hk : k < 100000) : (BitVec.ofNat 32 k).toNat = k := by
  rw [BitVec.toNat_ofNat]; exact Nat.mod_eq_of_lt (by omega)

theorem index0_0 (t : Fin cfg0.N) : (cfg0.win 0).index t = ![t.val, 0] := by
  have h : t.val < 50 := lt_of_lt_of_eq t.isLt N0
  show cc0_transform_0 (grid0.coords t) = _
  unfold cc0_transform_0; dsimp only
  rw [coords0_0, toNat_ofNat_small t.val (by omega)]; rfl
theorem index0_1 (t : Fin cfg0.N) : (cfg0.win 1).index t = ![0, 0] := by
  show cc0_transform_1 (grid0.coords t) = _
  unfold cc0_transform_1; dsimp only; rfl
theorem index0_2 (t : Fin cfg0.N) : (cfg0.win 2).index t = ![t.val, 0] := by
  have h : t.val < 50 := lt_of_lt_of_eq t.isLt N0
  show cc0_transform_2 (grid0.coords t) = _
  unfold cc0_transform_2; dsimp only
  rw [coords0_0, toNat_ofNat_small t.val (by omega)]; rfl

theorem index1_0 (t : Fin cfg1.N) : (cfg1.win 0).index t = ![t.val / 100, 0] := by
  have h : t.val < 62500 := lt_of_lt_of_eq t.isLt N1
  show cc1_transform_0 (grid1.coords t) = _
  unfold cc1_transform_0; dsimp only
  rw [coords1_0, toNat_ofNat_small (t.val / 100) (by omega)]; rfl
theorem index1_1 (t : Fin cfg1.N) : (cfg1.win 1).index t = ![t.val / 100, 0] := by
  have h : t.val < 62500 := lt_of_lt_of_eq t.isLt N1
  show cc1_transform_1 (grid1.coords t) = _
  unfold cc1_transform_1; dsimp only
  rw [coords1_0, toNat_ofNat_small (t.val / 100) (by omega)]; rfl
theorem index1_2 (t : Fin cfg1.N) : (cfg1.win 2).index t = ![t.val % 100, 0] := by
  show cc1_transform_2 (grid1.coords t) = _
  unfold cc1_transform_2; dsimp only
  rw [coords1_1, toNat_ofNat_small (t.val % 100) (by omega)]; rfl
theorem index1_3 (t : Fin cfg1.N) : (cfg1.win 3).index t = ![t.val / 100, 0] := by
  have h : t.val < 62500 := lt_of_lt_of_eq t.isLt N1
  show cc1_transform_3 (grid1.coords t) = _
  unfold cc1_transform_3; dsimp only
  rw [coords1_0, toNat_ofNat_small (t.val / 100) (by omega)]; rfl

theorem index2_0 (t : Fin cfg2.N) : (cfg2.win 0).index t = ![0, t.val % 625] := by
  show cc2_transform_0 (grid2.coords t) = _
  unfold cc2_transform_0; dsimp only
  rw [coords2_1, toNat_ofNat_small (t.val % 625) (by omega)]; rfl
theorem index2_1 (t : Fin cfg2.N) : (cfg2.win 1).index t = ![t.val % 625, 0] := by
  show cc2_transform_1 (grid2.coords t) = _
  unfold cc2_transform_1; dsimp only
  rw [coords2_1, toNat_ofNat_small (t.val % 625) (by omega)]; rfl
theorem index2_2 (t : Fin cfg2.N) : (cfg2.win 2).index t = ![0, 0] := by
  show cc2_transform_2 (grid2.coords t) = _
  unfold cc2_transform_2; dsimp only; rfl
theorem index2_3 (t : Fin cfg2.N) : (cfg2.win 3).index t = ![t.val / 625, 0] := by
  have h : t.val < 62500 := lt_of_lt_of_eq t.isLt N2
  show cc2_transform_3 (grid2.coords t) = _
  unfold cc2_transform_3; dsimp only
  rw [coords2_0, toNat_ofNat_small (t.val / 625) (by omega)]; rfl

/-! ## Where the body's branches are taken -/

theorem firstChain100 : ∀ k : Fin 100,
    ((Scalar.cmpi .ne (Scalar.extui (Scalar.cmpi .eq (BitVec.ofNat 32 k.val) 0#32)) 0#32) = 1#1) ↔ k.val = 0 := by decide +kernel
theorem lastChain100 : ∀ k : Fin 100,
    ((Scalar.cmpi .ne (Scalar.extui (Scalar.cmpi .eq (BitVec.ofNat 32 k.val) 99#32)) 0#32) = 1#1) ↔ k.val = 99 := by decide +kernel
theorem firstChain625 : ∀ k : Fin 625,
    ((Scalar.cmpi .ne (Scalar.extui (Scalar.cmpi .eq (BitVec.ofNat 32 k.val) 0#32)) 0#32) = 1#1) ↔ k.val = 0 := by decide +kernel
theorem lastChain625 : ∀ k : Fin 625,
    ((Scalar.cmpi .ne (Scalar.extui (Scalar.cmpi .eq (BitVec.ofNat 32 k.val) 624#32)) 0#32) = 1#1) ↔ k.val = 624 := by decide +kernel

/-- The gather's scratch is cleared at the points whose node tile is the first. -/
theorem first1_iff (t : Fin cfg1.N) : first1 (grid1.coords t) ↔ t.val % 100 = 0 := by
  show ((Scalar.cmpi .ne (Scalar.extui (Scalar.cmpi .eq (BitVec.ofNat 32 (grid1.coords t 1).val) 0#32)) 0#32) = 1#1) ↔ _
  rw [coords1_1]; exact firstChain100 ⟨t.val % 100, Nat.mod_lt _ (by omega)⟩
/-- Its output block is stored at the points whose node tile is the last. -/
theorem last1_iff (t : Fin cfg1.N) : last1 (grid1.coords t) ↔ t.val % 100 = 99 := by
  show ((Scalar.cmpi .ne (Scalar.extui (Scalar.cmpi .eq (BitVec.ofNat 32 (grid1.coords t 1).val) 99#32)) 0#32) = 1#1) ↔ _
  rw [coords1_1]; exact lastChain100 ⟨t.val % 100, Nat.mod_lt _ (by omega)⟩
/-- The scatter's scratch is cleared at the points whose edge tile is the first. -/
theorem first2_iff (t : Fin cfg2.N) : first2 (grid2.coords t) ↔ t.val % 625 = 0 := by
  show ((Scalar.cmpi .ne (Scalar.extui (Scalar.cmpi .eq (BitVec.ofNat 32 (grid2.coords t 1).val) 0#32)) 0#32) = 1#1) ↔ _
  rw [coords2_1]; exact firstChain625 ⟨t.val % 625, Nat.mod_lt _ (by omega)⟩
/-- Its output block is stored at the points whose edge tile is the last. -/
theorem last2_iff (t : Fin cfg2.N) : last2 (grid2.coords t) ↔ t.val % 625 = 624 := by
  show ((Scalar.cmpi .ne (Scalar.extui (Scalar.cmpi .eq (BitVec.ofNat 32 (grid2.coords t 1).val) 624#32)) 0#32) = 1#1) ↔ _
  rw [coords2_1]; exact lastChain625 ⟨t.val % 625, Nat.mod_lt _ (by omega)⟩

/-! ## Where the outputs are written back -/

/-- The projection's output block is written back at every point: its block index is the point. -/
theorem flush0_2 (t : Fin cfg0.N) : (cfg0.win 2).flush t = true := by
  have h : t.val < 50 := lt_of_lt_of_eq t.isLt N0
  have hN : cfg0.grid.N = 50 := N0
  unfold Pipeline.Window.flush
  rw [show (cfg0.win 2).isOut = true from rfl, Bool.true_and, Bool.or_eq_true, decide_eq_true_eq, decide_eq_true_eq]
  by_cases hl : t.val + 1 = cfg0.grid.N
  · exact .inl hl
  · have hl' : t.val + 1 < cfg0.grid.N := by omega
    refine .inr ⟨hl', fun e => ?_⟩
    have e0 := congrFun e 0
    rw [index0_2, index0_2] at e0
    simp only [Matrix.cons_val_zero] at e0
    omega

/-- The gather's output block is written back exactly at the last node tile of each edge tile. -/
theorem flush1_3_iff (t : Fin cfg1.N) : (cfg1.win 3).flush t = true ↔ t.val % 100 = 99 := by
  have h : t.val < 62500 := lt_of_lt_of_eq t.isLt N1
  have hN : cfg1.grid.N = 62500 := N1
  unfold Pipeline.Window.flush
  rw [show (cfg1.win 3).isOut = true from rfl, Bool.true_and, Bool.or_eq_true, decide_eq_true_eq, decide_eq_true_eq]
  constructor
  · rintro (hl | ⟨hl, hne⟩)
    · omega
    · by_contra hc
      apply hne
      rw [index1_3, index1_3]
      have : (t.val + 1) / 100 = t.val / 100 := by omega
      simp only [this]
  · intro hm
    by_cases hl : t.val + 1 = cfg1.grid.N
    · exact .inl hl
    · have hl' : t.val + 1 < cfg1.grid.N := by omega
      refine .inr ⟨hl', fun e => ?_⟩
      have e0 := congrFun e 0
      rw [index1_3, index1_3] at e0
      simp only [Matrix.cons_val_zero] at e0
      omega

/-- The scatter's output block is written back exactly at the last edge tile of each node tile. -/
theorem flush2_3_iff (t : Fin cfg2.N) : (cfg2.win 3).flush t = true ↔ t.val % 625 = 624 := by
  have h : t.val < 62500 := lt_of_lt_of_eq t.isLt N2
  have hN : cfg2.grid.N = 62500 := N2
  unfold Pipeline.Window.flush
  rw [show (cfg2.win 3).isOut = true from rfl, Bool.true_and, Bool.or_eq_true, decide_eq_true_eq, decide_eq_true_eq]
  constructor
  · rintro (hl | ⟨hl, hne⟩)
    · omega
    · by_contra hc
      apply hne
      rw [index2_3, index2_3]
      have : (t.val + 1) / 625 = t.val / 625 := by omega
      simp only [this]
  · intro hm
    by_cases hl : t.val + 1 = cfg2.grid.N
    · exact .inl hl
    · have hl' : t.val + 1 < cfg2.grid.N := by omega
      refine .inr ⟨hl', fun e => ?_⟩
      have e0 := congrFun e 0
      rw [index2_3, index2_3] at e0
      simp only [Matrix.cons_val_zero] at e0
      omega

/-- Where the gather does not store its output block, the pipeline does not write it back, -/
theorem noFlush1_3 (t : Fin cfg1.N) (h : ¬ last1 (grid1.coords t)) : (cfg1.win 3).flush t = false := by
  rw [last1_iff] at h
  cases hf : (cfg1.win 3).flush t
  · rfl
  · exact absurd ((flush1_3_iff t).mp hf) h
/-- and the configuration calls the window idle there; where it stores, live. -/
theorem idle1_3_of_not_last (t : Fin cfg1.N) (h : ¬ last1 (grid1.coords t)) : cfg1.idle 3 (grid1.coords t) = true := by
  show (!(k1_cond2 (grid1.coords t) == 1#1)) = true
  simp only [Bool.not_eq_true', beq_eq_false_iff_ne, ne_eq]; exact h
theorem idle1_3_of_last (t : Fin cfg1.N) (h : last1 (grid1.coords t)) : cfg1.idle 3 (grid1.coords t) = false := by
  show (!(k1_cond2 (grid1.coords t) == 1#1)) = false
  simp only [Bool.not_eq_false', beq_iff_eq]; exact h

theorem noFlush2_3 (t : Fin cfg2.N) (h : ¬ last2 (grid2.coords t)) : (cfg2.win 3).flush t = false := by
  rw [last2_iff] at h
  cases hf : (cfg2.win 3).flush t
  · rfl
  · exact absurd ((flush2_3_iff t).mp hf) h
theorem idle2_3_of_not_last (t : Fin cfg2.N) (h : ¬ last2 (grid2.coords t)) : cfg2.idle 3 (grid2.coords t) = true := by
  show (!(k2_cond2 (grid2.coords t) == 1#1)) = true
  simp only [Bool.not_eq_true', beq_eq_false_iff_ne, ne_eq]; exact h
theorem idle2_3_of_last (t : Fin cfg2.N) (h : last2 (grid2.coords t)) : cfg2.idle 3 (grid2.coords t) = false := by
  show (!(k2_cond2 (grid2.coords t) == 1#1)) = false
  simp only [Bool.not_eq_false', beq_iff_eq]; exact h

end Cert.KernelIdeal.Regions

end
-- ==== Proof.KI.ProjectBody.lean ====
/-
  The first kernel region, the dense projection: the body's triple and the body obligation. On whole staging buffers
  holding a block of feature rows and the transposed weights the body leaves both as they were and leaves their
  product in the output's buffer; at every grid point the pipeline hands the body exactly those blocks, so the proof
  data's account of what each buffer holds after the body is met.
-/
import proofs.«411619_j43928925503801_1_alg».proof.Proof.KI.ProjectData
import proofs.«411619_j43928925503801_1_alg».proof.Proof.KI.Schedule

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The staging buffers at a point, and the body there -/

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)

/-- The body as the pipeline calls it at point t. -/
abbrev bodyAt0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-! ## What the input buffers hold when the body runs -/

/-- The feature block sits in its staging buffer at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- The weight block, fetched once, is still in its staging buffer at every later point: its block index never moves. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## Loads and stores through a whole buffer

The body reads and writes each buffer through the rectangle of the buffer's own sizes at zero offsets. Stated over an
arbitrary shape: one store through that rectangle, read back, is its payload; a load through it reads the contents. -/

section Whole

variable {Val : EltTy → Type} [∀ e, Nonempty (Val e)] {sg : RefSig} {κ : Kind} {sp : Space} {e : EltTy}

theorem zeroOff2 : (![0, 0] : Fin 2 → ℕ) = fun _ => 0 := by
  funext a; fin_cases a <;> rfl

theorem read_single_whole_store (S : Shape) (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

theorem readAt_whole (S : Shape) (v : View sg κ sp S e) (f : v.ty.Contents Val) {off : Fin S.rank → ℕ}
    (h : off = fun _ => 0) (inb : ∀ a, off a + S.size a ≤ S.size a) :
    v.readAt Val (Rect.unit off S.size inb).toLoadRect f = v.read Val f :=
  (View.readAt_eq_ld v f _).trans (View.ld_unit_zero h inb _)

end Whole

/-! ## The body's triple -/

set_option maxHeartbeats 1000000 in
/-- The body on whole staging buffers: the two inputs are handed back as they were, the output's buffer holds the
    product of the feature block and the transposed weights. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  simp only [read_single_whole_store S2000x128 _ _ zeroOff2, readAt_whole S2000x128 _ _ zeroOff2, readAt_whole S128x128 _ _ zeroOff2]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KI.GatherBody.lean ====
/-
  The second kernel region, the gather by a one-hot product: the body's triple, the body obligation and the two
  entailments of the invariant. On whole staging buffers the body leaves the three inputs as they were; the scratch
  ends at one step of the accumulation (cleared first when the node tile is the first, then the one-hot product
  added); the output's buffer ends at the new scratch times the edge values when the node tile is the last and is
  otherwise untouched. At every grid point the pipeline hands the body exactly the blocks the proof data names and
  the invariant hands it the scratch as the point before left it, so the proof data's account of every buffer after
  the body is met. Before the first point and after the last the invariant is the scoped rest with the scratch at
  some contents.
-/
import proofs.«411619_j43928925503801_1_alg».proof.Proof.KI.GatherData
import proofs.«411619_j43928925503801_1_alg».proof.Proof.KI.Schedule

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Loads and stores through a whole buffer

The body reads and writes each of its buffers through the rectangle of the buffer's own sizes at zero offsets: a store
through it, made last, leaves its payload whatever was stored before; a load after such a store reads that payload; a
load of untouched contents reads them. -/

section Whole

variable {Val : EltTy → Type} [∀ e, Nonempty (Val e)] {sg : RefSig} {κ : Kind} {sp : Space} {e : EltTy}

private theorem zero2 : (![0, 0] : Fin 2 → ℕ) = fun _ => 0 := by
  funext a; fin_cases a <;> rfl

private theorem read_writes_unit_cons (S : Shape) (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩)]
  exact View.canon_cons_unit_zero h inb w L

private theorem readCov_unit_cons (S : Shape) (v : View sg κ sp S e) {off : Fin S.rank → ℕ}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons.mpr (Or.inl rfl), View.mem_set_unit_zero h inb y⟩),
    View.canon_cons_unit_zero h inb w L]
  exact View.ld_unit_zero h inb w

private theorem readAt_unit (S : Shape) (v : View sg κ sp S e) (f : v.ty.Contents Val) {off : Fin S.rank → ℕ}
    (h : off = fun _ => 0) (inb : ∀ a, off a + S.size a ≤ S.size a) :
    v.readAt Val (Rect.unit off S.size inb).toLoadRect f = v.read Val f := by
  rw [View.readAt_eq_ld]; exact View.ld_unit_zero h inb _

end Whole

/-! ## The body's triple -/

set_option maxHeartbeats 4000000 in
/-- The body on whole buffers: the three inputs are handed back as they were; the scratch ends at one step of the
    accumulation from what it held; the output's buffer ends at what the body emits there: the new scratch times the
    edge values at the last node tile, what it held otherwise. By cases on the two branches. -/
theorem sound_kernel1 (c : Dev nD) (E : Set ℕ) (i : grid1.Coords)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (emit1 i (step1 i xc xy xs) xv xo)
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  by_cases h1 : first1 i <;> by_cases h2 : last1 i
  · -- first and last node tile at once
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold emit1 step1; rw [if_pos h2, if_pos h1]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_pos h1]
  · -- the first node tile, not the last: the scratch is cleared, then updated; the output is untouched
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit1; rw [if_neg h2]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_pos h1]
  · -- the last node tile, not the first: the scratch is updated and the output stored
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold emit1 step1; rw [if_pos h2, if_neg h1]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_neg h1]
  · -- neither: the scratch is updated, the output untouched
    sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit1; rw [if_neg h2]
    · iexists _; isplitr
      swap; · iexact H6
      ipureintro
      sl_unfold_words
      simp only [read_writes_unit_cons S2560x128 _ _ zero2, readCov_unit_cons S2560x128 _ zero2,
        readAt_unit S2560x128 _ _ zero2, readAt_unit S2560x1 _ _ zero2, readAt_unit S1000x128 _ _ zero2]
      unfold step1; rw [if_neg h1]

/-- The triple where the node tile is the last: the output's buffer ends at the new scratch times the edge values. -/
theorem sound_kernel1_last (c : Dev nD) (E : Set ℕ) (i : grid1.Coords) (hl : last1 i)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (k1_pay3 (step1 i xc xy xs) xv)
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  have h := sound_kernel1 c E i arg2 harg2 arg3 harg3 arg4 harg4 arg5 harg5 arg6 harg6 xc xv xy xo xs K
  have e : emit1 i (step1 i xc xy xs) xv xo = k1_pay3 (step1 i xc xy xs) xv := by unfold emit1; rw [if_pos hl]
  rwa [e] at h

/-- The triple where it is not: the output's buffer is handed back as it was. -/
theorem sound_kernel1_not_last (c : Dev nD) (E : Set ℕ) (i : grid1.Coords) (hl : ¬ last1 i)
    (arg2 : Memref sig .tc .vmem S2560x1 .i32) (harg2 : arg2.IsWhole) (arg3 : Memref sig .tc .vmem S2560x1 .f32) (harg3 : arg3.IsWhole)
    (arg4 : Memref sig .tc .vmem S1000x128 .f32) (harg4 : arg4.IsWhole) (arg5 : Memref sig .tc .vmem S2560x128 .f32) (harg5 : arg5.IsWhole)
    (arg6 : Memref sig .tc .vmem S2560x128 .f32) (harg6 : arg6.IsWhole)
    (xc : Vec F S2560x1 .i32) (xv : Vec F S2560x1 .f32) (xy : Vec F S1000x128 .f32) (xo xs : Vec F S2560x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare xo
            ∗ owns (c : Thread nD τ) arg6 fullShare (step1 i xc xy xs)) -∗ K ⟨⟩))
      ⊢ wp frame (wpE (defs₀ (F := F)) Variants.none c none) E (cc1__gather_kernel i arg2 harg2 arg3 harg3 arg4 harg4 arg5 harg5 arg6 harg6) K := by
  have h := sound_kernel1 c E i arg2 harg2 arg3 harg3 arg4 harg4 arg5 harg5 arg6 harg6 xc xv xy xo xs K
  have e : emit1 i (step1 i xc xy xs) xv xo = xo := by unfold emit1; rw [if_neg hl]
  rwa [e] at h

/-! ## The staging buffers at a point, and the body there -/

abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)

/-- The body as the pipeline calls it at point t. -/
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-! ## What the input buffers hold when the body runs -/

/-- The edge tile's column indices sit in their staging buffer at every point: fetched when the edge tile moves, still
    there at the points between. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- So do its edge values, -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- and the node tile of projected features, fetched at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant and the scratch, by the point -/

theorem Phi1_zero (c : Dev nD) (n : ℕ) (h : n ≤ cfg1.N) (hz : n = 0) :
    Phi1 V c n h = iprop((∃ d, owns (c : Thread nD τ) scM1 fullShare d) ∗ rest1 (F := F) c) := by
  subst hz; rfl

/-- After point n: the scratch at what that point left. -/
theorem Phi1_succ (c : Dev nD) (n : ℕ) (hn : n < cfg1.N) :
    Phi1 V c (n + 1) hn = iprop(owns (c : Thread nD τ) scM1 fullShare (acc1 V c n hn) ∗ rest1 (F := F) c) := rfl

/-- Before a point that is not the first: the scratch at what the point before left. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c) := by
  cases n with
  | zero => exact absurd rfl hz
  | succ n => rfl

/-- The invariant at a point's start. -/
theorem Phi1_castSucc (c : Dev nD) (t : Fin cfg1.N) :
    (dat1 V c).Φ t.castSucc = Phi1 V c t.val (Nat.le_of_lt t.isLt) := by
  dsimp only [dat1]; simp only [Fin.coe_castSucc]

/-- The scratch after a point that is not the first is one step from the scratch after the point before. -/
theorem acc1_pos (c : Dev nD) (t : Fin cfg1.N) (hz : t.val ≠ 0) :
    acc1 V c t.val t.isLt
      = step1 (grid1.coords t) (cols1 V c t) (ytile1 V c t) (acc1 V c (t.val - 1) (Nat.lt_of_le_of_lt (Nat.sub_le _ _) t.isLt)) := by
  obtain ⟨n, hn⟩ := t
  cases n with
  | zero => exact absurd rfl hz
  | succ n => rfl

/-- The scratch after the first point is one step from ANY contents: the node tile there is the first, so the step
    clears the scratch before it adds. -/
theorem acc1_first (c : Dev nD) (t : Fin cfg1.N) (hz : t.val = 0) (d : Vec F S2560x128 .f32) :
    acc1 V c t.val t.isLt = step1 (grid1.coords t) (cols1 V c t) (ytile1 V c t) d := by
  have hf : first1 (grid1.coords t) := (first1_iff t).mpr (by rw [hz])
  obtain ⟨n, hn⟩ := t
  have hz' : n = 0 := hz
  subst hz'
  rw [acc1_zero]; unfold step1; rw [if_pos hf, if_pos hf]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

set_option maxHeartbeats 1600000 in
/-- The body at any point: the inputs' buffers hold their blocks and the invariant hands over the scratch as the point
    before left it (at anything at the first point, where the body clears it), so the triple applies; the scratch
    comes back at this point's step of the recursion. At the last node tile the output's buffer comes back at the new
    scratch times the edge values; elsewhere the window is idle and not written back, and its buffer comes back as it
    was found. What the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) t.isLt from rfl, Phi1_succ,
    after1_0, after1_1, after1_2, Phi1_castSucc]
  by_cases hl : last1 (grid1.coords t)
  · rw [show (dat1 V c).leavesExact 3 t = owns (c : Thread nD τ) (st1_3 t) fullShare ((dat1 V c).after 3 t) from by
      unfold Dat.leavesExact; rw [idle1_3_of_last t hl], after1_3]
    have hz : t.val ≠ 0 := fun h => by have := (last1_iff t).mp hl; omega
    rw [Phi1_pos V c _ _ hz, acc1_pos V c t hz]
    iintro ⟨⟨HS, Hr⟩, Ho, ⟨%d0, H0⟩, ⟨%d1, H1⟩, ⟨%d2, H2⟩, ⟨%d3, H3⟩⟩
    iapply (sound_kernel1_last c Set.univ (grid1.coords t) hl _ _ _ _ _ _ _ _ _ _ (cols1 V c t) (vals1 V c t) (ytile1 V c t)
      ((dat1 V c).before 3 t d3) (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · rw [Dat.leavesExact_idle (dat1 V c) 3 t (idle1_3_of_not_last t hl) (noFlush1_3 t hl)]
    by_cases hz : t.val = 0
    · rw [Phi1_zero V c _ _ hz]
      iintro ⟨⟨⟨%ds, HS⟩, Hr⟩, Ho, ⟨%d0, H0⟩, ⟨%d1, H1⟩, ⟨%d2, H2⟩, ⟨%d3, H3⟩⟩
      rw [acc1_first V c t hz ds]
      iapply (sound_kernel1_not_last c Set.univ (grid1.coords t) hl _ _ _ _ _ _ _ _ _ _ (cols1 V c t) (vals1 V c t) (ytile1 V c t)
        ((dat1 V c).before 3 t d3) ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists d3; iexact H3
    · rw [Phi1_pos V c _ _ hz, acc1_pos V c t hz]
      iintro ⟨⟨HS, Hr⟩, Ho, ⟨%d0, H0⟩, ⟨%d1, H1⟩, ⟨%d2, H2⟩, ⟨%d3, H3⟩⟩
      iapply (sound_kernel1_not_last c Set.univ (grid1.coords t) hl _ _ _ _ _ _ _ _ _ _ (cols1 V c t) (vals1 V c t) (ytile1 V c t)
        ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- The scratch owned at some contents is its buffer's points-to at some contents. -/
theorem scratchAny1_eq (c : Dev nD) :
    (iprop(∃ d, owns (c : Thread nD τ) scM1 fullShare d) : sProp 𝕄)
      = iprop(∃ f : Buf (Elt F) ((c : Thread nD τ).loc cc1_scratch0), ((c : Thread nD τ).loc cc1_scratch0) ↦{fullShare} f) := by
  simp only [scM1, owns_whole]; try rfl

/-- What the launch hands the region, the generator register and every scoped buffer that is no staging buffer of the
    region at some contents, is the invariant before the first point: the scratch is one of those buffers. -/
theorem hin1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 (Nat.zero_le _) from rfl, Phi1_zero V c 0 _ rfl, scratchAny1_eq, scopedRest1_eq]
  unfold rest1
  iintro ⟨Hg, A0, A1, A2, A3, A4, HS, B0, B1, B2, B3, B4, B5, B6, B7⟩
  isplitl [HS]; · iexact HS
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iexact Hg

/-- After any point the invariant gives the same back: the scratch's named contents are forgotten. -/
theorem Phi1_out (c : Dev nD) (t : Fin (cfg1.N + 1)) (ht : t.val ≠ 0) :
    (dat1 V c).Φ t
      ⊢ iprop((∃ r, prngReg c r) ∗ Pipeline.scopedRest (Ix := Unit) (Name := ℕ) (U := UR sig nD τ) (Lvl := ℕ) (Val := Elt F) spec1 c) := by
  rw [show (dat1 V c).Φ t = Phi1 V c t.val (Nat.le_of_lt_succ t.isLt) from rfl, Phi1_pos V c _ _ ht, scopedRest1_eq,
    ← scratchAny1_eq]
  unfold rest1
  iintro ⟨HS, A0, A1, A2, A3, A4, B0, B1, B2, B3, B4, B5, B6, B7, Hg⟩
  isplitl [Hg]; · iexact Hg
  isplitl [A0]; · iexact A0
  isplitl [A1]; · iexact A1
  isplitl [A2]; · iexact A2
  isplitl [A3]; · iexact A3
  isplitl [A4]; · iexact A4
  isplitl [HS]; · iexists _; iexact HS
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

/-- In particular after the last point. -/
theorem hout1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) :=
  Phi1_out V c _ (by rw [Fin.val_last]; have : cfg1.N = 62500 := N1; omega)

end Cert.KernelIdeal.Regions

end
-- ==== Proof.KI.ScatterBody.lean ====
/-
  The third kernel region, the scatter-add: the body's triple, the body obligation and the invariant's two ends.
  On whole staging buffers holding an edge tile's row indices, its gathered rows and the bias row, the body leaves
  the three inputs as they were, leaves in the scratch one step of the accumulation from what it found there
  (cleared first at the first edge tile), and at the last edge tile leaves the new scratch plus the bias row in the
  output's buffer, which it otherwise does not touch. At every grid point the pipeline hands the body exactly those
  blocks and the invariant holds the scratch at what the point before left, so the proof data's account is met.
-/
import proofs.«411619_j43928925503801_1_alg».proof.Proof.KI.ScatterData
import proofs.«411619_j43928925503801_1_alg».proof.Proof.KI.Schedule

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Whole-buffer loads and stores -/

/-- Both offsets of a rank-two block at the origin are zero. -/
theorem zeroOff2 : (![0, 0] : Fin 2 → ℕ) = fun _ => 0 := funext fun a => by fin_cases a <;> rfl

section Whole

variable {κ : Kind} {sp : Space} {S : Shape} {e : EltTy}

/-- A load through the whole-shape rectangle at the origin reads the buffer's contents. -/
theorem readAt_whole_zero (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store through it, the last of a run, leaves its payload whatever was stored before. -/
theorem read_writes_whole_zero (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h]

end Whole

/-! ## The body's triple -/

set_option maxHeartbeats 4000000 in
/-- The body on whole staging buffers and the whole scratch: the three inputs are handed back as they were; the scratch
    holds one step of the accumulation from what it held; the output's buffer holds, at the last edge tile, the new
    scratch plus the bias row, and otherwise what it held. By cases on the two branch conditions. -/
theorem sound_kernel2 (c : Dev nD) (E : Set ℕ) (i : grid2.Coords)
    (arg2 : Memref sig .tc .vmem S1x2560 .i32) (harg2 : arg2.IsWhole) (arg3 : Memref sig .tc .vmem S2560x128 .f32) (harg3 : arg3.IsWhole)
    (arg4 : Memref sig .tc .vmem S1x128 .f32) (harg4 : arg4.IsWhole) (arg5 : Memref sig .tc .vmem S1000x128 .f32) (harg5 : arg5.IsWhole)
    (arg6 : Memref sig .tc .vmem S1000x128 .f32) (harg6 : arg6.IsWhole)
    (xc : Vec F S1x2560 .i32) (xv : Vec F S2560x128 .f32) (xy : Vec F S1x128 .f32) (xo xs : Vec F S1000x128 .f32) (K : PUnit → sProp 𝕄) :
    iprop(owns (c : Thread nD τ) arg2 fullShare xc ∗ owns (c : Thread nD τ) arg3 fullShare xv ∗ owns (c : Thread nD τ) arg4 fullShare xy
        ∗ owns (c : Thread nD τ) arg5 fullShare xo ∗ owns (c : Thread nD τ) arg6 fullShare xs
        ∗ (iprop(owns (c : Thread nD τ) arg2 fullShare xc ∗ owns (c : Thread nD τ) arg3 fullShare xv ∗ owns (c : Thread nD τ) arg4 fullShare xy
            ∗ owns (c : Thread nD τ) arg5 fullShare (emit2 i (step2 i xc xv xs) xy xo)
            ∗ owns (c : Thread nD τ) arg6 fullShare (step2 i xc xv xs)) -∗ K ⟨⟩))
      ⊢ wp frame (wpE (defs₀ (F := F)) Variants.none c none) E (cc2__scatter_kernel i arg2 harg2 arg3 harg3 arg4 harg4 arg5 harg5 arg6 harg6) K := by
  simp only [cc2__scatter_kernel_eq_skeleton]; unfold cc2__scatter_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  by_cases h1 : first2 i <;> by_cases h2 : last2 i
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold emit2 step2
      rw [if_pos h2, if_pos h1]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_pos h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit2
      rw [if_neg h2]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_pos h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold emit2 step2
      rw [if_pos h2, if_neg h1]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_neg h1]
  · sl_exec (disch := first | exact h1 | exact h2)
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      unfold emit2
      rw [if_neg h2]
    · iexists _; isplitr
      swap; · iexact H6
      ipureintro
      sl_unfold_run_names
      simp only [read_writes_whole_zero (S := S1000x128) _ _ zeroOff2, View.readCov_cons_toLoadRect,
        readAt_whole_zero (S := S1000x128) _ _ zeroOff2, readAt_whole_zero (S := S2560x128) _ _ zeroOff2,
        readAt_whole_zero (S := S1x2560) _ _ zeroOff2, readAt_whole_zero (S := S1x128) _ _ zeroOff2]
      unfold step2
      rw [if_neg h1]

/-! ## The staging buffers at a point, and the body there -/

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The body as the pipeline calls it at point t: the four current staging buffers and the scratch. -/
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

/-! ## What the input buffers hold when the body runs -/

/-- The edge tile's row indices sit in their staging buffer at every point: fetched when the edge tile moves, and the
    body leaves them in place. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

/-- So do the edge tile's gathered rows. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- The bias row, fetched once, is still in its staging buffer at every later point: its block index never moves. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The invariant, position by position -/

/-- Before the first point the scratch is at anything. -/
theorem Phi2_zero (c : Dev nD) (n : ℕ) (h : n ≤ cfg2.N) (hz : n = 0) :
    Phi2 V c n h = iprop((∃ d, owns (c : Thread nD τ) scM2 fullShare d) ∗ rest2 (F := F) c) := by
  subst hz; rfl

/-- After point n the scratch holds what that point left. -/
theorem Phi2_succ (c : Dev nD) (n : ℕ) (hn : n < cfg2.N) :
    Phi2 V c (n + 1) hn = iprop(owns (c : Thread nD τ) scM2 fullShare (acc2 V c n hn) ∗ rest2 (F := F) c) := rfl

/-- Before a point that is not the first it holds what the point before left. -/
theorem Phi2_pos (c : Dev nD) (n : ℕ) (h : n ≤ cfg2.N) (hz : n ≠ 0) :
    Phi2 V c n h = iprop(owns (c : Thread nD τ) scM2 fullShare (acc2 V c (n - 1) (by omega)) ∗ rest2 (F := F) c) := by
  cases n with
  | zero => exact absurd rfl hz
  | succ n => rfl

/-- The invariant at a point's start, restated at the point's number. -/
theorem Phi2_castSucc (c : Dev nD) (t : Fin cfg2.N) :
    (dat2 V c).Φ t.castSucc = Phi2 V c t.val (Nat.le_of_lt t.isLt) := rfl

/-- The invariant at a point's start, opened: the scratch at some contents, which after the first point are what the
    point before left. -/
theorem Phi2_open (c : Dev nD) (t : Fin cfg2.N) :
    (dat2 V c).Φ t.castSucc ⊢ iprop((∃ xs : Vec F S1000x128 .f32,
        ⌜∀ hz : t.val ≠ 0, xs = acc2 V c (t.val - 1) (Nat.lt_of_le_of_lt (Nat.sub_le _ _) t.isLt)⌝
          ∗ owns (c : Thread nD τ) scM2 fullShare xs) ∗ rest2 (F := F) c) := by
  rw [Phi2_castSucc]
  by_cases hz : t.val = 0
  · rw [Phi2_zero V c _ _ hz]
    iintro ⟨⟨%d, H⟩, Hr⟩
    isplitl [H]
    · iexists d; isplitr; · ipureintro; exact fun h => absurd hz h
      iexact H
    iexact Hr
  · rw [Phi2_pos V c _ _ hz]
    iintro ⟨H, Hr⟩
    isplitl [H]
    · iexists _; isplitr; · ipureintro; exact fun _ => rfl
      iexact H
    iexact Hr

/-! ## One step of the recursion, and the output's two cases -/

/-- The body's step from what the scratch held is the recursion's value at the point: after the first point by the
    recursion's equation; at the first point the edge tile is the first, so the scratch is cleared whatever it held. -/
theorem acc2_step (c : Dev nD) (t : Fin cfg2.N) (xs : Vec F S1000x128 .f32)
    (h : ∀ hz : t.val ≠ 0, xs = acc2 V c (t.val - 1) (Nat.lt_of_le_of_lt (Nat.sub_le _ _) t.isLt)) :
    step2 (grid2.coords t) (rows2 V c t) (gtile2 V c t) xs = acc2 V c t.val t.isLt := by
  obtain ⟨n, hn⟩ := t
  cases n with
  | zero =>
    have hf : first2 (grid2.coords ⟨0, hn⟩) := (first2_iff ⟨0, hn⟩).mpr (Nat.zero_mod _)
    rw [acc2_zero]
    unfold step2
    rw [if_pos hf, if_pos hf]
  | succ n =>
    have hx := h (Nat.succ_ne_zero n)
    subst hx
    rfl

theorem emit2_last (i : grid2.Coords) (acc : Vec F S1000x128 .f32) (bias : Vec F S1x128 .f32) (xo : Vec F S1000x128 .f32)
    (h : last2 i) : emit2 i acc bias xo = k2_pay3 acc bias := by
  unfold emit2; rw [if_pos h]

theorem emit2_not_last (i : grid2.Coords) (acc : Vec F S1000x128 .f32) (bias : Vec F S1x128 .f32) (xo : Vec F S1000x128 .f32)
    (h : ¬ last2 i) : emit2 i acc bias xo = xo := by
  unfold emit2; rw [if_neg h]

/-- What the body leaves in the output's buffer is what the pipeline expects there: at the last edge tile the window
    is live and the block is the scratch plus the bias row; elsewhere the window is idle, nothing is written back, and
    the buffer holds what it was handed. -/
theorem leaves2_3 (c : Dev nD) (t : Fin cfg2.N) (d) :
    owns (c : Thread nD τ) (st2_3 t) fullShare
        (emit2 (grid2.coords t) (acc2 V c t.val t.isLt) (bias2 V c t) ((dat2 V c).before 3 t d))
      ⊢ (dat2 V c).leavesExact 3 t := by
  by_cases hl : last2 (grid2.coords t)
  · rw [show (dat2 V c).leavesExact 3 t = owns (c : Thread nD τ) (st2_3 t) fullShare ((dat2 V c).after 3 t) from by
        unfold Dat.leavesExact; rw [idle2_3_of_last t hl], after2_3, emit2_last _ _ _ _ hl]
  · rw [Dat.leavesExact_idle (dat2 V c) 3 t (idle2_3_of_not_last t hl) (noFlush2_3 t hl), emit2_not_last _ _ _ _ hl]
    iintro H
    iexists d; iexact H

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (dat2 V c).leavesExact 3 t)

set_option maxHeartbeats 1600000 in
/-- The body at any point: the inputs' buffers hold their blocks and the invariant hands over the scratch, so the
    triple applies at the point's coordinates; the scratch comes back at the recursion's value there, the output's
    buffer at what the pipeline expects, and what the core owes passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl, Phi2_succ,
    after2_0, after2_1, after2_2]
  iintro ⟨HΦ, Ho, ⟨%d0, H0⟩, ⟨%d1, H1⟩, ⟨%d2, H2⟩, ⟨%d3, H3⟩⟩
  ihave HΦ' := (Phi2_open V c t) $$ HΦ
  icases HΦ' with ⟨⟨%xs, %hxs, HS⟩, Hr⟩
  have hacc := acc2_step V c t xs hxs
  iapply (sound_kernel2 c Set.univ (grid2.coords t) _ _ _ _ _ _ _ _ _ _ (rows2 V c t) (gtile2 V c t) (bias2 V c t)
    ((dat2 V c).before 3 t d3) xs _)
  isplitl [H0]; · iexact H0
  isplitl [H1]; · iexact H1
  isplitl [H2]; · iexact H2
  isplitl [H3]; · iexact H3
  isplitl [HS]; · iexact HS
  iintro ⟨H0, H1, H2, H3, HS⟩
  rw [hacc]
  isplitl [HS Hr]
  · isplitl [HS]; · iexact HS
    iexact Hr
  isplitl [Ho]; · iexact Ho
  isplitl [H0]; · iexact H0
  isplitl [H1]; · iexact H1
  isplitl [H2]; · iexact H2
  iapply (leaves2_3 V c t d3)
  iexact H3

theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region — the generator register and every scoped buffer that is no staging buffer of
    this region, the scratch among them — is the invariant before the first point. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 := by
  rw [show (dat2 V c).Φ 0 = Phi2 V c 0 (Nat.zero_le _) from rfl, Phi2_zero V c 0 _ rfl, scopedRest2_eq]
  unfold rest2
  simp only [scM2, owns_whole]
  iintro ⟨Hg, H1, H2, H3, H4, H5, H6, H7, H8, H9, H10, H11, H12, H13, H14, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact Hg

/-- After the last point the invariant gives the same back: the scratch's named contents are forgotten. -/
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N (Nat.le_refl _) from rfl,
    Phi2_pos V c _ _ (by have := N2; omega), scopedRest2_eq]
  unfold rest2
  simp only [scM2, owns_whole]
  iintro ⟨HS, H1, H2, H3, H4, H5, H6, H7, H8, H9, H10, H11, H12, H13, H14, Hg⟩
  isplitl [Hg]; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact HS

end Cert.KernelIdeal.Regions

end
-- ==== Proof.KI.Run.lean ====
/-
  The program's run: its three kernel regions among the host stretches, from the launch to the return. Between two
  segments the core holds every unscoped buffer at the contents the fold of Boundaries names, beside its generator
  register and owing nothing. A host stretch applies its operations to that valuation; a region enters with its
  arrays split out of the unscoped buffers, runs its pipeline under its body obligation, and leaves with the arrays
  put back at what the write-backs folded to. So every weakly fair execution terminates, nothing faults, and at the
  end every unscoped buffer holds the last valuation of the fold: the arguments as launched, and the result array at
  what the third region's write-backs leave.
-/
import proofs.«411619_j43928925503801_1_alg».proof.Proof.KI.Boundaries
import proofs.«411619_j43928925503801_1_alg».proof.Proof.KI.ProjectBody
import proofs.«411619_j43928925503801_1_alg».proof.Proof.KI.GatherBody
import proofs.«411619_j43928925503801_1_alg».proof.Proof.KI.ScatterBody
import proofs.«411619_j43928925503801_1_alg».proof.Proof.Gen.KernelIdeal.Regions

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what is owed: every unscoped buffer at the last valuation, the generator register
    at some state. -/
abbrev Tₙ (c : Dev nD) : sProp 𝕄 := iprop(StableHlo.held (c : Thread nD τ) (Pipeline.ucRefs τ sig) (W6 m c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are split
    out of the unscoped buffers and put back at what the write-backs leave; the generator register and the scoped
    buffers no window stages go into the invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are split
    out of the unscoped buffers and put back at what the write-backs leave; the generator register and the scoped
    buffers no window stages go into the invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    isplitl [Hp]; · iexact Hp
    iexact Hr
  hout c := by
    rw [Pipeline.ownSems0_none, show (pdats m 1 c).Φ (Fin.last _) = (dat1 (V3 m) c).Φ (Fin.last cfg1.N) from rfl]
    iintro H
    ihave H' := (hout1 (V3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W5`, left at `W6`. Its arrays are split
    out of the unscoped buffers and put back at what the write-backs leave; the generator register and the scoped
    buffers no window stages go into the invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V5 m) c).Φ 0 from rfl]
    iintro ⟨Hp, -, Hr⟩
    iapply (hin2 (V5 m) c)
    isplitl [Hp]; · iexact Hp
    iexact Hr
  hout c := by
    rw [Pipeline.ownSems0_none, show (pdats m 2 c).Φ (Fin.last _) = (dat2 (V5 m) c).Φ (Fin.last cfg2.N) from rfl]
    iintro H
    ihave H' := (hout2 (V5 m) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program on the TensorCores terminates,
    nothing faulting, and in every final state each unscoped buffer holds the last valuation of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Regions

end
-- ==== Proof.KI.Frame.lean ====
/-
  What the run's last valuation holds at the buffers the claims speak of. No host stretch writes an argument and no
  region's write-backs touch one (the node features are an input window of the projection, and an input's array is
  never written), so each argument walks back through the fold to its launch contents: every weakly fair execution
  terminates with the arguments unchanged. The result array holds what the third region's write-backs leave.
-/
import proofs.«411619_j43928925503801_1_alg».proof.Proof.KI.Run

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is no array of any region and that no host stretch writes ends at its launch contents. -/
theorem W6_bypass (c : Dev nD) (r : Ref sig .tc)
    (h2 : ∀ w, Pipeline.arrRef spec2 w ≠ r) (hh2 : r ∉ hostOps2_W)
    (h1 : ∀ w, Pipeline.arrRef spec1 w ≠ r) (hh1 : r ∉ hostOps1_W)
    (h0 : ∀ w, Pipeline.arrRef spec0 w ≠ r) (hh0 : r ∉ hostOps0_W) :
    W6 m c (Proc.devRef .tc r) = m ((c : Thread nD τ).loc r) :=
  (W6_of_ne m c r h2).trans <| (StableHlo.after_of_writes_sub hostOps2 _ hostOps2_writes hh2).trans <|
    (W4_of_ne m c r h1).trans <| (StableHlo.after_of_writes_sub hostOps1 _ hostOps1_writes hh1).trans <|
    (W2_of_ne m c r h0).trans <| (StableHlo.after_of_writes_sub hostOps0 _ hostOps0_writes hh0).trans rfl

/-- The node features: an input window of the projection, bypassed by everything after. -/
theorem W6_main_arg0 (c : Dev nD) : W6 m c (Proc.devRef .tc main_arg0) = m ((c : Thread nD τ).loc main_arg0) :=
  (W6_of_ne m c main_arg0 (by decide)).trans <| (StableHlo.after_of_writes_sub hostOps2 _ hostOps2_writes (by decide)).trans <|
    (W4_of_ne m c main_arg0 (by decide)).trans <| (StableHlo.after_of_writes_sub hostOps1 _ hostOps1_writes (by decide)).trans <|
    ((W2_arr m c 0).trans (((dat0 (V1 m) c).arrAt_in 0 rfl _).trans (A_eq0 (V1 m) c 0))).trans <|
    (StableHlo.after_of_writes_sub hostOps0 _ hostOps0_writes (by decide)).trans rfl
theorem W6_main_arg1 (c : Dev nD) : W6 m c (Proc.devRef .tc main_arg1) = m ((c : Thread nD τ).loc main_arg1) :=
  W6_bypass m c main_arg1 (by decide) (by decide) (by decide) (by decide) (by decide) (by decide)
theorem W6_main_arg2 (c : Dev nD) : W6 m c (Proc.devRef .tc main_arg2) = m ((c : Thread nD τ).loc main_arg2) :=
  W6_bypass m c main_arg2 (by decide) (by decide) (by decide) (by decide) (by decide) (by decide)
theorem W6_main_arg3 (c : Dev nD) : W6 m c (Proc.devRef .tc main_arg3) = m ((c : Thread nD τ).loc main_arg3) :=
  W6_bypass m c main_arg3 (by decide) (by decide) (by decide) (by decide) (by decide) (by decide)
theorem W6_main_arg4 (c : Dev nD) : W6 m c (Proc.devRef .tc main_arg4) = m ((c : Thread nD τ).loc main_arg4) :=
  W6_bypass m c main_arg4 (by decide) (by decide) (by decide) (by decide) (by decide) (by decide)
theorem W6_main_arg5 (c : Dev nD) : W6 m c (Proc.devRef .tc main_arg5) = m ((c : Thread nD τ).loc main_arg5) :=
  W6_bypass m c main_arg5 (by decide) (by decide) (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and the six arguments. -/
theorem run_result : θ_run defs (onTc (τ := τ) (main (F := F))) ⟨m, fun _ => 0, ρ⟩ (fun r => ∀ c : Dev nD,
      r.2.mem ((c.tc : Thread nD τ).loc main_v7) = W6 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v7 (by decide)),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

/-- The frame: the program runs to the end and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_result m ρ)

end Cert.KernelIdeal.Regions

end
-- ==== Proof.KI.Arrays.lean ====
/-
  The program's arrays at the ideal instance as plain functions into the extended reals (or into words), read at the
  segment boundaries: the six arguments at launch, the projected features after the first region, the gathered rows
  after the second, the result after the third.
-/
import proofs.«411619_j43928925503801_1_alg».proof.Proof.KI.Boundaries
import Idealize.ShloMosaic.PureOps.Ideal
import Idealize.ShloMosaic.Lib.ValueIdx

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ) (c : Dev nD)

abbrev xArr : S100000x128.Idx → EReal := m ((c : Thread nD τ).loc main_arg0)
abbrev rowsArr : S1600000.Idx → BitVec 32 := m ((c : Thread nD τ).loc main_arg1)
abbrev colsArr : S1600000.Idx → BitVec 32 := m ((c : Thread nD τ).loc main_arg2)
abbrev valsArr : S1600000.Idx → EReal := m ((c : Thread nD τ).loc main_arg3)
abbrev wArr : S128x128.Idx → EReal := m ((c : Thread nD τ).loc main_arg4)
abbrev bArr : S128.Idx → EReal := m ((c : Thread nD τ).loc main_arg5)
/-- The projected features: what the first region leaves in its result array. -/
abbrev yArr : S100000x128.Idx → EReal := W2 (F := Ideal) m c (Proc.devRef .tc main_v1)
/-- The gathered, scaled rows: what the second region leaves in its result array. -/
abbrev gArr : S1600000x128.Idx → EReal := W4 (F := Ideal) m c (Proc.devRef .tc main_v4)
/-- The result: what the third region leaves in its result array. -/
abbrev outArr : S100000x128.Idx → EReal := W6 (F := Ideal) m c (Proc.devRef .tc main_v7)

end Cert.KernelIdeal.Regions

end
-- ==== Proof.Math.Spec.lean ====
/-
  The mathematics of the claim, with no program in it. Over the extended reals, with node features x (100000 × 128),
  edge endpoints rows and cols (1600000 words each), edge values vals, a weight matrix w (128 × 128, row o = output
  channel o) and a bias b:

    the kernel computes   out[r, o] = Σ_e [rows e = r] · ( (Σ_n [cols e = n] · Σ_k x[n, k] · w[o, k]) · vals e ) + b[o]
    the reference         out[r, o] = Σ_k ( Σ_e [rows e = r] · (vals e · x[cols e, k]) ) · w[o, k] + b[o]

  where [u = n] is 1 when the word u is the number n and 0 otherwise. The kernel projects first and aggregates after;
  the reference aggregates first and projects after. They agree when every entry is a real number and every column
  index names a node: the inner one-hot sum then picks the one row cols e, and the rest is the distributive law.
-/
import Idealize.ShloMosaic.PureOps.Ideal
import Idealize.ShloMosaic.Lib.ValueIdx

noncomputable section

namespace Cert.Spec

open Idealize.ShloMosaic

/-- The one-hot weight: 1 when the word is the number, else 0. -/
def oh (u : BitVec 32) (n : ℕ) : EReal := if u = BitVec.ofNat 32 n then 1 else 0

/-- The dense projection: row n of x against row o of w. -/
def projV (x : Fin 100000 → Fin 128 → EReal) (w : Fin 128 → Fin 128 → EReal) (n : Fin 100000) (o : Fin 128) : EReal :=
  ∑ k : Fin 128, x n k * w o k

/-- The gather as a one-hot product, then the edge value. -/
def gatherV (cols : Fin 1600000 → BitVec 32) (vals : Fin 1600000 → EReal) (y : Fin 100000 → Fin 128 → EReal)
    (e : Fin 1600000) (o : Fin 128) : EReal :=
  (∑ n : Fin 100000, oh (cols e) n.val * y n o) * vals e

/-- The scatter-add as a one-hot product, then the bias. -/
def scatterV (rows : Fin 1600000 → BitVec 32) (g : Fin 1600000 → Fin 128 → EReal) (b : Fin 128 → EReal)
    (r : Fin 100000) (o : Fin 128) : EReal :=
  (∑ e : Fin 1600000, oh (rows e) r.val * g e o) + b o

/-- What the kernel's three regions compute, composed. -/
def kernelV (x : Fin 100000 → Fin 128 → EReal) (rows cols : Fin 1600000 → BitVec 32) (vals : Fin 1600000 → EReal)
    (w : Fin 128 → Fin 128 → EReal) (b : Fin 128 → EReal) : Fin 100000 → Fin 128 → EReal :=
  scatterV rows (gatherV cols vals (projV x w)) b

/-- The node a column word names, when it names one (its value, cut to the node range otherwise). -/
def node (u : BitVec 32) : Fin 100000 := ⟨min u.toNat 99999, by omega⟩

/-- What the reference computes: aggregate the scaled gathered rows by destination, then project, then the bias. -/
def refV (x : Fin 100000 → Fin 128 → EReal) (rows cols : Fin 1600000 → BitVec 32) (vals : Fin 1600000 → EReal)
    (w : Fin 128 → Fin 128 → EReal) (b : Fin 128 → EReal) (r : Fin 100000) (o : Fin 128) : EReal :=
  (∑ k : Fin 128, (∑ e : Fin 1600000, oh (rows e) r.val * (vals e * x (node (cols e)) k)) * w o k) + b o

end Cert.Spec

end
-- ==== Proof.KI.ProjectValue.lean ====
/-
  The first region's result, read entry by entry: y[n, o] = Σ_k x[n, k] · w[o, k] over the extended reals.

  Each of the 50 grid points multiplies a block of 2000 feature rows by the transposed weight matrix into a zero
  accumulator; over the extended reals the narrowing of the operands is the identity, so entry (p, q) of a point's
  product is Σ_k xblock[p, k] · wT[k, q]. Row p of point t's feature block is row 2000·t + p of x, and entry (k, q) of
  the transposed weights is w[q, k]. Every point writes its block of 2000 rows back, row n lies in the block of point
  n / 2000, and so the array after the region is the one function of x and w above.
-/
import proofs.«411619_j43928925503801_1_alg».proof.Proof.KI.Arrays
import proofs.«411619_j43928925503801_1_alg».proof.Proof.KI.Schedule
import proofs.«411619_j43928925503801_1_alg».proof.Proof.Math.Spec
import Idealize.ShloMosaic.PureOps.Ideal.Laws
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

/-! ## The body's product at an index

  The body narrows both operands to bf16 (the identity on the extended reals), recasts the weights to their own
  shape, and multiplies into a zero accumulator: entry (p, q) of the product is Σ_k x0[p, k] · x1[k, q]. -/

/-- The left operand's index on its free axis is the result's row, -/
theorem projDot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- on its contracted axis the summation index; -/
theorem projDot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand's index on its contracted axis is the summation index, -/
theorem projDot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- on its free axis the result's column. -/
theorem projDot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the body's product: row p of the feature block against column q of the transposed weights. -/
theorem projPayload_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact projDot_lhs_0 _ _
    | ⟨1, _⟩ => exact (projDot_lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (projDot_rhs_0 _ _).trans hk
    | ⟨1, _⟩ => exact projDot_rhs_1 _ _)
  rw [el, er]
  show x0 (ix2 p k) * shapeCast S128x128 x1 shapeCasts_S128x128_S128x128 (ix2 k q) = _
  rw [shapeCast_self]

/-! ## The region's two inputs, read off the launch arrays

  The host stretch before the region writes only the transposed weights; the features are as at launch. -/

section Entry
variable (m : (ℓ : Loc nD τ sig) → Buf (Elt F) ℓ)

/-- The feature array is entered as launched. -/
theorem entry_features (c : Dev nD) :
    (V1 m c main_arg0 : S100000x128.Idx → Elt F .f32) = m ((c : Thread nD τ).loc main_arg0) := by
  show StableHlo.after hostOps0 _ (Proc.devRef .tc main_arg0) = _
  after_results

/-- The second input is the launched weight matrix transposed. -/
theorem entry_weightsT (c : Dev nD) : (V1 m c main_v0 : S128x128.Idx → Elt F .f32)
    = transpose S128x128 [1, 0] (m ((c : Thread nD τ).loc main_arg4) : S128x128.Idx → Elt F .f32) transposes_S128x128_S128x128_1_0 := by
  show StableHlo.after hostOps0 _ (Proc.devRef .tc main_v0) = _
  after_results
end Entry

section Blocks
variable (m : (ℓ : Loc nD τ sig) → Buf (Elt Ideal) ℓ) (c : Dev nD)

/-- Row p of point t's feature block is row 2000·t + p of the feature array. -/
theorem featureBlock_apply (t : Fin cfg0.N) (p : Fin 2000) (k : Fin 128) (h : 2000 * t.val + p.val < 100000) :
    xrows0 (V1 m) c t (ix2 p k) = xArr m c (ix2 ⟨2000 * t.val + p.val, h⟩ k) := by
  show V1 m c main_arg0 (((cfg0.win 0).blk t).view.emb (ix2 p k)) = _
  rw [entry_features]
  refine congrArg (m ((c : Thread nD τ).loc main_arg0)) ?_
  have e0 : win0_0.index t (0 : Fin 2) = t.val := congrFun (index0_0 t) 0
  have e1 : win0_0.index t (1 : Fin 2) = 0 := congrFun (index0_0 t) 1
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- Entry (k, q) of every point's weight block is entry (q, k) of the weight matrix. -/
theorem weightBlock_apply (t : Fin cfg0.N) (k : Fin 128) (q : Fin 128) :
    wT0 (V1 m) c t (ix2 k q) = wArr m c (ix2 q k) := by
  show V1 m c main_v0 (((cfg0.win 1).blk t).view.emb (ix2 k q)) = _
  rw [entry_weightsT]
  have e0 : win0_1.index t (0 : Fin 2) = 0 := congrFun (index0_1 t) 0
  have e1 : win0_1.index t (1 : Fin 2) = 0 := congrFun (index0_1 t) 1
  refine transpose_apply [1, 0] _ transposes_S128x128_S128x128_1_0 _ (ix2 q k) fun b => ?_
  match b with
  | ⟨0, _⟩ => show k.val = win0_1.index t (0 : Fin 2) * 128 + 1 * k.val; omega
  | ⟨1, _⟩ => show q.val = win0_1.index t (1 : Fin 2) * 128 + 1 * q.val; omega

/-! ## From the blocks to the array -/

/-- The projected features as one function of the launch arrays: entry (n, o) is row n of x against row o of w. -/
def projArr : S100000x128.Idx → EReal := fun i =>
  Cert.Spec.projV (fun n k => xArr m c (ix2 n k)) (fun o k => wArr m c (ix2 o k))
    ⟨(i 0).val, idx2_lt0 i⟩ ⟨(i 1).val, idx2_lt1 i⟩

/-- What point t writes back is its block of rows 2000·t … 2000·t + 1999 of that function. -/
theorem projFlushed (t : Fin cfg0.N) :
    (dat0 (V1 m) c).flushed 2 t = ((cfg0.win 2).blk t).view.read (Elt Ideal) (projArr m c) := by
  have ht : t.val < 50 := lt_of_lt_of_eq t.isLt N0
  show (cfg0.win 2).cut (grid0.coords t) ((dat0 (V1 m) c).after 2 t) = _
  rw [after0_2]
  funext j
  obtain ⟨p, q, rfl⟩ : ∃ (p : Fin 2000) (q : Fin 128), j = ix2 p q := ⟨j 0, j 1, eq_ix2 j⟩
  show k0_pay1 (xrows0 (V1 m) c t) (wT0 (V1 m) c t) (ix2 p q) = projArr m c (((cfg0.win 2).blk t).view.emb (ix2 p q))
  have hr : 2000 * t.val + p.val < 100000 := by have := p.isLt; omega
  have e0 : win0_2.index t (0 : Fin 2) = t.val := congrFun (index0_2 t) 0
  have e1 : win0_2.index t (1 : Fin 2) = 0 := congrFun (index0_2 t) 1
  have hi : ((cfg0.win 2).blk t).view.emb (ix2 p q) = (ix2 ⟨2000 * t.val + p.val, hr⟩ q : S100000x128.Idx) := by
    funext a; apply Fin.ext
    match a with
    | ⟨0, _⟩ => show win0_2.index t (0 : Fin 2) * 2000 + 1 * p.val = 2000 * t.val + p.val; omega
    | ⟨1, _⟩ => show win0_2.index t (1 : Fin 2) * 128 + 1 * q.val = q.val; omega
  rw [hi]
  refine (projPayload_apply (xrows0 (V1 m) c t) (wT0 (V1 m) c t) p q).trans ?_
  show _ = ∑ k : Fin 128, xArr m c (ix2 ⟨2000 * t.val + p.val, hr⟩ k) * wArr m c (ix2 q k)
  refine Finset.sum_congr rfl fun k _ => ?_
  rw [featureBlock_apply m c t p k hr, weightBlock_apply m c t k q]

/-- An index of the array is in point t's block iff each coordinate is in the block's range on its axis. -/
theorem projBlock_mem (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1).slice (win0_2.rect t)).set ↔ _
  rw [View.set_slice_whole, Rect.mem_set_unit]
  exact Iff.rfl

/-- Row n is in the block of point n / 2000, and every point writes its block back. -/
theorem projCover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  let t : Fin cfg0.N := ⟨(i 0).val / 2000, lt_of_lt_of_eq (by omega) N0.symm⟩
  have e0 : win0_2.index t (0 : Fin 2) = (i 0).val / 2000 := congrFun (index0_2 t) 0
  have e1 : win0_2.index t (1 : Fin 2) = 0 := congrFun (index0_2 t) 1
  refine ⟨t, flush0_2 t, ?_⟩
  rw [projBlock_mem]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The region's result array after its run is the projection of the launch arrays. -/
theorem projFinal : (dat0 (V1 m) c).arrAt 2 cfg0.N = projArr m c :=
  (dat0 (V1 m) c).arrAt_eq_of_cover 2 (projArr m c) (fun t _ => projFlushed m c t) (projCover)

end Blocks

/-- The projected features, entry by entry: y[n, o] = Σ_k x[n, k] · w[o, k]. -/
theorem project_value (m : (ℓ : Loc nD τ sig) → Buf (Elt Ideal) ℓ) (c : Dev nD) (n : Fin 100000) (o : Fin 128) :
    yArr m c (ValueIdx.ix2 n o) = Cert.Spec.projV (fun n k => xArr m c (ValueIdx.ix2 n k)) (fun o k => wArr m c (ValueIdx.ix2 o k)) n o := by
  show W2 (F := Ideal) m c (Proc.devRef .tc (Pipeline.arrRef spec0 2)) (ix2 n o) = _
  rw [W2_arr, projFinal]
  rfl

end Cert.KernelIdeal.Regions

end
-- ==== Proof.KI.GatherValue.lean ====
/-
  The gather region read as a value. At the ideal instance the second region leaves, at edge e and channel o, the
  sum over all nodes n of [cols e = n] · y[n, o], times vals e: the one-hot product of the column indices with the
  projected features, scaled by the edge value.

  The body at a grid point (edge tile et, node tile cb) adds to its scratch row j the partial sum over the 1000 nodes
  of tile cb; the scratch is cleared at cb = 0, so after the point (et, cb) it holds the partial sum over the nodes
  below 1000 · (cb + 1); at cb = 99 that is the sum over all 100000 nodes, and there the output block takes the
  scratch times the edge values. The output blocks tile the array, one per edge tile.
-/
import proofs.«411619_j43928925503801_1_alg».proof.Proof.KI.Arrays
import proofs.«411619_j43928925503801_1_alg».proof.Proof.KI.Schedule
import proofs.«411619_j43928925503801_1_alg».proof.Proof.Math.Spec
import Idealize.ShloMosaic.PureOps.Ideal.Laws
import Idealize.ShloMosaic.Lib.Pipeline.Value
import Idealize.ShloMosaic.Lib.ValueIdx
import Idealize.ShloMosaic.Lib.StableHlo.Run
import Mathlib.Algebra.BigOperators.Group.Finset.Basic
import Mathlib.Algebra.BigOperators.Fin

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

/-! ## The payloads at an index -/

/-- The cleared scratch is zero everywhere. -/
theorem pay1_apply (j : Fin 2560) (q : Fin 128) : (k1_pay1 (F := Ideal)) (ix2 j q) = 0 := by
  unfold k1_pay1
  rw [shapeCast_self]
  show Ideal.ofBits .f32 0x00000000#32 = 0
  exact Ideal.ofBits_zero_f32

/-- The stored block is the scratch times the edge value of the row. -/
theorem pay3_apply (acc : Vec Ideal S2560x128 .f32) (vals : Vec Ideal S2560x1 .f32) (j : Fin 2560) (q : Fin 128) :
    k1_pay3 acc vals (ix2 j q) = acc (ix2 j q) * vals (ix2 j 0) := by
  unfold k1_pay3
  rw [shapeCast_self]
  show acc (ix2 j q) * broadcastTo S2560x128 vals broadcasts_S2560x1_S2560x128 (ix2 j q) = _
  rw [broadcastTo_apply vals broadcasts_S2560x1_S2560x128 (ix2 j q) (ix2 j 0) (fun a => match a with
    | ⟨0, _⟩ => by show j.val = if (2560 : Nat) = 1 then 0 else j.val; rw [if_neg (by decide)]
    | ⟨1, _⟩ => by show (0 : Nat) = if (1 : Nat) = 1 then 0 else _; rw [if_pos rfl])]

/-! ## The one-hot product at an index -/

/-- The operand indices of the product at an output index and a contraction index: row and contraction index on
    the left, contraction index and column on the right. -/
theorem lhs1_0 (i : S2560x128.Idx) (r : dot_S2560x1000_S1000x128_S2560x128_1_0_0_1_n_n.contr.Idx) :
    (dot_S2560x1000_S1000x128_S2560x128_1_0_0_1_n_n.lhsIdx i r 0).val = (i 0).val := by
  unfold DotDims.lhsIdx
  rw [dif_neg (show ¬(0 : Fin S2560x1000.rank) ∈ dot_S2560x1000_S1000x128_S2560x128_1_0_0_1_n_n.lhsBatch by decide), dif_pos (show (0 : Fin S2560x1000.rank) ∈ dot_S2560x1000_S1000x128_S2560x128_1_0_0_1_n_n.lhsNonContracting by decide)]
  rfl
theorem lhs1_1 (i : S2560x128.Idx) (r : dot_S2560x1000_S1000x128_S2560x128_1_0_0_1_n_n.contr.Idx) :
    (dot_S2560x1000_S1000x128_S2560x128_1_0_0_1_n_n.lhsIdx i r 1).val = (r ⟨0, by decide⟩).val :=
  dot_S2560x1000_S1000x128_S2560x128_1_0_0_1_n_n.lhsIdx_val_of_single rfl i r
theorem rhs1_0 (i : S2560x128.Idx) (r : dot_S2560x1000_S1000x128_S2560x128_1_0_0_1_n_n.contr.Idx) :
    (dot_S2560x1000_S1000x128_S2560x128_1_0_0_1_n_n.rhsIdx i r 0).val = (r ⟨0, by decide⟩).val :=
  dot_S2560x1000_S1000x128_S2560x128_1_0_0_1_n_n.rhsIdx_val_of_single rfl i r
theorem rhs1_1 (i : S2560x128.Idx) (r : dot_S2560x1000_S1000x128_S2560x128_1_0_0_1_n_n.contr.Idx) :
    (dot_S2560x1000_S1000x128_S2560x128_1_0_0_1_n_n.rhsIdx i r 1).val = (i 1).val := by
  unfold DotDims.rhsIdx
  rw [dif_neg (show ¬(1 : Fin S1000x128.rank) ∈ dot_S2560x1000_S1000x128_S2560x128_1_0_0_1_n_n.rhsBatch by decide), dif_pos (show (1 : Fin S1000x128.rank) ∈ dot_S2560x1000_S1000x128_S2560x128_1_0_0_1_n_n.rhsNonContracting by decide)]
  rfl

/-- The node id a lane of the node tile stands for, as a word: 1000 · cb + nn. Words add and multiply as the
    numbers do modulo 2^32, so no bound is needed. -/
theorem node_word (cb nn : ℕ) :
    IntOp.addi (Scalar.muli (BitVec.ofNat 32 cb) 1000#32) (BitVec.ofNat 32 nn) = BitVec.ofNat 32 (1000 * cb + nn) := by
  show BitVec.ofNat 32 cb * 1000#32 + BitVec.ofNat 32 nn = _
  rw [BitVec.ofNat_add, BitVec.ofNat_mul, BitVec.mul_comm]

/-- The comparison bit, widened and converted, is the one-hot weight. -/
theorem onehot_entry (u w : BitVec 32) (n : ℕ) (hw : w = BitVec.ofNat 32 n) :
    (FloatOps.sitofp (F := Ideal) .f32 ((IntOp.cmpi .eq u w).setWidth 32) : EReal) = Cert.Spec.oh u n := by
  subst hw
  unfold Cert.Spec.oh
  by_cases h : u = BitVec.ofNat 32 n
  · have hb : (u == BitVec.ofNat 32 n) = true := by rw [beq_iff_eq]; exact h
    rw [if_pos h]
    show (((BitVec.setWidth 32 (BitVec.ofBool (u == BitVec.ofNat 32 n))).toInt : ℝ) : EReal) = 1
    rw [hb]
    have e : (BitVec.setWidth 32 (BitVec.ofBool true)).toInt = 1 := by decide
    rw [e]; simp
  · have hb : (u == BitVec.ofNat 32 n) = false := by rw [beq_eq_false_iff_ne]; exact h
    rw [if_neg h]
    show (((BitVec.setWidth 32 (BitVec.ofBool (u == BitVec.ofNat 32 n))).toInt : ℝ) : EReal) = 0
    rw [hb]
    have e : (BitVec.setWidth 32 (BitVec.ofBool false)).toInt = 0 := by decide
    rw [e]; simp

/-- One run of the accumulation: what was in the scratch plus, at row j and channel q, the sum over the node tile's
    1000 lanes of the one-hot weight of the row's column index at the lane's node id times the feature there. -/
theorem pay2_apply (i : grid1.Coords) (cols : Vec Ideal S2560x1 .i32) (y : Vec Ideal S1000x128 .f32)
    (xs : Vec Ideal S2560x128 .f32) (j : Fin 2560) (q : Fin 128) :
    k1_pay2 i cols y xs (ix2 j q)
      = xs (ix2 j q) + ∑ nn : Fin 1000, Cert.Spec.oh (cols (ix2 j 0)) (1000 * (i 1).val + nn.val) * y (ix2 nn q) := by
  unfold k1_pay2
  dsimp only
  rw [shapeCast_self, addf_apply]
  simp only [matmul]
  rw [Ideal.matmul_constant_zero_apply, ← Equiv.sum_comp (contrEquiv1 dot_S2560x1000_S1000x128_S2560x128_1_0_0_1_n_n 1000 rfl rfl).symm]
  refine congrArg (xs (ix2 j q) + ·) (Finset.sum_congr rfl fun k _ => ?_)
  have hk := contrEquiv1_symm_val dot_S2560x1000_S1000x128_S2560x128_1_0_0_1_n_n 1000 rfl rfl k
  have el : dot_S2560x1000_S1000x128_S2560x128_1_0_0_1_n_n.lhsIdx (ix2 j q) ((contrEquiv1 dot_S2560x1000_S1000x128_S2560x128_1_0_0_1_n_n 1000 rfl rfl).symm k) = ix2 j k := funext fun a => Fin.ext (by
    match a with
    | ⟨0, _⟩ => exact lhs1_0 _ _
    | ⟨1, _⟩ => exact (lhs1_1 _ _).trans hk)
  have er : dot_S2560x1000_S1000x128_S2560x128_1_0_0_1_n_n.rhsIdx (ix2 j q) ((contrEquiv1 dot_S2560x1000_S1000x128_S2560x128_1_0_0_1_n_n 1000 rfl rfl).symm k) = ix2 k q := funext fun a => Fin.ext (by
    match a with
    | ⟨0, _⟩ => exact (rhs1_0 _ _).trans hk
    | ⟨1, _⟩ => exact rhs1_1 _ _)
  rw [el, er]
  refine congrArg₂ (· * ·) ?_ ?_
  · show FloatOps.sitofp (F := Ideal) .f32 ((IntOp.cmpi .eq
        (broadcastTo S2560x1000 (shapeCast S2560x1 cols shapeCasts_S2560x1_S2560x1) broadcasts_S2560x1_S2560x1000 (ix2 j k))
        (IntOp.addi (Scalar.muli (BitVec.ofNat 32 (i 1).val) 1000#32) (iota .tc S2560x1000 32 [1] iota_S2560x1000_d1_w32 (ix2 j k)))).setWidth 32) = _
    rw [shapeCast_self, broadcastTo_apply cols broadcasts_S2560x1_S2560x1000 (ix2 j k) (ix2 j 0) (fun a => match a with
      | ⟨0, _⟩ => by show j.val = if (2560 : Nat) = 1 then 0 else j.val; rw [if_neg (by decide)]
      | ⟨1, _⟩ => by show (0 : Nat) = if (1 : Nat) = 1 then 0 else _; rw [if_pos rfl]), iota_single_apply]
    exact onehot_entry _ _ _ (node_word _ _)
  · show shapeCast S1000x128 y shapeCasts_S1000x128_S1000x128 (ix2 k q) = y (ix2 k q)
    rw [shapeCast_self]

/-! ## What the gather finds in its arrays -/

variable (m : (ℓ : Loc nD τ sig) → Buf (Elt Ideal) ℓ) (c : Dev nD)

/-- The projection leaves the column indices and the edge values as they were at launch. -/
theorem W2_arg2 : (W2 (F := Ideal) m c (Proc.devRef .tc main_arg2) : S1600000.Idx → BitVec 32) = colsArr m c := by
  rw [W2_of_ne m c main_arg2 (by decide)]
  show StableHlo.after hostOps0 (W0 m c) (Proc.devRef .tc main_arg2) = _
  after_results
theorem W2_arg3 : (W2 (F := Ideal) m c (Proc.devRef .tc main_arg3) : S1600000.Idx → EReal) = valsArr m c := by
  rw [W2_of_ne m c main_arg3 (by decide)]
  show StableHlo.after hostOps0 (W0 m c) (Proc.devRef .tc main_arg3) = _
  after_results

/-- The gather's three input arrays: the column indices and the edge values reshaped to one column, and the
    projected features. -/
theorem V3_v2 : (V3 (F := Ideal) m c main_v2 : S1600000x1.Idx → BitVec 32)
    = shapeCast S1600000x1 (colsArr m c) shapeCasts_S1600000_S1600000x1 := by
  show StableHlo.after hostOps1 (W2 m c) (Proc.devRef .tc main_v2) = _
  after_results
  rw [W2_arg2]
  rfl
theorem V3_v3 : (V3 (F := Ideal) m c main_v3 : S1600000x1.Idx → EReal)
    = shapeCast S1600000x1 (valsArr m c) shapeCasts_S1600000_S1600000x1 := by
  show StableHlo.after hostOps1 (W2 m c) (Proc.devRef .tc main_v3) = _
  after_results
  rw [W2_arg3]
  rfl
theorem V3_v1 : (V3 (F := Ideal) m c main_v1 : S100000x128.Idx → EReal) = yArr m c := by
  show StableHlo.after hostOps1 (W2 m c) (Proc.devRef .tc main_v1) = _
  after_results

/-- A one-column reshape read at a row. -/
theorem col_apply {α : Type} (x : S1600000.Idx → α) (r : Fin 1600000) :
    shapeCast S1600000x1 x shapeCasts_S1600000_S1600000x1 (ix2 r 0) = x (ix1 r) :=
  shapeCast_apply x shapeCasts_S1600000_S1600000x1 (ix2 r 0) (ix1 r) (by
    rw [Shape.rowMajor_val_one, Shape.rowMajor_val_two]
    show r.val = r.val * 1 + 0
    omega)

/-! ## The blocks at a grid point, read off the arrays

At point t the edge tile is t / 100 and the node tile is t % 100: row j of the column-index and edge-value blocks is
edge 2560 · (t / 100) + j, and row nn of the feature block is node 1000 · (t % 100) + nn. -/

theorem edge_lt (t : Fin cfg1.N) (j : Fin 2560) : 2560 * (t.val / 100) + j.val < 1600000 := by
  have h : t.val < 62500 := lt_of_lt_of_eq t.isLt N1
  omega
theorem node_lt (t : Fin cfg1.N) (nn : Fin 1000) : 1000 * (t.val % 100) + nn.val < 100000 := by omega

theorem cols1_apply (t : Fin cfg1.N) (j : Fin 2560) :
    cols1 (V3 m) c t (ix2 j 0) = colsArr m c (ix1 ⟨2560 * (t.val / 100) + j.val, edge_lt t j⟩) := by
  have i0 : (cfg1.win 0).index t 0 = t.val / 100 := congrFun (index1_0 t) 0
  have i1 : (cfg1.win 0).index t 1 = 0 := congrFun (index1_0 t) 1
  have e : ((cfg1.win 0).blk t).view.emb (ix2 j 0)
      = (ix2 ⟨2560 * (t.val / 100) + j.val, edge_lt t j⟩ 0 : S1600000x1.Idx) := by
    funext a; apply Fin.ext
    match a with
    | ⟨0, _⟩ => show (cfg1.win 0).index t 0 * 2560 + 1 * j.val = 2560 * (t.val / 100) + j.val; rw [i0]; omega
    | ⟨1, _⟩ => show (cfg1.win 0).index t 1 * 1 + 1 * 0 = 0; rw [i1]
  show V3 m c main_v2 (((cfg1.win 0).blk t).view.emb (ix2 j 0)) = _
  rw [e]
  exact (congrFun (V3_v2 m c) _).trans (col_apply _ _)

theorem vals1_apply (t : Fin cfg1.N) (j : Fin 2560) :
    vals1 (V3 m) c t (ix2 j 0) = valsArr m c (ix1 ⟨2560 * (t.val / 100) + j.val, edge_lt t j⟩) := by
  have i0 : (cfg1.win 1).index t 0 = t.val / 100 := congrFun (index1_1 t) 0
  have i1 : (cfg1.win 1).index t 1 = 0 := congrFun (index1_1 t) 1
  have e : ((cfg1.win 1).blk t).view.emb (ix2 j 0)
      = (ix2 ⟨2560 * (t.val / 100) + j.val, edge_lt t j⟩ 0 : S1600000x1.Idx) := by
    funext a; apply Fin.ext
    match a with
    | ⟨0, _⟩ => show (cfg1.win 1).index t 0 * 2560 + 1 * j.val = 2560 * (t.val / 100) + j.val; rw [i0]; omega
    | ⟨1, _⟩ => show (cfg1.win 1).index t 1 * 1 + 1 * 0 = 0; rw [i1]
  show V3 m c main_v3 (((cfg1.win 1).blk t).view.emb (ix2 j 0)) = _
  rw [e]
  exact (congrFun (V3_v3 m c) _).trans (col_apply _ _)

theorem ytile1_apply (t : Fin cfg1.N) (nn : Fin 1000) (q : Fin 128) :
    ytile1 (V3 m) c t (ix2 nn q) = yArr m c (ix2 ⟨1000 * (t.val % 100) + nn.val, node_lt t nn⟩ q) := by
  have i0 : (cfg1.win 2).index t 0 = t.val % 100 := congrFun (index1_2 t) 0
  have i1 : (cfg1.win 2).index t 1 = 0 := congrFun (index1_2 t) 1
  have e : ((cfg1.win 2).blk t).view.emb (ix2 nn q)
      = (ix2 ⟨1000 * (t.val % 100) + nn.val, node_lt t nn⟩ q : S100000x128.Idx) := by
    funext a; apply Fin.ext
    match a with
    | ⟨0, _⟩ => show (cfg1.win 2).index t 0 * 1000 + 1 * nn.val = 1000 * (t.val % 100) + nn.val; rw [i0]; omega
    | ⟨1, _⟩ => show (cfg1.win 2).index t 1 * 128 + 1 * q.val = q.val; rw [i1]; omega
  show V3 m c main_v1 (((cfg1.win 2).blk t).view.emb (ix2 nn q)) = _
  rw [e]
  exact congrFun (V3_v1 m c) _

/-! ## The scratch after a point -/

/-- One node's term of a row's sum, the row's column word being u, over a column Y of the projected features;
    stated at every natural number, zero past the last node. -/
def gterm (u : BitVec 32) (Y : Fin 100000 → EReal) (k : ℕ) : EReal :=
  if h : k < 100000 then Cert.Spec.oh u k * Y ⟨k, h⟩ else 0

/-- The terms below 1000 · (cb + 1) are those below 1000 · cb and the 1000 of tile cb. -/
theorem range_tile (g : ℕ → EReal) (cb : ℕ) :
    ∑ k ∈ Finset.range (1000 * (cb + 1)), g k
      = ∑ k ∈ Finset.range (1000 * cb), g k + ∑ x ∈ Finset.range 1000, g (1000 * cb + x) := by
  rw [show 1000 * (cb + 1) = 1000 * cb + 1000 by omega, Finset.sum_range_add]

/-- At the first node tile the terms of the tile are all the terms so far. -/
theorem sum_first (g : ℕ → EReal) (cb : ℕ) (h : cb = 0) :
    ∑ x ∈ Finset.range 1000, g (1000 * cb + x) = ∑ k ∈ Finset.range (1000 * (cb + 1)), g k := by
  subst h
  rw [range_tile, Nat.mul_zero, Finset.range_zero, Finset.sum_empty, zero_add]

/-- At a later node tile they join the terms of the tiles before. -/
theorem sum_step (g g' : ℕ → EReal) (cb cb' : ℕ) (hg : g' = g) (hc : cb' = cb + 1) :
    ∑ k ∈ Finset.range (1000 * (cb + 1)), g' k + ∑ x ∈ Finset.range 1000, g (1000 * cb' + x)
      = ∑ k ∈ Finset.range (1000 * (cb' + 1)), g k := by
  subst hg hc
  exact (range_tile _ _).symm

/-- Equal edge numbers name the same column word. -/
theorem cols_congr (a b : ℕ) (ha : a < 1600000) (hb : b < 1600000) (h : a = b) :
    colsArr m c (ix1 ⟨a, ha⟩) = colsArr m c (ix1 ⟨b, hb⟩) := by
  subst h; rfl

/-- What one run of the body adds at row j and channel q: the terms of the node tile of the point. -/
theorem tile_sum (n : ℕ) (hn : n < cfg1.N) (j : Fin 2560) (q : Fin 128) :
    ∑ nn : Fin 1000, Cert.Spec.oh (cols1 (V3 m) c ⟨n, hn⟩ (ix2 j 0)) (1000 * (grid1.coords ⟨n, hn⟩ 1).val + nn.val)
        * ytile1 (V3 m) c ⟨n, hn⟩ (ix2 nn q)
      = ∑ x ∈ Finset.range 1000, gterm (colsArr m c (ix1 ⟨2560 * (n / 100) + j.val, edge_lt ⟨n, hn⟩ j⟩))
          (fun r => yArr m c (ix2 r q)) (1000 * (n % 100) + x) := by
  rw [Finset.sum_range]
  refine Finset.sum_congr rfl fun nn _ => ?_
  rw [cols1_apply m c ⟨n, hn⟩ j, ytile1_apply m c ⟨n, hn⟩ nn q, coords1_1 ⟨n, hn⟩]
  unfold gterm
  rw [dif_pos (node_lt ⟨n, hn⟩ nn)]

/-- After the point n the scratch holds, at row j and channel q, the row's terms over the nodes below
    1000 · (n % 100 + 1): cleared at the first node tile of the row of the grid, one tile's terms added at each point. -/
theorem acc1_apply : ∀ (n : ℕ) (hn : n < cfg1.N) (j : Fin 2560) (q : Fin 128),
    acc1 (V3 m) c n hn (ix2 j q)
      = ∑ k ∈ Finset.range (1000 * (n % 100 + 1)),
          gterm (colsArr m c (ix1 ⟨2560 * (n / 100) + j.val, edge_lt ⟨n, hn⟩ j⟩)) (fun r => yArr m c (ix2 r q)) k
  | 0, hn, j, q => by
    rw [acc1_zero]
    unfold step1
    rw [pay2_apply, if_pos ((first1_iff ⟨0, hn⟩).mpr rfl), pay1_apply, zero_add, tile_sum m c 0 hn j q]
    exact sum_first _ (0 % 100) rfl
  | n + 1, hn, j, q => by
    rw [acc1_succ]
    unfold step1
    rw [pay2_apply, tile_sum m c (n + 1) hn j q]
    by_cases hf : (n + 1) % 100 = 0
    · rw [if_pos ((first1_iff ⟨n + 1, hn⟩).mpr hf), pay1_apply, zero_add]
      exact sum_first _ ((n + 1) % 100) hf
    · rw [if_neg (mt (first1_iff ⟨n + 1, hn⟩).mp hf), acc1_apply n (Nat.lt_of_succ_lt hn) j q]
      refine sum_step _ _ (n % 100) ((n + 1) % 100) ?_ (by omega)
      exact congrArg (fun u => gterm u (fun r => yArr m c (ix2 r q)))
        (cols_congr m c _ _ _ _ (by omega))

/-! ## The array after the region -/

/-- The gathered, scaled rows as one function of the launch arrays and the projected features. -/
def gatherG : S1600000x128.Idx → EReal := fun i =>
  Cert.Spec.gatherV (fun e => colsArr m c (ix1 e)) (fun e => valsArr m c (ix1 e)) (fun n o => yArr m c (ix2 n o))
    ⟨(i 0).val, idx2_lt0 i⟩ ⟨(i 1).val, idx2_lt1 i⟩

/-- What a point at the last node tile writes back is its block of that function: the scratch there holds the
    rows' sums over all nodes, and the body stores it times the edge values. -/
theorem flushed3_eq (t : Fin cfg1.N) (hf : (cfg1.win 3).flush t = true) :
    (dat1 (V3 m) c).flushed 3 t = ((cfg1.win 3).blk t).view.read (Elt Ideal) (gatherG m c) := by
  have h99 : t.val % 100 = 99 := (flush1_3_iff t).mp hf
  show (cfg1.win 3).cut (grid1.coords t) ((dat1 (V3 m) c).after 3 t) = _
  rw [after1_3]
  funext y
  obtain ⟨p, q, rfl⟩ : ∃ (p : Fin 2560) (q : Fin 128), y = ix2 p q := ⟨y 0, y 1, eq_ix2 y⟩
  show k1_pay3 (acc1 (V3 m) c t.val t.isLt) (vals1 (V3 m) c t) (ix2 p q)
    = gatherG m c (((cfg1.win 3).blk t).view.emb (ix2 p q))
  have i0 : (cfg1.win 3).index t 0 = t.val / 100 := congrFun (index1_3 t) 0
  have i1 : (cfg1.win 3).index t 1 = 0 := congrFun (index1_3 t) 1
  have e : ((cfg1.win 3).blk t).view.emb (ix2 p q)
      = (ix2 ⟨2560 * (t.val / 100) + p.val, edge_lt t p⟩ q : S1600000x128.Idx) := by
    funext a; apply Fin.ext
    match a with
    | ⟨0, _⟩ => show (cfg1.win 3).index t 0 * 2560 + 1 * p.val = 2560 * (t.val / 100) + p.val; rw [i0]; omega
    | ⟨1, _⟩ => show (cfg1.win 3).index t 1 * 128 + 1 * q.val = q.val; rw [i1]; omega
  rw [e, pay3_apply, acc1_apply m c t.val t.isLt p q, vals1_apply m c t p, h99,
    show 1000 * (99 + 1) = 100000 from rfl, Finset.sum_range]
  unfold gatherG Cert.Spec.gatherV
  refine congrArg₂ (· * ·) (Finset.sum_congr rfl fun n _ => ?_) rfl
  unfold gterm
  exact (dif_pos n.isLt).trans rfl

/-- An index of the array is in a point's block iff each coordinate is in the block's range on its axis. -/
theorem mem_blk3 (t : Fin cfg1.N) (i : S1600000x128.Idx) :
    i ∈ ((cfg1.win 3).blk t).view.set ↔ ∀ a : Fin 2, win1_3.index t a * S2560x128.size a ≤ (i a).val
      ∧ (i a).val < win1_3.index t a * S2560x128.size a + S2560x128.size a := by
  show i ∈ ((View.whole main_v4).slice (win1_3.rect t)).set ↔ _
  rw [View.set_slice_whole, Rect.mem_set_unit]
  exact Iff.rfl

/-- Every row of the array is written back: edge e by the last point of its edge tile, 100 · (e / 2560) + 99. -/
theorem cover3 (i : S1600000x128.Idx) :
    ∃ t : Fin cfg1.N, (cfg1.win 3).flush t = true ∧ i ∈ ((cfg1.win 3).blk t).view.set := by
  have hi0 : (i 0).val < 1600000 := idx2_lt0 i
  have hi1 : (i 1).val < 128 := idx2_lt1 i
  have hN : cfg1.N = 62500 := N1
  have ht : 100 * ((i 0).val / 2560) + 99 < cfg1.N := by rw [hN]; omega
  have i0 : win1_3.index ⟨100 * ((i 0).val / 2560) + 99, ht⟩ 0 = (100 * ((i 0).val / 2560) + 99) / 100 :=
    congrFun (index1_3 ⟨100 * ((i 0).val / 2560) + 99, ht⟩) 0
  have i1 : win1_3.index ⟨100 * ((i 0).val / 2560) + 99, ht⟩ 1 = 0 :=
    congrFun (index1_3 ⟨100 * ((i 0).val / 2560) + 99, ht⟩) 1
  refine ⟨⟨100 * ((i 0).val / 2560) + 99, ht⟩, (flush1_3_iff _).mpr (by
    show (100 * ((i 0).val / 2560) + 99) % 100 = 99
    omega), ?_⟩
  rw [mem_blk3]
  intro a
  match a with
  | ⟨0, _⟩ =>
    show win1_3.index ⟨100 * ((i 0).val / 2560) + 99, ht⟩ 0 * 2560 ≤ (i 0).val
      ∧ (i 0).val < win1_3.index ⟨100 * ((i 0).val / 2560) + 99, ht⟩ 0 * 2560 + 2560
    rw [i0]; omega
  | ⟨1, _⟩ =>
    show win1_3.index ⟨100 * ((i 0).val / 2560) + 99, ht⟩ 1 * 128 ≤ (i 1).val
      ∧ (i 1).val < win1_3.index ⟨100 * ((i 0).val / 2560) + 99, ht⟩ 1 * 128 + 128
    rw [i1]; omega

/-- So the region leaves its result array at that function. -/
theorem gArr_eq : gArr m c = gatherG m c := by
  show W4 m c (Proc.devRef .tc (Pipeline.arrRef spec1 3)) = _
  rw [W4_arr]
  exact (dat1 (V3 m) c).arrAt_eq_of_cover 3 (gatherG m c) (flushed3_eq m c) cover3

/-- The gathered rows: at edge e and channel o, the sum over the nodes of the one-hot weight of the edge's column
    index times the projected feature, times the edge value. -/
theorem gather_value (m : (ℓ : Loc nD τ sig) → Buf (Elt Ideal) ℓ) (c : Dev nD) (e : Fin 1600000) (o : Fin 128) :
    gArr m c (ValueIdx.ix2 e o)
      = Cert.Spec.gatherV (fun e => colsArr m c (ValueIdx.ix1 e)) (fun e => valsArr m c (ValueIdx.ix1 e))
          (fun n o => yArr m c (ValueIdx.ix2 n o)) e o := by
  rw [gArr_eq]
  rfl

end Cert.KernelIdeal.Regions

end
-- ==== Proof.KI.ScatterValue.lean ====
/-
  The value of the third kernel region, the scatter-add, index by index. With edges e, row indices rows e (words),
  gathered rows g e (128 channels each) and a bias b, the region leaves in its result array

      out[r, o] = Σ_e [rows e = r] · g[e, o] + b[o]          (r a node, o a channel),

  where [u = r] is 1 when the word u is the number r and 0 otherwise.

  The grid is 100 node tiles (1000 nodes each) by 625 edge tiles (2560 edges each), the edge tile innermost; point t
  has node tile t / 625 and edge tile t % 625. At a point the body forms the 1000 × 2560 matrix of the bits
  [rows e = 1000 · (t / 625) + p] (a comparison of the edge tile's row indices with the node ids of the node tile,
  widened and converted: 1 or 0), multiplies it with the 2560 × 128 tile of gathered rows, and adds the product to a
  scratch block that it first clears when the edge tile is the first. Read at row p and channel q that is

      scratch[p, q]  ←  (0 if t % 625 = 0 else scratch[p, q]) + Σ_{j < 2560} [rows (2560 · (t % 625) + j) = 1000 · (t / 625) + p] · g[2560 · (t % 625) + j, q].

  So, by induction on the point, after point n the scratch holds the shares of the edge tiles 0 … n % 625 for the nodes
  of node tile n / 625; after the last edge tile (n % 625 = 624) that is the sum over all 625 · 2560 = 1600000 edges. There
  the body stores the scratch plus the bias row into the output block, whose block index is the node tile: row p of it
  is node 1000 · (t / 625) + p. The blocks written back at the points 625 · k + 624 cover every node, and each is its
  block of the one function above: hence the array.
-/
import proofs.«411619_j43928925503801_1_alg».proof.Proof.KI.Arrays
import proofs.«411619_j43928925503801_1_alg».proof.Proof.KI.Schedule
import proofs.«411619_j43928925503801_1_alg».proof.Proof.Math.Spec
import Idealize.ShloMosaic.PureOps.Ideal.Laws
import Idealize.ShloMosaic.Lib.ValueIdx
import Idealize.ShloMosaic.Lib.Pipeline.Value

set_option maxRecDepth 16384

noncomputable section

namespace Cert.KernelIdeal.Regions

namespace Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.Spec (oh scatterV)

/-! ## The body's three stored values, read at an index -/

/-- The cleared scratch is zero everywhere. -/
theorem pay1_apply (p : Fin 1000) (q : Fin 128) : k2_pay1 (F := Ideal) (ix2 p q) = 0 := by
  unfold k2_pay1
  rw [shapeCast_self]
  exact Ideal.ofBits_zero_f32

/-- The stored output block is the scratch plus the bias row, the row copied down the block. -/
theorem pay3_apply (acc : Vec Ideal S1000x128 .f32) (bias : Vec Ideal S1x128 .f32) (p : Fin 1000) (q : Fin 128) :
    k2_pay3 acc bias (ix2 p q) = acc (ix2 p q) + bias (ix2 0 q) := by
  unfold k2_pay3
  rw [shapeCast_self]
  show acc (ix2 p q) + broadcastTo S1000x128 bias broadcasts_S1x128_S1000x128 (ix2 p q) = _
  rw [broadcastTo_apply bias broadcasts_S1x128_S1000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])]

/-- A widened equality bit, converted: one when the two words are equal, zero otherwise. -/
theorem onehot_word (u v : BitVec 32) :
    (FloatOps.sitofp (F := Ideal) .f32 ((IntOp.cmpi .eq u v).setWidth 32) : EReal) = if u = v then 1 else 0 := by
  show (((((IntOp.cmpi .eq u v).setWidth 32).toInt : ℝ)) : EReal) = _
  by_cases h : u = v
  · have h1 : IntOp.cmpi .eq u v = 1#1 := by
      show BitVec.ofBool (u == v) = 1#1
      rw [beq_iff_eq.mpr h]; rfl
    have e1 : ((1#1 : BitVec 1).setWidth 32).toInt = 1 := by decide
    rw [if_pos h, h1, e1, Int.cast_one, EReal.coe_one]
  · have h0 : IntOp.cmpi .eq u v = 0#1 := by
      show BitVec.ofBool (u == v) = 0#1
      rw [beq_eq_false_iff_ne.mpr h]; rfl
    have e0 : ((0#1 : BitVec 1).setWidth 32).toInt = 0 := by decide
    rw [if_neg h, h0, e0, Int.cast_zero, EReal.coe_zero]

/-! The one-hot product's operand indices, axis by axis: rows by the contraction index on the left, the contraction
    index by columns on the right. -/

theorem lhs2_0 (j : S1000x128.Idx) (k : dot_S1000x2560_S2560x128_S1000x128_1_0_0_1_n_n.contr.Idx) :
    (dot_S1000x2560_S2560x128_S1000x128_1_0_0_1_n_n.lhsIdx j k 0).val = (j 0).val := by
  unfold DotDims.lhsIdx
  rw [dif_neg (show ¬(0 : Fin S1000x2560.rank) ∈ dot_S1000x2560_S2560x128_S1000x128_1_0_0_1_n_n.lhsBatch by decide), dif_pos (show (0 : Fin S1000x2560.rank) ∈ dot_S1000x2560_S2560x128_S1000x128_1_0_0_1_n_n.lhsNonContracting by decide)]
  rfl
theorem lhs2_1 (j : S1000x128.Idx) (k : dot_S1000x2560_S2560x128_S1000x128_1_0_0_1_n_n.contr.Idx) :
    (dot_S1000x2560_S2560x128_S1000x128_1_0_0_1_n_n.lhsIdx j k 1).val = (k ⟨0, by decide⟩).val :=
  dot_S1000x2560_S2560x128_S1000x128_1_0_0_1_n_n.lhsIdx_val_of_single rfl j k
theorem rhs2_0 (j : S1000x128.Idx) (k : dot_S1000x2560_S2560x128_S1000x128_1_0_0_1_n_n.contr.Idx) :
    (dot_S1000x2560_S2560x128_S1000x128_1_0_0_1_n_n.rhsIdx j k 0).val = (k ⟨0, by decide⟩).val :=
  dot_S1000x2560_S2560x128_S1000x128_1_0_0_1_n_n.rhsIdx_val_of_single rfl j k
theorem rhs2_1 (j : S1000x128.Idx) (k : dot_S1000x2560_S2560x128_S1000x128_1_0_0_1_n_n.contr.Idx) :
    (dot_S1000x2560_S2560x128_S1000x128_1_0_0_1_n_n.rhsIdx j k 1).val = (j 1).val := by
  unfold DotDims.rhsIdx
  rw [dif_neg (show ¬(1 : Fin S2560x128.rank) ∈ dot_S1000x2560_S2560x128_S1000x128_1_0_0_1_n_n.rhsBatch by decide), dif_pos (show (1 : Fin S2560x128.rank) ∈ dot_S1000x2560_S2560x128_S1000x128_1_0_0_1_n_n.rhsNonContracting by decide)]
  rfl

/-- The node id a row of the tile stands for, as a word: the tile's first id plus the row is the word of the number
    1000 · a + p (words add and multiply as the numbers do, modulo 2³²). -/
theorem node_word (a p : ℕ) :
    IntOp.addi (Scalar.muli (BitVec.ofNat 32 a) 1000#32) (BitVec.ofNat 32 p) = BitVec.ofNat 32 (1000 * a + p) := by
  show BitVec.ofNat 32 a * BitVec.ofNat 32 1000 + BitVec.ofNat 32 p = _
  rw [Nat.mul_comm 1000 a, BitVec.ofNat_add, BitVec.ofNat_mul]

/-- The accumulating store: what was in the scratch plus, over the edges of the tile, the gathered row of each edge
    whose row index is this node. -/
theorem pay2_apply (i : grid2.Coords) (rows : Vec Ideal S1x2560 .i32) (g : Vec Ideal S2560x128 .f32)
    (xs : Vec Ideal S1000x128 .f32) (p : Fin 1000) (q : Fin 128) :
    k2_pay2 i rows g xs (ix2 p q)
      = xs (ix2 p q) + ∑ j : Fin 2560, oh (rows (ix2 0 j)) (1000 * (i 0).val + p.val) * g (ix2 j q) := by
  unfold k2_pay2
  dsimp only
  simp only [shapeCast_self]
  rw [addf_apply]
  congr 1
  simp only [matmul]
  rw [Ideal.matmul_constant_zero_apply, ← Equiv.sum_comp (contrEquiv1 dot_S1000x2560_S2560x128_S1000x128_1_0_0_1_n_n 2560 rfl rfl).symm]
  refine Finset.sum_congr rfl fun k _ => ?_
  have hk := contrEquiv1_symm_val dot_S1000x2560_S2560x128_S1000x128_1_0_0_1_n_n 2560 rfl rfl k
  have el : dot_S1000x2560_S2560x128_S1000x128_1_0_0_1_n_n.lhsIdx (ix2 p q) ((contrEquiv1 dot_S1000x2560_S2560x128_S1000x128_1_0_0_1_n_n 2560 rfl rfl).symm k) = (ix2 p k : S1000x2560.Idx) :=
    Shape.idx_ext₂ (lhs2_0 _ _) ((lhs2_1 _ _).trans hk)
  have er : dot_S1000x2560_S2560x128_S1000x128_1_0_0_1_n_n.rhsIdx (ix2 p q) ((contrEquiv1 dot_S1000x2560_S2560x128_S1000x128_1_0_0_1_n_n 2560 rfl rfl).symm k) = (ix2 k q : S2560x128.Idx) :=
    Shape.idx_ext₂ ((rhs2_0 _ _).trans hk) (rhs2_1 _ _)
  rw [el, er]
  show FloatOps.sitofp (F := Ideal) .f32 ((IntOp.cmpi .eq (broadcastTo S1000x2560 rows broadcasts_S1x2560_S1000x2560 (ix2 p k))
      (IntOp.addi (Scalar.muli (BitVec.ofNat 32 (i 0).val) 1000#32) (iota .tc S1000x2560 32 [0] iota_S1000x2560_d0_w32 (ix2 p k)))).setWidth 32)
      * g (ix2 k q) = _
  rw [onehot_word, iota_single_apply, node_word,
    broadcastTo_apply rows broadcasts_S1x2560_S1000x2560 (ix2 p k) (ix2 0 k) (fun a => match a with
      | ⟨0, _⟩ => by show 0 = if (1 : Nat) = 1 then 0 else p.val; rw [if_pos rfl]
      | ⟨1, _⟩ => by show k.val = if (2560 : Nat) = 1 then 0 else k.val; rw [if_neg (by decide)])]
  rfl

/-- One run of the body on the scratch: cleared first at the first edge tile, then the one-hot product added. -/
theorem step2_apply (i : grid2.Coords) (rows : Vec Ideal S1x2560 .i32) (g : Vec Ideal S2560x128 .f32)
    (xs : Vec Ideal S1000x128 .f32) (p : Fin 1000) (q : Fin 128) :
    step2 i rows g xs (ix2 p q)
      = (if first2 i then 0 else xs (ix2 p q))
        + ∑ j : Fin 2560, oh (rows (ix2 0 j)) (1000 * (i 0).val + p.val) * g (ix2 j q) := by
  unfold step2
  rw [pay2_apply]
  congr 1
  by_cases h : first2 i
  · rw [if_pos h, if_pos h]; exact pay1_apply p q
  · rw [if_neg h, if_neg h]

/-! ## The arrays the region reads, as it finds them -/

variable (m : (ℓ : Loc nD τ sig) → Buf (Elt Ideal) ℓ) (c : Dev nD)

/-- The row indices and the bias reach the gather's exit untouched: no earlier segment writes them. -/
theorem W4_main_arg1 : (W4 m c (Proc.devRef .tc main_arg1) : S1600000.Idx → BitVec 32) = rowsArr m c := by
  rw [W4_of_ne m c main_arg1 (by decide)]
  show StableHlo.after hostOps1 (W2 m c) (Proc.devRef .tc main_arg1) = _
  after_results
  rw [W2_of_ne m c main_arg1 (by decide)]
  show StableHlo.after hostOps0 (W0 m c) (Proc.devRef .tc main_arg1) = _
  after_results
theorem W4_main_arg5 : (W4 m c (Proc.devRef .tc main_arg5) : S128.Idx → EReal) = bArr m c := by
  rw [W4_of_ne m c main_arg5 (by decide)]
  show StableHlo.after hostOps1 (W2 m c) (Proc.devRef .tc main_arg5) = _
  after_results
  rw [W2_of_ne m c main_arg5 (by decide)]
  show StableHlo.after hostOps0 (W0 m c) (Proc.devRef .tc main_arg5) = _
  after_results

/-- The row indices as the region finds them: the flat array viewed as one row. -/
theorem V5_main_v5 : (V5 m c main_v5 : S1x1600000.Idx → BitVec 32)
    = shapeCast S1x1600000 (rowsArr m c) shapeCasts_S1600000_S1x1600000 := by
  show StableHlo.after hostOps2 (W4 m c) (Proc.devRef .tc main_v5) = _
  after_results
  rw [W4_main_arg1]
  rfl
/-- The bias as the region finds it: the flat array viewed as one row. -/
theorem V5_main_v6 : (V5 m c main_v6 : S1x128.Idx → EReal)
    = shapeCast S1x128 (bArr m c) shapeCasts_S128_S1x128 := by
  show StableHlo.after hostOps2 (W4 m c) (Proc.devRef .tc main_v6) = _
  after_results
  rw [W4_main_arg5]
  rfl
/-- The gathered rows as the region finds them: what the gather left. -/
theorem V5_main_v4 : (V5 m c main_v4 : S1600000x128.Idx → EReal) = gArr m c := by
  show StableHlo.after hostOps2 (W4 m c) (Proc.devRef .tc main_v4) = _
  after_results

/-! ## The region's blocks, read off the arrays -/

/-- The edge tile's row indices are the flat array's, 2560 to a tile. -/
theorem rows2_apply (t : Fin cfg2.N) (j : Fin 2560) (h : 2560 * (t.val % 625) + j.val < 1600000) :
    rows2 (V5 m) c t (ix2 0 j) = rowsArr m c (ix1 ⟨2560 * (t.val % 625) + j.val, h⟩) := by
  show ((cfg2.win 0).blk t).view.read (Elt Ideal) (V5 m c (Pipeline.arrRef spec2 0)) (ix2 0 j) = _
  rw [View.read_apply]
  show V5 m c main_v5 (((cfg2.win 0).blk t).view.emb (ix2 0 j)) = _
  rw [V5_main_v5]
  refine shapeCast_apply _ _ _ (ix1 ⟨2560 * (t.val % 625) + j.val, h⟩) ?_
  rw [Shape.rowMajor_val_one, Shape.rowMajor_val_two]
  show 2560 * (t.val % 625) + j.val
    = ((cfg2.win 0).index t 0 * 1 + 1 * 0) * 1600000 + ((cfg2.win 0).index t 1 * 2560 + 1 * j.val)
  rw [index2_0]
  show 2560 * (t.val % 625) + j.val = (0 * 1 + 1 * 0) * 1600000 + (t.val % 625 * 2560 + 1 * j.val)
  omega

/-- The edge tile's gathered rows are the gather's result array's, 2560 rows to a tile. -/
theorem gtile2_apply (t : Fin cfg2.N) (j : Fin 2560) (q : Fin 128) (h : 2560 * (t.val % 625) + j.val < 1600000) :
    gtile2 (V5 m) c t (ix2 j q) = gArr m c (ix2 ⟨2560 * (t.val % 625) + j.val, h⟩ q) := by
  show ((cfg2.win 1).blk t).view.read (Elt Ideal) (V5 m c (Pipeline.arrRef spec2 1)) (ix2 j q) = _
  rw [View.read_apply]
  show V5 m c main_v4 (((cfg2.win 1).blk t).view.emb (ix2 j q)) = _
  rw [V5_main_v4]
  congr 1
  refine Shape.idx_ext₂ ?_ ?_
  · show (cfg2.win 1).index t 0 * 2560 + 1 * j.val = 2560 * (t.val % 625) + j.val
    rw [index2_1]
    show t.val % 625 * 2560 + 1 * j.val = 2560 * (t.val % 625) + j.val
    omega
  · show (cfg2.win 1).index t 1 * 128 + 1 * q.val = q.val
    rw [index2_1]
    show 0 * 128 + 1 * q.val = q.val
    omega

/-- The bias block is the whole bias, at every point. -/
theorem bias2_apply (t : Fin cfg2.N) (q : Fin 128) :
    bias2 (V5 m) c t (ix2 0 q) = bArr m c (ix1 q) := by
  show ((cfg2.win 2).blk t).view.read (Elt Ideal) (V5 m c (Pipeline.arrRef spec2 2)) (ix2 0 q) = _
  rw [View.read_apply]
  show V5 m c main_v6 (((cfg2.win 2).blk t).view.emb (ix2 0 q)) = _
  rw [V5_main_v6]
  refine shapeCast_apply _ _ _ (ix1 q) ?_
  rw [Shape.rowMajor_val_one, Shape.rowMajor_val_two]
  show q.val = ((cfg2.win 2).index t 0 * 1 + 1 * 0) * 128 + ((cfg2.win 2).index t 1 * 128 + 1 * q.val)
  rw [index2_2]
  show q.val = (0 * 1 + 1 * 0) * 128 + (0 * 128 + 1 * q.val)
  omega

/-! ## The scratch after a point: the sum over the edge tiles met so far in this node tile -/

/-- Edge tile `eb`'s share of node `r`, channel `q`: the gathered rows of the tile's edges whose row index is `r`
    (nothing for a tile number past the last). -/
def tileSum (r : ℕ) (q : Fin 128) (eb : ℕ) : EReal :=
  if h : eb < 625 then
    ∑ j : Fin 2560, oh (rowsArr m c (ix1 ⟨2560 * eb + j.val, by have := j.isLt; omega⟩)) r
      * gArr m c (ix2 ⟨2560 * eb + j.val, by have := j.isLt; omega⟩ q)
  else 0

/-- What the one-hot product adds at point `t` is the share of `t`'s edge tile, for the node `t`'s node tile and the
    row name. -/
theorem point_sum (t : Fin cfg2.N) (p : Fin 1000) (q : Fin 128) :
    ∑ j : Fin 2560, oh (rows2 (V5 m) c t (ix2 0 j)) (1000 * (grid2.coords t 0).val + p.val) * gtile2 (V5 m) c t (ix2 j q)
      = tileSum m c (1000 * (t.val / 625) + p.val) q (t.val % 625) := by
  have hlt : t.val % 625 < 625 := Nat.mod_lt _ (by decide)
  unfold tileSum
  rw [dif_pos hlt, coords2_0]
  refine Finset.sum_congr rfl fun j _ => ?_
  have hj := j.isLt
  rw [rows2_apply m c t j (by omega), gtile2_apply m c t j q (by omega)]

/-- The scratch after point `n`: the shares of the edge tiles `0 … n % 625`, for the nodes of node tile `n / 625`. By
    induction on the point: the first edge tile of a node tile starts from zero, every later one adds its share. -/
theorem acc2_apply : ∀ (n : ℕ) (hn : n < cfg2.N) (p : Fin 1000) (q : Fin 128),
    acc2 (V5 m) c n hn (ix2 p q)
      = ∑ eb ∈ Finset.range (n % 625 + 1), tileSum m c (1000 * (n / 625) + p.val) q eb
  | 0, hn, p, q => by
    rw [acc2_zero, step2_apply, if_pos ((first2_iff ⟨0, hn⟩).mpr rfl), zero_add, point_sum]
    show tileSum m c (1000 * (0 / 625) + p.val) q (0 % 625) = _
    rw [show 0 % 625 + 1 = 1 from rfl, Finset.range_one, Finset.sum_singleton]
  | n + 1, hn, p, q => by
    rw [acc2_succ, step2_apply, point_sum]
    show (if first2 (grid2.coords ⟨n + 1, hn⟩) then 0 else acc2 (V5 m) c n _ (ix2 p q))
      + tileSum m c (1000 * ((n + 1) / 625) + p.val) q ((n + 1) % 625) = _
    by_cases h0 : (n + 1) % 625 = 0
    · rw [if_pos ((first2_iff ⟨n + 1, hn⟩).mpr h0), zero_add, h0, show 0 + 1 = 1 from rfl, Finset.range_one,
        Finset.sum_singleton]
    · rw [if_neg (fun h => h0 ((first2_iff ⟨n + 1, hn⟩).mp h)), acc2_apply n _ p q]
      have hd : (n + 1) / 625 = n / 625 := by omega
      have hm : (n + 1) % 625 = n % 625 + 1 := by omega
      rw [hd, hm, Finset.sum_range_succ _ (n % 625 + 1)]

/-! ## All the edge tiles: every edge once -/

/-- A sum over the 625 tiles of the 2560 edges of each is the sum over all 1600000 edges. -/
theorem sum_tiles (f : Fin 1600000 → EReal) :
    ∑ eb : Fin 625, ∑ j : Fin 2560, f ⟨2560 * eb.val + j.val, by have := eb.isLt; have := j.isLt; omega⟩
      = ∑ e : Fin 1600000, f e := by
  rw [← Fintype.sum_prod_type']
  refine Fintype.sum_equiv (finProdFinEquiv (m := 625) (n := 2560)) _ _ fun x => ?_
  refine congrArg f (Fin.ext ?_)
  show 2560 * x.1.val + x.2.val = x.2.val + 2560 * x.1.val
  omega

/-- After the last edge tile of a node tile the scratch holds, for each of its nodes, the gathered rows of all the
    edges whose row index is that node. -/
theorem range_tiles (r : ℕ) (q : Fin 128) :
    ∑ eb ∈ Finset.range 625, tileSum m c r q eb
      = ∑ e : Fin 1600000, oh (rowsArr m c (ix1 e)) r * gArr m c (ix2 e q) := by
  rw [Finset.sum_range, ← sum_tiles (fun e => oh (rowsArr m c (ix1 e)) r * gArr m c (ix2 e q))]
  refine Finset.sum_congr rfl fun eb _ => ?_
  unfold tileSum
  rw [dif_pos eb.isLt]

/-! ## The result array -/

/-- What the result array is to hold: for each node the gathered rows of the edges whose row index is that node,
    summed, plus the bias. -/
def outG : S100000x128.Idx → EReal := fun i =>
  scatterV (fun e => rowsArr m c (ix1 e)) (fun e o => gArr m c (ix2 e o)) (fun o => bArr m c (ix1 o))
    ⟨(i 0).val, idx2_lt0 i⟩ ⟨(i 1).val, idx2_lt1 i⟩

/-- It at an index whose coordinates are known. -/
theorem outG_of (i : S100000x128.Idx) (r : ℕ) (o : Fin 128) (h0 : (i 0).val = r) (h1 : (i 1).val = o.val) :
    outG m c i = (∑ e : Fin 1600000, oh (rowsArr m c (ix1 e)) r * gArr m c (ix2 e o)) + bArr m c (ix1 o) := by
  unfold outG scatterV
  subst h0
  rw [show (⟨(i 1).val, idx2_lt1 i⟩ : Fin 128) = o from Fin.ext h1]

/-- Row `p`, channel `q` of the output block at point `t` sits in the array at node `1000 · (t / 625) + p`, channel `q`. -/
theorem emb2_3 (t : Fin cfg2.N) (p : Fin 1000) (q : Fin 128) (h : 1000 * (t.val / 625) + p.val < 100000) :
    ((cfg2.win 3).blk t).view.emb (ix2 p q) = (ix2 ⟨1000 * (t.val / 625) + p.val, h⟩ q : S100000x128.Idx) := by
  have i0 : (cfg2.win 3).index t 0 = t.val / 625 := congrFun (index2_3 t) 0
  have i1 : (cfg2.win 3).index t 1 = 0 := congrFun (index2_3 t) 1
  funext a; apply Fin.ext
  match a with
  | ⟨0, _⟩ => show (cfg2.win 3).index t 0 * 1000 + 1 * p.val = 1000 * (t.val / 625) + p.val; rw [i0]; omega
  | ⟨1, _⟩ => show (cfg2.win 3).index t 1 * 128 + 1 * q.val = q.val; rw [i1]; omega

/-- What the last edge tile of a node tile writes back is that node tile's block of the scatter-add: the scratch there
    holds every edge's share, and the store adds the bias row. Stated for any array `G` with the scatter-add's value
    at every index. -/
theorem flushed2_3 (G : S100000x128.Idx → EReal)
    (hG : ∀ (i : S100000x128.Idx) (r : ℕ) (o : Fin 128), (i 0).val = r → (i 1).val = o.val →
      G i = (∑ e : Fin 1600000, oh (rowsArr m c (ix1 e)) r * gArr m c (ix2 e o)) + bArr m c (ix1 o))
    (t : Fin cfg2.N) (hf : (cfg2.win 3).flush t = true) :
    (dat2 (V5 m) c).flushed 3 t = ((cfg2.win 3).blk t).view.read (Elt Ideal) G := by
  have h624 : t.val % 625 = 624 := (flush2_3_iff t).mp hf
  have hN : t.val < 62500 := lt_of_lt_of_eq t.isLt N2
  show (cfg2.win 3).cut (grid2.coords t) ((dat2 (V5 m) c).after 3 t) = _
  rw [after2_3]
  funext y
  obtain ⟨p, q, rfl⟩ : ∃ (p : Fin 1000) (q : Fin 128), y = ix2 p q := ⟨y 0, y 1, eq_ix2 y⟩
  show k2_pay3 (acc2 (V5 m) c t.val t.isLt) (bias2 (V5 m) c t) (ix2 p q)
    = G (((cfg2.win 3).blk t).view.emb (ix2 p q))
  have hs : ∑ eb ∈ Finset.range (t.val % 625 + 1), tileSum m c (1000 * (t.val / 625) + p.val) q eb
      = ∑ e : Fin 1600000, oh (rowsArr m c (ix1 e)) (1000 * (t.val / 625) + p.val) * gArr m c (ix2 e q) := by
    rw [h624]
    exact range_tiles m c _ q
  rw [emb2_3 t p q (by have := p.isLt; omega), pay3_apply, acc2_apply m c t.val t.isLt p q, bias2_apply m c t q, hs]
  exact (hG (ix2 ⟨1000 * (t.val / 625) + p.val, by have := p.isLt; omega⟩ q)
    (1000 * (t.val / 625) + p.val) q rfl rfl).symm

/-- Every node's row lies in the block the last edge tile of its node tile writes back. -/
theorem cover2_3 (i : S100000x128.Idx) :
    ∃ t : Fin cfg2.N, (cfg2.win 3).flush t = true ∧ i ∈ ((cfg2.win 3).blk t).view.set := by
  have h0 : (i 0).val < 100000 := idx2_lt0 i
  have h1 : (i 1).val < 128 := idx2_lt1 i
  obtain ⟨t, ht⟩ : ∃ t : Fin cfg2.N, t.val = 625 * ((i 0).val / 1000) + 624 :=
    ⟨⟨625 * ((i 0).val / 1000) + 624, by have := N2; omega⟩, rfl⟩
  have i0 : (cfg2.win 3).index t 0 = t.val / 625 := congrFun (index2_3 t) 0
  have i1 : (cfg2.win 3).index t 1 = 0 := congrFun (index2_3 t) 1
  refine ⟨t, (flush2_3_iff t).mpr (by omega), ?_⟩
  show i ∈ ((View.whole main_v7).slice (win2_3.rect t)).set
  rw [View.set_slice_whole, Rect.mem_set_unit]
  intro a
  match a with
  | ⟨0, _⟩ =>
    show (cfg2.win 3).index t 0 * 1000 ≤ (i 0).val ∧ (i 0).val < (cfg2.win 3).index t 0 * 1000 + 1000
    rw [i0]; omega
  | ⟨1, _⟩ =>
    show (cfg2.win 3).index t 1 * 128 ≤ (i 1).val ∧ (i 1).val < (cfg2.win 3).index t 1 * 128 + 128
    rw [i1]; omega

/-- So the result array ends holding the scatter-add plus the bias. -/
theorem final2_3 : (dat2 (V5 m) c).arrAt 3 cfg2.N = outG m c :=
  (dat2 (V5 m) c).arrAt_eq_of_cover 3 (outG m c) (flushed2_3 m c (outG m c) (outG_of m c)) cover2_3

/-- The scatter region's result, index by index: the one-hot scatter-add of the gathered rows plus the bias. -/
theorem scatter_value (m : (ℓ : Loc nD τ sig) → Buf (Elt Ideal) ℓ) (c : Dev nD) (r : Fin 100000) (o : Fin 128) :
    outArr m c (ValueIdx.ix2 r o)
      = Cert.Spec.scatterV (fun e => rowsArr m c (ValueIdx.ix1 e)) (fun e o => gArr m c (ValueIdx.ix2 e o))
          (fun o => bArr m c (ValueIdx.ix1 o)) r o := by
  show W6 m c (Proc.devRef .tc (Pipeline.arrRef spec2 3)) (ix2 r o) = _
  rw [W6_arr, final2_3]
  unfold Cert.Spec.scatterV
  exact outG_of m c (ix2 r o) r.val o rfl rfl

end Scatter

end Cert.KernelIdeal.Regions

end
-- ==== Proof.KI.PreFacts.lean ====
/-
  The precondition read back: the printed predicate of the six argument arrays is one at the only index of its rank-0 result,
  so each of its five conjuncts is one, each is an "and" over all positions of an array of one-bit words, and so each element's
  word is one. At a float position the word says |x| < +inf, which over the extended reals leaves only the real numbers; at a
  position of the column indices it says 0 ≤ c (signed) and c < 100000 (signed), which together bound the unsigned value.
-/
import proofs.«411619_j43928925503801_1_alg».proof.Defs
import proofs.«411619_j43928925503801_1_alg».proof.Proof.Gen.Pre_finite_inputs
import proofs.«411619_j43928925503801_1_alg».proof.Proof.KI.Arrays
import Idealize.ShloMosaic.Lib.ReduceAll
import Idealize.ShloMosaic.Lib.StableHlo.Predicate
import Idealize.ShloMosaic.Lib.ValueIdx

set_option maxRecDepth 16384

noncomputable section

namespace Cert.KernelIdeal.Regions

open Idealize.ShloMosaic Idealize.ShloMosaic.TcCoe
open Idealize.SL.Sem
open Cert.KernelIdeal Cert.KernelIdeal.Gen

/-- The rank-0 shape has one index. -/
instance subsingleton_scalar_idx : Subsingleton Cert.Pre_finite_inputs.S_.Idx :=
  ⟨fun a b => funext fun d => d.elim0⟩

/-- The f32 pattern with all exponent bits set and no fraction bit denotes +inf. -/
theorem ofBits_inf : Ideal.ofBits .f32 0x7F800000#32 = (⊤ : EReal) := by
  simp [Ideal.ofBits, Ideal.ieee]

/-- An extended real whose absolute value is below +inf is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  change Ideal.cmp .olt (max x (-x)) (Ideal.ofBits .f32 0x7F800000#32) = 1#1 at h
  rw [ofBits_inf] at h
  induction x using EReal.rec with
  | bot => simp [Ideal.cmp] at h
  | coe a => exact ⟨a, rfl⟩
  | top => simp [Ideal.cmp] at h

/-- A 32-bit word that is signed-nonnegative and signed-below 100000 has unsigned value below 100000. -/
theorem toNat_lt_of_signed_range (a : BitVec 32) (h0 : IntOp.cmpi .sge a 0#32 = 1#1)
    (h1 : IntOp.cmpi .slt a 100000#32 = 1#1) : a.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  rw [BitVec.toInt_eq_toNat_cond] at h0 h1
  split at h0 <;> omega

theorem pre_facts (m : (ℓ : Loc nD τ sig) → Buf (Elt Ideal) ℓ)
    (h : Cert.Pre_KernelIdeal (hPre_finite_inputs := Cert.Pre_finite_inputs.Gen.facts) m) (c : Dev nD) :
    (∀ (n : Fin 100000) (k : Fin 128), ∃ a : ℝ, xArr m c (ValueIdx.ix2 n k) = (a : EReal))
    ∧ (∀ e : Fin 1600000, ∃ a : ℝ, valsArr m c (ValueIdx.ix1 e) = (a : EReal))
    ∧ (∀ (o k : Fin 128), ∃ a : ℝ, wArr m c (ValueIdx.ix2 o k) = (a : EReal))
    ∧ (∀ o : Fin 128, ∃ a : ℝ, bArr m c (ValueIdx.ix1 o) = (a : EReal))
    ∧ (∀ e : Fin 1600000, (colsArr m c (ValueIdx.ix1 e)).toNat < 100000) := by
  -- the predicate at the one index of its rank-0 result
  have h0 := congrFun (h c) ValueIdx.ix0
  dsimp only [Cert.Pre_finite_inputs.fn, Cert.Pre_finite_inputs.fn_part1] at h0
  -- the five conjuncts
  obtain ⟨h1234, hcols⟩ := IntOp.andi_eq_one.1 (show IntOp.andi _ _ = 1#1 from h0)
  obtain ⟨h123, hb⟩ := IntOp.andi_eq_one.1 (show IntOp.andi _ _ = 1#1 from h1234)
  obtain ⟨h12, hw⟩ := IntOp.andi_eq_one.1 (show IntOp.andi _ _ = 1#1 from h123)
  obtain ⟨hx, hvals⟩ := IntOp.andi_eq_one.1 (show IntOp.andi _ _ = 1#1 from h12)
  refine ⟨fun n k => ?_, fun e => ?_, fun o k => ?_, fun o => ?_, fun e => ?_⟩
  · exact real_of_abs_lt_inf _ (Host.reduce_andi_all _ _ _ _ _ hx (ValueIdx.ix2 n k))
  · exact real_of_abs_lt_inf _ (Host.reduce_andi_all _ _ _ _ _ hvals (ValueIdx.ix1 e))
  · exact real_of_abs_lt_inf _ (Host.reduce_andi_all _ _ _ _ _ hw (ValueIdx.ix2 o k))
  · exact real_of_abs_lt_inf _ (Host.reduce_andi_all _ _ _ _ _ hb (ValueIdx.ix1 o))
  · -- both signed comparisons of the word at position e
    have hc := Host.reduce_andi_all _ _ _ _ _ hcols (ValueIdx.ix1 e)
    obtain ⟨hge, hlt⟩ := IntOp.andi_eq_one.1 (show IntOp.andi _ _ = 1#1 from hc)
    exact toNat_lt_of_signed_range _ hge hlt

end Cert.KernelIdeal.Regions

end
-- ==== Proof.Math.Algebra.lean ====
/-
  The kernel's value equals the reference's value, as a statement about extended reals with no program in it.

  Two facts carry it. First, a one-hot sum over the nodes picks one row: when the word u names a node (its value is
  below 100000), exactly one n in range has u = n, so  Σ_n [u = n] · f n = f (node u); every other term is 0 · f n = 0
  and the one left is 1 · f (node u). Second, once every entry is the image of a real number, sums and products of
  images are images of the real sums and products, and over the reals the two sides differ by the distributive law
  and an exchange of the two finite sums:

    Σ_e h_e · ((Σ_k X_{c e} k · W_{o k}) · v_e)  =  Σ_k (Σ_e h_e · (v_e · X_{c e} k)) · W_{o k}.

  Every sum stays abstract: no index set is ever listed.
-/
import proofs.«411619_j43928925503801_1_alg».proof.Proof.Math.Spec
import Mathlib.Data.EReal.Basic
import Mathlib.Algebra.BigOperators.Group.Finset.Basic
import Mathlib.Algebra.BigOperators.Group.Finset.Sigma
import Mathlib.Algebra.BigOperators.Ring.Finset
import Mathlib.Tactic.Ring

noncomputable section

namespace Cert.Spec

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The one-hot weight as a real number. -/
def ohR (u : BitVec 32) (n : ℕ) : ℝ := if u = BitVec.ofNat 32 n then 1 else 0

/-- The one-hot weight is the image of a real number, 0 or 1. -/
theorem oh_eq_coe (u : BitVec 32) (n : ℕ) : oh u n = ((ohR u n : ℝ) : EReal) := by
  unfold oh ohR
  split
  · exact EReal.coe_one.symm
  · exact EReal.coe_zero.symm

/-- A word below 100000 is the number n (n a node) exactly when n is the node it names. -/
theorem eq_ofNat_iff (u : BitVec 32) (hu : u.toNat < 100000) (n : Fin 100000) :
    u = BitVec.ofNat 32 n.val ↔ n = node u := by
  constructor
  · intro h
    have h1 : u.toNat = n.val % 2 ^ 32 := by rw [h, BitVec.toNat_ofNat]
    have h2 : n.val % 2 ^ 32 = n.val := Nat.mod_eq_of_lt (by have := n.isLt; omega)
    apply Fin.ext
    show n.val = min u.toNat 99999
    omega
  · intro h
    have h1 : n.val = u.toNat := by
      rw [h]
      show min u.toNat 99999 = u.toNat
      omega
    rw [h1]
    apply BitVec.eq_of_toNat_eq
    rw [BitVec.toNat_ofNat]
    exact (Nat.mod_eq_of_lt u.isLt).symm

/-- A one-hot sum over the nodes picks the row the word names. -/
theorem oh_sum_select (u : BitVec 32) (hu : u.toNat < 100000) (f : Fin 100000 → EReal) :
    ∑ n : Fin 100000, oh u n.val * f n = f (node u) := by
  rw [Finset.sum_eq_single (node u)]
  · have h : oh u (node u).val = 1 := by
      unfold oh
      rw [if_pos ((eq_ofNat_iff u hu (node u)).mpr rfl)]
    rw [h, one_mul]
  · intro n _ hn
    have h : oh u n.val = 0 := by
      unfold oh
      rw [if_neg (fun hh => hn ((eq_ofNat_iff u hu n).mp hh))]
    rw [h, zero_mul]
  · intro h
    exact absurd (Finset.mem_univ _) h

/-- Over the reals: project then aggregate equals aggregate then project. -/
theorem real_exchange {E K : Type*} [Fintype E] [Fintype K] (h v : E → ℝ) (xc : E → K → ℝ) (wo : K → ℝ) :
    ∑ e, h e * ((∑ k, xc e k * wo k) * v e) = ∑ k, (∑ e, h e * (v e * xc e k)) * wo k := by
  simp only [Finset.sum_mul, Finset.mul_sum]
  rw [Finset.sum_comm]
  refine Finset.sum_congr rfl fun k _ => Finset.sum_congr rfl fun e _ => ?_
  ring

/-- The same exchange for images of reals in the extended reals. -/
theorem ereal_exchange {E K : Type*} [Fintype E] [Fintype K] (h v : E → ℝ) (xc : E → K → ℝ) (wo : K → ℝ) :
    ∑ e, (h e : EReal) * ((∑ k, (xc e k : EReal) * (wo k : EReal)) * (v e : EReal))
      = ∑ k, (∑ e, (h e : EReal) * ((v e : EReal) * (xc e k : EReal))) * (wo k : EReal) := by
  have L : ∀ e, (h e : EReal) * ((∑ k, (xc e k : EReal) * (wo k : EReal)) * (v e : EReal))
      = ((h e * ((∑ k, xc e k * wo k) * v e) : ℝ) : EReal) := by
    intro e
    rw [EReal.coe_mul, EReal.coe_mul, coe_sum]
    simp only [EReal.coe_mul]
  have R : ∀ k, (∑ e, (h e : EReal) * ((v e : EReal) * (xc e k : EReal))) * (wo k : EReal)
      = (((∑ e, h e * (v e * xc e k)) * wo k : ℝ) : EReal) := by
    intro k
    rw [EReal.coe_mul, coe_sum]
    simp only [EReal.coe_mul]
  simp only [L, R]
  rw [← coe_sum, ← coe_sum, real_exchange]

/-- The kernel's value (project, gather by one-hot, scale, scatter by one-hot, bias) is the reference's value
(gather, scale, scatter, project, bias) when every entry is real and every column word names a node. -/
theorem kernelV_eq_refV (x : Fin 100000 → Fin 128 → EReal) (rows cols : Fin 1600000 → BitVec 32)
    (vals : Fin 1600000 → EReal) (w : Fin 128 → Fin 128 → EReal) (b : Fin 128 → EReal)
    (hx : ∀ n k, ∃ a : ℝ, x n k = (a : EReal)) (hv : ∀ e, ∃ a : ℝ, vals e = (a : EReal))
    (hw : ∀ o k, ∃ a : ℝ, w o k = (a : EReal)) (hb : ∀ o, ∃ a : ℝ, b o = (a : EReal))
    (hcols : ∀ e, (cols e).toNat < 100000) (r : Fin 100000) (o : Fin 128) :
    kernelV x rows cols vals w b r o = refV x rows cols vals w b r o := by
  have _ := hb
  choose X hX using hx
  choose V hV using hv
  choose Wt hW using hw
  obtain rfl : x = fun n k => (X n k : EReal) := funext fun n => funext fun k => hX n k
  obtain rfl : vals = fun e => (V e : EReal) := funext hV
  obtain rfl : w = fun o k => (Wt o k : EReal) := funext fun o => funext fun k => hW o k
  -- the gathered, scaled row of edge e: the one-hot sum picks node (cols e)
  have G : ∀ e, gatherV cols (fun e => (V e : EReal))
        (projV (fun n k => (X n k : EReal)) (fun o k => (Wt o k : EReal))) e o
      = (∑ k, (X (node (cols e)) k : EReal) * (Wt o k : EReal)) * (V e : EReal) := by
    intro e
    unfold gatherV
    rw [oh_sum_select (cols e) (hcols e)]
    rfl
  unfold kernelV scatterV refV
  refine congrArg (· + b o) ?_
  simp only [G, oh_eq_coe]
  exact ereal_exchange _ _ _ _

end Cert.Spec

end
-- ==== Proof.KI.Value.lean ====
/-
  The kernel's result at the ideal instance is the reference's function of the arguments. The third region's result is
  the scatter-add of the second's, which is the gather of the first's, which is the projection of the node features:
  composed, the kernel's function. Under the precondition every float entry is a real number and every column index
  names a node, and there the kernel's function is the reference's (the one-hot sum picks one row; the rest is the
  distributive law).
-/
import proofs.«411619_j43928925503801_1_alg».proof.Proof.KI.ProjectValue
import proofs.«411619_j43928925503801_1_alg».proof.Proof.KI.GatherValue
import proofs.«411619_j43928925503801_1_alg».proof.Proof.KI.ScatterValue
import proofs.«411619_j43928925503801_1_alg».proof.Proof.KI.PreFacts
import proofs.«411619_j43928925503801_1_alg».proof.Proof.Math.Algebra

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

theorem result_value (m : (ℓ : Loc nD τ sig) → Buf (Elt Ideal) ℓ)
    (hpre : Cert.Pre_KernelIdeal (hPre_finite_inputs := Cert.Pre_finite_inputs.Gen.facts) m) (c : Dev nD)
    (r : Fin 100000) (o : Fin 128) :
    outArr m c (ix2 r o)
      = Cert.Spec.refV (fun n k => xArr m c (ix2 n k)) (fun e => rowsArr m c (ix1 e)) (fun e => colsArr m c (ix1 e))
          (fun e => valsArr m c (ix1 e)) (fun o k => wArr m c (ix2 o k)) (fun o => bArr m c (ix1 o)) r o := by
  obtain ⟨hx, hv, hw, hb, hc⟩ := pre_facts m hpre c
  have hg : (fun e o => gArr m c (ix2 e o))
      = Cert.Spec.gatherV (fun e => colsArr m c (ix1 e)) (fun e => valsArr m c (ix1 e)) (fun n o => yArr m c (ix2 n o)) :=
    funext fun e => funext fun o => gather_value m c e o
  have hy : (fun n o => yArr m c (ix2 n o))
      = Cert.Spec.projV (fun n k => xArr m c (ix2 n k)) (fun o k => wArr m c (ix2 o k)) :=
    funext fun n => funext fun o => project_value m c n o
  rw [Scatter.scatter_value m c r o, hg, hy]
  exact Cert.Spec.kernelV_eq_refV _ _ _ _ _ _ hx hv hw hb hc r o

end Cert.KernelIdeal.Regions

end
-- ==== Proof.Ref.RefValue.lean ====
/-
  The reference at the ideal instance: its result array, element by element, as the specification's function of
  the arguments.

  The reference gathers row cols e of x for every edge e, scales it by vals e, adds the scaled rows into the row
  rows e of a zero array, multiplies by the transposed weights and adds the bias. Read at the element (r, o):

      out[r, o] = Σ_k ( Σ_e [rows e = r] · (vals e · x[cols e, k]) ) · w[o, k] + b[o].

  Two operations choose WHICH element they read from the values of an operand. The scatter-add puts the update
  element (e, k') at the result index (rows e read as a signed integer, k'), and drops it when that is outside
  the array; so the element (r, k) receives exactly the update elements (e, k) with rows e the word of r. The
  gather reads row "cols e, read signed and cut to the rows of x"; under the hypothesis that every column word is
  below 100000 the sign test before it keeps the word, and the cut is the specification's own.
-/
import proofs.«411619_j43928925503801_1_alg».proof.Defs
import proofs.«411619_j43928925503801_1_alg».proof.Proof.Gen.ReferenceIdeal.Run
import proofs.«411619_j43928925503801_1_alg».proof.Proof.Gen.ReferenceIdeal.Read
import proofs.«411619_j43928925503801_1_alg».proof.Proof.Math.Spec
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx Cert.ReferenceIdeal.Read

/-! ## Words -/

/-- A word below 2³¹ read as a signed integer is its value. -/
theorem toInt_of_small (u : BitVec 32) (h : u.toNat < 2 ^ 31) : u.toInt = (u.toNat : Int) := by
  rw [BitVec.toInt_eq_toNat_cond, if_pos (by omega)]

/-- A word read as a signed integer is the small number n exactly when it is the word of n. -/
theorem toInt_eq_iff (u : BitVec 32) (n : ℕ) (hn : n < 2 ^ 31) : u.toInt = (n : Int) ↔ u = BitVec.ofNat 32 n := by
  constructor
  · intro h
    apply BitVec.eq_of_toNat_eq
    rw [BitVec.toNat_ofNat]
    rw [BitVec.toInt_eq_toNat_cond] at h
    have := u.isLt
    split at h <;> omega
  · rintro rfl
    rw [BitVec.toInt_eq_toNat_cond, BitVec.toNat_ofNat, Nat.mod_eq_of_lt (by omega), if_pos (by omega)]

/-! ## The scatter-add read at an element -/

/-- The scatter's dimension numbers. -/
abbrev sd := scatter_S100000x128_S1600000x1_S1600000x128_1_0_0_1

theorem sc_start0 (idx : IVec S1600000x1 32) (e : Fin 1600000) (k : Fin 128) :
    sd.start (ix2 e k : S1600000x128.Idx) idx 0 = (idx (ix2 e (0 : Fin 1))).toInt := by
  unfold ScatterDims.start
  rw [dif_pos (show (0 : Fin S100000x128.rank) ∈ sd.scatterDimsToOperandDims by decide)]
  congr 2
  funext b
  match b with
  | ⟨0, _⟩ => rfl
  | ⟨1, _⟩ => rfl

theorem sc_start1 (idx : IVec S1600000x1 32) (j : S1600000x128.Idx) : sd.start j idx 1 = 0 := by
  unfold ScatterDims.start
  rw [dif_neg (show ¬ (1 : Fin S100000x128.rank) ∈ sd.scatterDimsToOperandDims by decide)]

theorem sc_window0 (j : S1600000x128.Idx) : sd.window j 0 = 0 := by
  unfold ScatterDims.window
  rw [dif_neg (show ¬ (0 : Fin S100000x128.rank) ∈ sd.sKept by decide)]

theorem sc_window1 (e : Fin 1600000) (k : Fin 128) : sd.window (ix2 e k : S1600000x128.Idx) 1 = k.val := by
  unfold ScatterDims.window
  rw [dif_pos (show (1 : Fin S100000x128.rank) ∈ sd.sKept by decide)]
  rfl

/-- The update element (e, k') lands on the element (r, k) exactly when row word e, read signed, is r and k' = k. -/
theorem sc_lands_iff (idx : IVec S1600000x1 32) (e : Fin 1600000) (k' : Fin 128) (r : Fin 100000) (k : Fin 128) :
    sd.resultIdx? (ix2 e k' : S1600000x128.Idx) idx = some (ix2 r k : S100000x128.Idx) ↔
      ((idx (ix2 e (0 : Fin 1))).toInt = (r.val : Int) ∧ k' = k) := by
  unfold ScatterDims.resultIdx?
  constructor
  · intro h
    split at h
    · rename_i hr
      have hf := Option.some.inj h
      have h0 : (sd.start (ix2 e k' : S1600000x128.Idx) idx 0 + (sd.window (ix2 e k' : S1600000x128.Idx) 0 : Int)).toNat = r.val :=
        congrArg (fun f : S100000x128.Idx => (f 0).val) hf
      have h1 : (sd.start (ix2 e k' : S1600000x128.Idx) idx 1 + (sd.window (ix2 e k' : S1600000x128.Idx) 1 : Int)).toNat = k.val :=
        congrArg (fun f : S100000x128.Idx => (f 1).val) hf
      have hr0 := (hr 0).1
      rw [sc_start0, sc_window0] at h0 hr0
      rw [sc_start1, sc_window1] at h1
      exact ⟨by omega, Fin.ext (by omega)⟩
    · exact absurd h (by simp)
  · rintro ⟨h0, rfl⟩
    have hr : ∀ a, 0 ≤ sd.start (ix2 e k' : S1600000x128.Idx) idx a + (sd.window (ix2 e k' : S1600000x128.Idx) a : Int) ∧
        sd.start (ix2 e k' : S1600000x128.Idx) idx a + (sd.window (ix2 e k' : S1600000x128.Idx) a : Int) < S100000x128.size a := by
      refine Fin.forall_fin_two.2 ⟨?_, ?_⟩
      · rw [sc_start0, sc_window0, h0]
        show (0 : Int) ≤ _ ∧ _ < ((100000 : ℕ) : Int)
        have := r.isLt
        omega
      · rw [sc_start1, sc_window1]
        show (0 : Int) ≤ _ ∧ _ < ((128 : ℕ) : Int)
        have := k'.isLt
        omega
    rw [dif_pos hr]
    refine congrArg some (funext ?_)
    refine Fin.forall_fin_two.2 ⟨Fin.ext ?_, Fin.ext ?_⟩
    · show (sd.start (ix2 e k' : S1600000x128.Idx) idx 0 + (sd.window (ix2 e k' : S1600000x128.Idx) 0 : Int)).toNat = r.val
      rw [sc_start0, sc_window0, h0]; omega
    · show (sd.start (ix2 e k' : S1600000x128.Idx) idx 1 + (sd.window (ix2 e k' : S1600000x128.Idx) 1 : Int)).toNat = k'.val
      rw [sc_start1, sc_window1]; omega

/-- The scatter-add at the element (r, k): the operand there plus, over the edges, the update's element (e, k) where
    row word e is the word of r. -/
theorem scatter_apply (x : FVec Ideal S100000x128 .f32) (idx : IVec S1600000x1 32) (upd : FVec Ideal S1600000x128 .f32)
    (r : Fin 100000) (k : Fin 128) :
    Host.scatterAdd (F := Ideal) sd x idx upd (ix2 r k) =
      x (ix2 r k) + ∑ e : Fin 1600000, Cert.Spec.oh (idx (ix2 e (0 : Fin 1))) r.val * upd (ix2 e k) := by
  show x (ix2 r k) + ∑ j ∈ Finset.univ.filter (fun j => sd.resultIdx? j idx = some (ix2 r k)), upd j = _
  refine congrArg (x (ix2 r k) + ·) ?_
  rw [Finset.sum_filter, sum_idx2]
  refine Finset.sum_congr rfl fun e _ => ?_
  simp only [sc_lands_iff]
  unfold Cert.Spec.oh
  have hr : r.val < 2 ^ 31 := by have := r.isLt; omega
  by_cases h : idx (ix2 e (0 : Fin 1)) = BitVec.ofNat 32 r.val
  · rw [if_pos h, one_mul]
    have ht : (idx (ix2 e (0 : Fin 1))).toInt = (r.val : Int) := (toInt_eq_iff _ _ hr).2 h
    simp only [ht, true_and]
    rw [Finset.sum_ite_eq' Finset.univ k (fun k' => upd (ix2 e k')), if_pos (Finset.mem_univ k)]
  · rw [if_neg h, zero_mul]
    have ht : ¬ (idx (ix2 e (0 : Fin 1))).toInt = (r.val : Int) := fun hc => h ((toInt_eq_iff _ _ hr).1 hc)
    simp only [ht, false_and, if_false, Finset.sum_const_zero]

/-! ## The gather read at an element -/

/-- The gather's dimension numbers. -/
abbrev gd := gather_S100000x128_S1600000x1_S1600000x128_1_0_n_n_0_1_1128

/-- The gather at (e, k): the operand at row "start word e, read signed and cut to the last row", column k. -/
theorem gather_apply {α : Type} (x : S100000x128.Idx → α) (idx : IVec S1600000x1 32) (e : Fin 1600000) (k : Fin 128) :
    Host.gather gd x idx (ix2 e k : S1600000x128.Idx) =
      x (ix2 (⟨min (idx (ix2 e (0 : Fin 1))).toInt.toNat 99999, by omega⟩ : Fin 100000) k) := by
  unfold Host.gather
  refine congrArg x (funext ?_)
  refine Fin.forall_fin_two.2 ⟨Fin.ext ?_, Fin.ext ?_⟩
  · show gd.start (ix2 e k : S1600000x128.Idx) idx 0 + gd.batchCoord (ix2 e k : S1600000x128.Idx) 0
        + gd.offCoord (ix2 e k : S1600000x128.Idx) 0 = min (idx (ix2 e (0 : Fin 1))).toInt.toNat 99999
    rw [GatherDims.batchCoord_eq_zero _ _ _ (show ¬ (0 : Fin S100000x128.rank) ∈ gd.operandBatchingDims by decide),
      GatherDims.offCoord_eq_zero _ _ _ (show ¬ (0 : Fin S100000x128.rank) ∈ gd.sKept by decide)]
    simp only [Nat.add_zero]
    unfold GatherDims.start
    rw [dif_pos (show (0 : Fin S100000x128.rank) ∈ gd.startIndexMap by decide)]
    have hsi : gd.siIdx (ix2 e k : S1600000x128.Idx) ⟨List.idxOf (0 : Fin S100000x128.rank) gd.startIndexMap,
        List.idxOf_lt_length_iff.2 (show (0 : Fin S100000x128.rank) ∈ gd.startIndexMap by decide)⟩ = ix2 e (0 : Fin 1) := by
      funext b
      match b with
      | ⟨0, _⟩ => rfl
      | ⟨1, _⟩ => rfl
    rw [hsi]
    rfl
  · show gd.start (ix2 e k : S1600000x128.Idx) idx 1 + gd.batchCoord (ix2 e k : S1600000x128.Idx) 1
        + gd.offCoord (ix2 e k : S1600000x128.Idx) 1 = k.val
    rw [GatherDims.batchCoord_eq_zero _ _ _ (show ¬ (1 : Fin S100000x128.rank) ∈ gd.operandBatchingDims by decide), Nat.add_zero]
    unfold GatherDims.start GatherDims.offCoord
    rw [dif_neg (show ¬ (1 : Fin S100000x128.rank) ∈ gd.startIndexMap by decide),
      dif_pos (show (1 : Fin S100000x128.rank) ∈ gd.sKept by decide), Nat.zero_add]
    rfl

/-- A column word below 100000 passes the reference's sign test unchanged: the start word of edge e is the word itself. -/
theorem start_word (x2 : (⟨S1600000, .i32⟩ : BufTy).Contents (Elt Ideal)) (e : Fin 1600000)
    (h : (x2 (ix1 e)).toNat < 100000) :
    val_main_v6 (F := Ideal) x2 (ix2 e (0 : Fin 1)) = x2 (ix1 e) := by
  have hi : idx_main_v6 (ix2 e (0 : Fin 1)) = ix1 e := by
    funext a
    match a with
    | ⟨0, _⟩ => rfl
  rw [val_main_v6_apply, hi, val_main_v5_apply, val_main_v2_apply, val_main_v1_apply, val_main_c_apply]
  have hc : ¬ IntOp.cmpi .slt (x2 (ix1 e)) 0#32 = 1#1 := by
    have ht : (x2 (ix1 e)).toInt = ((x2 (ix1 e)).toNat : Int) := toInt_of_small _ (by omega)
    have h0 : (0#32 : BitVec 32).toInt = 0 := by decide
    have hs : (x2 (ix1 e)).slt 0#32 = false := by
      simp only [BitVec.slt, ht, h0, decide_eq_false_iff_not]; omega
    show ¬ BitVec.ofBool ((x2 (ix1 e)).slt 0#32) = 1#1
    rw [hs]; decide
  rw [eq_zero_of_ne_one hc, select_zero]

/-! ## The edge product, and the result -/

/-- The scaled gathered row at (e, k): edge value e times x at the node column word e names, column k. -/
theorem edge_value (x0 : (⟨S100000x128, .f32⟩ : BufTy).Contents (Elt Ideal))
    (x2 : (⟨S1600000, .i32⟩ : BufTy).Contents (Elt Ideal)) (x3 : (⟨S1600000, .f32⟩ : BufTy).Contents (Elt Ideal))
    (e : Fin 1600000) (k : Fin 128) (h : (x2 (ix1 e)).toNat < 100000) :
    val_main_v9 (F := Ideal) x0 x2 x3 (ix2 e k) = x3 (ix1 e) * x0 (ix2 (Cert.Spec.node (x2 (ix1 e))) k) := by
  rw [val_main_v9_apply]
  show val_main_v8 (F := Ideal) x3 (ix2 e k) * val_main_v7 (F := Ideal) x0 x2 (ix2 e k) = _
  have h8 : val_main_v8 (F := Ideal) x3 (ix2 e k) = x3 (ix1 e) := by
    rw [val_main_v8_apply, val_main_v0_apply]
    refine congrArg x3 (funext fun a => ?_)
    match a with
    | ⟨0, _⟩ => rfl
  have h7 : val_main_v7 (F := Ideal) x0 x2 (ix2 e k) = x0 (ix2 (Cert.Spec.node (x2 (ix1 e))) k) := by
    unfold val_main_v7
    rw [gather_apply]
    refine congrArg (fun n : Fin 100000 => x0 (ix2 n k)) (Fin.ext ?_)
    show min (val_main_v6 (F := Ideal) x2 (ix2 e (0 : Fin 1))).toInt.toNat 99999 = min (x2 (ix1 e)).toNat 99999
    rw [start_word x2 e h, toInt_of_small _ (by omega), Int.toNat_natCast]
  rw [h8, h7]

/-- The reference's result at (r, o), under column words that name nodes. -/
theorem ref_value (x0 : (⟨S100000x128, .f32⟩ : BufTy).Contents (Elt Ideal))
    (x1 x2 : (⟨S1600000, .i32⟩ : BufTy).Contents (Elt Ideal)) (x3 : (⟨S1600000, .f32⟩ : BufTy).Contents (Elt Ideal))
    (x4 : (⟨S128x128, .f32⟩ : BufTy).Contents (Elt Ideal)) (x5 : (⟨S128, .f32⟩ : BufTy).Contents (Elt Ideal))
    (hcols : ∀ e : Fin 1600000, (x2 (ValueIdx.ix1 e)).toNat < 100000) (r : Fin 100000) (o : Fin 128) :
    Cert.ReferenceIdeal.Read.val_main_v16 (F := Ideal) x0 x1 x2 x3 x4 x5 (ValueIdx.ix2 r o) =
      Cert.Spec.refV (fun n k => x0 (ValueIdx.ix2 n k)) (fun e => x1 (ValueIdx.ix1 e)) (fun e => x2 (ValueIdx.ix1 e))
        (fun e => x3 (ValueIdx.ix1 e)) (fun o k => x4 (ValueIdx.ix2 o k)) (fun o => x5 (ValueIdx.ix1 o)) r o := by
  rw [val_main_v16_apply]
  show val_main_v13 (F := Ideal) x0 x1 x2 x3 x4 (ix2 r o) + val_main_v15 (F := Ideal) x5 (ix2 r o) = _
  have hb : val_main_v15 (F := Ideal) x5 (ix2 r o) = x5 (ix1 o) := by
    rw [val_main_v15_apply, val_main_v14_apply]
    refine congrArg x5 (funext fun a => ?_)
    match a with
    | ⟨0, _⟩ => rfl
  have hagg : ∀ k : Fin 128, val_main_v12 (F := Ideal) x0 x1 x2 x3 (ix2 r k) =
      ∑ e : Fin 1600000, Cert.Spec.oh (x1 (ix1 e)) r.val * (x3 (ix1 e) * x0 (ix2 (Cert.Spec.node (x2 (ix1 e))) k)) := by
    intro k
    unfold val_main_v12
    rw [scatter_apply, val_main_v10_apply, val_main_cst_apply]
    show Ideal.ofBits .f32 0x00000000#32 + _ = _
    rw [Ideal.ofBits_zero_f32, zero_add]
    refine Finset.sum_congr rfl fun e _ => ?_
    rw [edge_value x0 x2 x3 e k (hcols e), val_main_v11_apply]
    refine congrArg (fun i => Cert.Spec.oh (x1 i) r.val * _) (funext fun a => ?_)
    match a with
    | ⟨0, _⟩ => rfl
  rw [val_main_v13_apply, hb]
  unfold Cert.Spec.refV
  refine congrArg (· + x5 (ix1 o)) (Finset.sum_congr rfl fun k _ => ?_)
  have hl : lidx_main_v13 (ix2 r o) k = ix2 r k := by
    funext a
    match a with
    | ⟨0, _⟩ => rfl
    | ⟨1, _⟩ => rfl
  have hr : ridx_main_v13 (ix2 r o) k = ix2 o k := by
    funext a
    match a with
    | ⟨0, _⟩ => rfl
    | ⟨1, _⟩ => rfl
  rw [hl, hr, hagg k]

end Cert.ReferenceIdeal.RefValue

end
-- ==== Proof.lean ====
/-
  The certificate of a graph convolution: out = segment_sum(vals · x[cols], rows) · Wᵀ + b over 100000 nodes, 1600000
  edges and 128 channels. The kernel projects first (y = x · Wᵀ on the matrix unit, 2000 rows at a time), then gathers
  (g[e] = vals[e] · y[cols[e]], as the product of a 0/1 comparison matrix with tiles of y, accumulated over 100 node
  tiles), then scatter-adds (out[r] = Σ_e [rows e = r] · g[e] + b, as the product of a 0/1 comparison matrix with
  tiles of g, accumulated over 625 edge tiles). The reference gathers, aggregates and projects last.

  The three frames: each kernel program runs its three regions among host stretches and leaves its arguments as it
  found them (the run over the regions, read at the arguments); the reference is host operations only. The ideal pass
  rewrote nothing, so there is nothing to preserve. Over the extended reals, from memories agreeing on the arguments,
  the kernel's result array is, index by index, the composition of its three regions' functions, and the reference's
  is the aggregate-then-project sum; where every float entry is a real number and every column index names a node the
  two are one function: the one-hot sum over the nodes picks the row cols e, and the distributive law moves the
  projection across the aggregation.
-/
import proofs.«411619_j43928925503801_1_alg».proof.Defs
import proofs.«411619_j43928925503801_1_alg».proof.Proof.Gen.Kernel
import proofs.«411619_j43928925503801_1_alg».proof.Proof.Gen.KernelIdeal
import proofs.«411619_j43928925503801_1_alg».proof.Proof.Gen.ReferenceIdeal
import proofs.«411619_j43928925503801_1_alg».proof.Proof.Gen.Pre_finite_inputs
import proofs.«411619_j43928925503801_1_alg».proof.Proof.K.Frame
import proofs.«411619_j43928925503801_1_alg».proof.Proof.KI.Frame
import proofs.«411619_j43928925503801_1_alg».proof.Proof.KI.Value
import proofs.«411619_j43928925503801_1_alg».proof.Proof.Ref.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Regions.frame m ρ

theorem frame_ki : Cert.frame_KernelIdeal := fun m ρ _ => Cert.KernelIdeal.Regions.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with one result: the kernel's array after its third region, which under the
    precondition is the reference's aggregate-then-project function of the arguments. -/
theorem algebraic : Cert.algebraic_KernelIdeal_ReferenceIdeal := by
  intro m ρ m' ρ' hpre hagree
  refine ⟨fun c => Cert.KernelIdeal.Regions.W6 (F := Ideal) m c (Proc.devRef .tc Cert.KernelIdeal.main_v7),
    Cert.KernelIdeal.Regions.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  refine (Cert.ReferenceIdeal.Read.val_main_v16_eq (F := Ideal) _ _ _ _ _ _).trans ?_
  funext i
  obtain ⟨r, o, rfl⟩ : ∃ (r : Fin 100000) (o : Fin 128), i = ix2 r o := ⟨i 0, i 1, eq_ix2 i⟩
  obtain ⟨-, -, -, -, hc⟩ := Cert.KernelIdeal.Regions.pre_facts m hpre c
  exact (Cert.ReferenceIdeal.RefValue.ref_value _ _ _ _ _ _ hc r o).trans
    (Cert.KernelIdeal.Regions.result_value m hpre c r o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
